-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S2048 : Shape := ⟨1, ![2048]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2000000 : S_.BroadcastsInDim S2000000 (![] : Fin 0 → Fin S2000000.rank)
  reducesTo_S2000000_S_d0 : S2000000.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg5 : IVec S2048 32) (main_arg6 : IVec S2048 32) (main_v13 : IVec S_ 1) (main_v15 : IVec S2048 1) (main_c_5 : IVec S_ 32) : IVec S_ 1 :=
  let main_v16 : IVec S2048 32 := broadcastInDim S2048 ![] bcast_S_S2048 main_c_5
  let main_v17 : IVec S2048 1 := cmpi .slt main_arg5 main_v16
  let main_v18 : IVec S2048 1 := andi main_v15 main_v17
  let main_c_6 : IVec S_ 1 := constantI S_ 1 1#1
  let main_v19 : IVec S_ 1 := (fun x v => Host.reduce IntOp.andi x v reducesTo_S2048_S_d0 h_S_) main_v18 main_c_6
  let main_v20 : IVec S_ 1 := andi main_v13 main_v19
  let main_c_7 : IVec S_ 32 := constantI S_ 32 0#32
  let main_v21 : IVec S2048 32 := broadcastInDim S2048 ![] bcast_S_S2048 main_c_7
  let main_v22 : IVec S2048 1 := cmpi .sge main_arg6 main_v21
  let main_c_8 : IVec S_ 32 := constantI S_ 32 50000#32
  let main_v23 : IVec S2048 32 := broadcastInDim S2048 ![] bcast_S_S2048 main_c_8
  let main_v24 : IVec S2048 1 := cmpi .slt main_arg6 main_v23
  let main_v25 : IVec S2048 1 := andi main_v22 main_v24
  let main_c_9 : IVec S_ 1 := constantI S_ 1 1#1
  let main_v26 : IVec S_ 1 := (fun x v => Host.reduce IntOp.andi x v reducesTo_S2048_S_d0 h_S_) main_v25 main_c_9
  let main_v27 : IVec S_ 1 := andi main_v20 main_v26
  main_v27

def fn {F : FTy → Type} [FloatOps F] (main_arg0 : FVec F S100000x64 .f32) (main_arg1 : FVec F S50000x64 .f32) (main_arg2 : FVec F S2000000 .f32) (main_arg3 : IVec S2000000 32) (main_arg4 : IVec S2000000 32) (main_arg5 : IVec S2048 32) (main_arg6 : IVec S2048 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg5 main_v14
  let main_c_5 : IVec S_ 32 := constantI S_ 32 100000#32
  fn_part1 (F := F) main_arg5 main_arg6 main_v13 main_v15 main_c_5
-- ==== Kernel.lean ====
abbrev S100000x64 : Shape := ⟨2, ![100000, 64]⟩
abbrev S50000x64 : Shape := ⟨2, ![50000, 64]⟩
abbrev S2000000 : Shape := ⟨1, ![2000000]⟩
abbrev S2048 : Shape := ⟨1, ![2048]⟩
abbrev S2000x64 : Shape := ⟨2, ![2000, 64]⟩
abbrev S2000x63 : Shape := ⟨2, ![2000, 63]⟩
abbrev S2000 : Shape := ⟨1, ![2000]⟩
abbrev S2000x1 : Shape := ⟨2, ![2000, 1]⟩
abbrev S150000x64 : Shape := ⟨2, ![150000, 64]⟩
abbrev S_ : Shape := ⟨0, ![]⟩
abbrev S2000000x1 : Shape := ⟨2, ![2000000, 1]⟩
abbrev S2000000x64 : Shape := ⟨2, ![2000000, 64]⟩
abbrev S100000x1x64 : Shape := ⟨3, ![100000, 1, 64]⟩
abbrev S2048x1x64 : Shape := ⟨3, ![2048, 1, 64]⟩
abbrev S1x1x64 : Shape := ⟨3, ![1, 1, 64]⟩
abbrev S1 : Shape := ⟨1, ![1]⟩
abbrev S2048x64 : Shape := ⟨2, ![2048, 64]⟩
abbrev S50000x1x64 : Shape := ⟨3, ![50000, 1, 64]⟩
abbrev S54096x64 : Shape := ⟨2, ![54096, 64]⟩

abbrev nBuf : Space → Nat
  | .hbm => 70
  | .vmem => 16
  | .smem => 2
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .f32⟩
  | .hbm, ⟨3, _⟩ => ⟨S2000000, .i32⟩
  | .hbm, ⟨4, _⟩ => ⟨S2000000, .i32⟩
  | .hbm, ⟨5, _⟩ => ⟨S100000x64, .f32⟩
  | .hbm, ⟨6, _⟩ => ⟨S50000x64, .f32⟩
  | .hbm, ⟨7, _⟩ => ⟨S150000x64, .f32⟩
  | .hbm, ⟨8, _⟩ => ⟨S_, .f32⟩
  | .hbm, ⟨9, _⟩ => ⟨S150000x64, .f32⟩
  | .hbm, ⟨10, _⟩ => ⟨S2000000x1, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x64, .f32⟩
  | .hbm, ⟨20, _⟩ => ⟨S2000000x64, .f32⟩
  | .hbm, ⟨21, _⟩ => ⟨S2000000x64, .f32⟩
  | .hbm, ⟨22, _⟩ => ⟨S_, .f32⟩
  | .hbm, ⟨23, _⟩ => ⟨S150000x64, .f32⟩
  | .hbm, ⟨24, _⟩ => ⟨S2000000x1, .i32⟩
  | .hbm, ⟨25, _⟩ => ⟨S150000x64, .f32⟩
  | .hbm, ⟨26, _⟩ => ⟨S150000x64, .f32⟩
  | .hbm, ⟨27, _⟩ => ⟨S2000000x1, .f32⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S2000000x64, .f32⟩
  | .hbm, ⟨37, _⟩ => ⟨S2000000x64, .f32⟩
  | .hbm, ⟨38, _⟩ => ⟨S2000000x64, .f32⟩
  | .hbm, ⟨39, _⟩ => ⟨S_, .f32⟩
  | .hbm, ⟨40, _⟩ => ⟨S150000x64, .f32⟩
  | .hbm, ⟨41, _⟩ => ⟨S2000000x1, .i32⟩
  | .hbm, ⟨42, _⟩ => ⟨S150000x64, .f32⟩
  | .hbm, ⟨43, _⟩ => ⟨S150000x64, .f32⟩
  | .hbm, ⟨44, _⟩ => ⟨S2000000x1, .f32⟩
  | .hbm, ⟨45, _⟩ => ⟨S_, .i32⟩
  | .hbm, ⟨46, _⟩ => ⟨S2000000, .i32⟩
  | .hbm, ⟨47, _⟩ => ⟨S2000000, .i1⟩
  | .hbm, ⟨48, _⟩ => ⟨S_, .i32⟩
  | .hbm, ⟨49, _⟩ => ⟨S2000000, .i32⟩
  | .hbm, ⟨50, _⟩ => ⟨S2000000, .i32⟩
  | .hbm, ⟨51, _⟩ => ⟨S2000000, .i32⟩
  | .hbm, ⟨52, _⟩ => ⟨S2000000x1, .i32⟩
  | .hbm, ⟨53, _⟩ => ⟨S2000000x64, .f32⟩
  | .hbm, ⟨54, _⟩ => ⟨S2000000x64, .f32⟩
  | .hbm, ⟨55, _⟩ => ⟨S2000000x64, .f32⟩
  | .hbm, ⟨56, _⟩ => ⟨S_, .f32⟩
  | .hbm, ⟨57, _⟩ => ⟨S150000x64, .f32⟩
  | .hbm, ⟨58, _⟩ => ⟨S2000000x1, .i32⟩
  | .hbm, ⟨59, _⟩ => ⟨S150000x64, .f32⟩
  | .hbm, ⟨60, _⟩ => ⟨S150000x64, .f32⟩
  | .hbm, ⟨61, _⟩ => ⟨S100000x64, .f32⟩
  | .hbm, ⟨62, _⟩ => ⟨S50000x64, .f32⟩
  | .hbm, ⟨63, _⟩ => ⟨S100000x1x64, .f32⟩
  | .hbm, ⟨64, _⟩ => ⟨S2048x1x64, .f32⟩
  | .hbm, ⟨65, _⟩ => ⟨S2048x64, .f32⟩
  | .hbm, ⟨66, _⟩ => ⟨S50000x1x64, .f32⟩
  | .hbm, ⟨67, _⟩ => ⟨S2048x1x64, .f32⟩
  | .hbm, ⟨68, _⟩ => ⟨S2048x64, .f32⟩
  | .hbm, ⟨69, _⟩ => ⟨S54096x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .smem, ⟨0, _⟩ => ⟨S2048, .i32⟩
  | .local _ .smem, ⟨1, _⟩ => ⟨S2048, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![2048], ![false]⟩

abbrev pre2 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S2048.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S2048) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![2048], ![false]⟩

abbrev pre3 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S2048.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S2048) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  inb_S2000x64_S2000x64_0_0 : ∀ a, (![0, 0] : Fin 2 → Nat) a + S2000x64.size a ≤ S2000x64.size a
  h_S2000x64 : 0 < S2000x64.numel
  slices_S2000x64_o0_1_S2000x63 : S2000x64.Slices ![0, 1] S2000x63
  reduces_S2000x63_S2000 : S2000x63.Reduces [1] S2000
  shapeCasts_S2000_S2000x1 : S2000.ShapeCasts S2000x1
  broadcasts_S2000x1_S2000x63 : S2000x1.Broadcasts S2000x63
  inb_S2000x64_S2000x1_0_0 : ∀ a, (![0, 0] : Fin 2 → Nat) a + S2000x1.size a ≤ S2000x64.size a
  h_S2000x1 : 0 < S2000x1.numel
  inb_S2000x64_S2000x63_0_1 : ∀ a, (![0, 1] : Fin 2 → Nat) a + S2000x63.size a ≤ S2000x64.size a
  h_S2000x63 : 0 < S2000x63.numel
  concatenates_S100000x64_S50000x64_S150000x64_d0 : Shape.Concatenates [S100000x64, S50000x64] S150000x64 0
  bcast_S_S150000x64 : S_.BroadcastsInDim S150000x64 (![] : Fin 0 → Fin S150000x64.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  slices_S150000x64_S100000x64_0_0 : S150000x64.Slices ![0, 0] S100000x64
  slices_S150000x64_S50000x64_100000_0 : S150000x64.Slices ![100000, 0] S50000x64
  shapeCasts_S100000x64_S100000x1x64 : S100000x64.ShapeCasts S100000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S2048x1x64_S2048x64 : S2048x1x64.ShapeCasts S2048x64
  shapeCasts_S50000x64_S50000x1x64 : S50000x64.ShapeCasts S50000x1x64
  concatenates_S2048x64_S2048x64_S50000x64_S54096x64_d0 : Shape.Concatenates [S2048x64, S2048x64, S50000x64] S54096x64 0
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hrank2 : 0 < grid2.rank
  k2_off1_inb : ∀ i : grid2.Coords, ∀ a, (k2_off1 i) a + S1.size a ≤ S2048.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x64.size a ≤ S2048x1x64.size a
  hwx2_1 : ∀ i : grid2.Coords, EltTy.bits .f32 = 32 ∨ (Rect.block (s := S2048x1x64) S1x1x64.size (cc2_transform_1 i) (hinb2_1 i)).WholeWords (EltTy.packing .f32)
  hrank3 : 0 < grid3.rank
  k3_off1_inb : ∀ i : grid3.Coords, ∀ a, (k3_off1 i) a + S1.size a ≤ S2048.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x64.size a ≤ S2048x1x64.size a
  hwx3_1 : ∀ i : grid3.Coords, EltTy.bits .f32 = 32 ∨ (Rect.block (s := S2048x1x64) S1x1x64.size (cc3_transform_1 i) (hinb3_1 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev spec2_0 : Pipeline.WinSpec sig grid2.rank :=
  Pipeline.WinSpec.ofSpec (Memref.whole main_v48) S1x1x64.size reads2_0 false false 2 stage2_0 sem2_0 nbuf2_0 hstage2_0

abbrev spec2_1 : Pipeline.WinSpec sig grid2.rank :=
  Pipeline.WinSpec.ofSpec (Memref.whole main_v49) S1x1x64.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_0 k2_off1_inb numel1_S1 pf | 1 => cc2_transform_1 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | ⟨_ + 2, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x64.size a ≤ S100000x1x64.size a), EltTy.bits .f32 = 32 ∨ (Rect.block (s := S100000x1x64) S1x1x64.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | ⟨_ + 2, h⟩ => absurd h (Nat.not_lt.2 (Nat.le_add_left _ _))
abbrev spec3_0 : Pipeline.WinSpec sig grid3.rank :=
  Pipeline.WinSpec.ofSpec (Memref.whole main_v51) S1x1x64.size reads3_0 false false 2 stage3_0 sem3_0 nbuf3_0 hstage3_0

abbrev spec3_1 : Pipeline.WinSpec sig grid3.rank :=
  Pipeline.WinSpec.ofSpec (Memref.whole main_v52) S1x1x64.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_0 k3_off1_inb numel1_S1 pf | 1 => cc3_transform_1 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | ⟨_ + 2, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x64.size a ≤ S50000x1x64.size a), EltTy.bits .f32 = 32 ∨ (Rect.block (s := S50000x1x64) S1x1x64.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | ⟨_ + 2, h⟩ => absurd h (Nat.not_lt.2 (Nat.le_add_left _ _))

class Facts : Prop extends Facts₀ where
  harr2 : ∀ w, (spec2 w).arr.IsWhole
  harr3 : ∀ w, (spec3 w).arr.IsWhole

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S2048 : Shape := ⟨1, ![2048]⟩
abbrev S100000x63 : Shape := ⟨2, ![100000, 63]⟩
abbrev S_ : Shape := ⟨0, ![]⟩
abbrev S100000 : Shape := ⟨1, ![100000]⟩
abbrev S100000x1 : Shape := ⟨2, ![100000, 1]⟩
abbrev S50000x63 : Shape := ⟨2, ![50000, 63]⟩
abbrev S50000 : Shape := ⟨1, ![50000]⟩
abbrev S50000x1 : Shape := ⟨2, ![50000, 1]⟩
abbrev S150000x64 : Shape := ⟨2, ![150000, 64]⟩
abbrev S2000000x1 : Shape := ⟨2, ![2000000, 1]⟩
abbrev S2000000x64 : Shape := ⟨2, ![2000000, 64]⟩
abbrev S2048x1 : Shape := ⟨2, ![2048, 1]⟩
abbrev S2048x64 : Shape := ⟨2, ![2048, 64]⟩
abbrev S54096x64 : Shape := ⟨2, ![54096, 64]⟩

abbrev nBuf : Space → Nat
  | .hbm => 194
  | .vmem => 0
  | .smem => 0
  | _ => 0

abbrev hbmTy0_0 (i : Nat) : BufTy := match i % 128 with
  | 0 => ⟨S100000x64, .f32⟩
  | 1 => ⟨S50000x64, .f32⟩
  | 2 => ⟨S2000000, .f32⟩
  | 3 => ⟨S2000000, .i32⟩
  | 4 => ⟨S2000000, .i32⟩
  | 5 => ⟨S2048, .i32⟩
  | 6 => ⟨S2048, .i32⟩
  | 7 => ⟨S100000x63, .f32⟩
  | 8 => ⟨S100000x63, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S_, .f32⟩
  | 16 => ⟨S_, .f32⟩
  | 17 => ⟨S100000x1, .f32⟩
  | 18 => ⟨S100000x1, .f32⟩
  | 19 => ⟨S100000x1, .f32⟩
  | 20 => ⟨S100000x64, .f32⟩
  | 21 => ⟨S_, .f32⟩
  | 22 => ⟨S_, .f32⟩
  | 23 => ⟨S100000x63, .f32⟩
  | 24 => ⟨S100000x63, .f32⟩
  | 25 => ⟨S_, .f32⟩
  | 26 => ⟨S100000, .f32⟩
  | 27 => ⟨S100000x1, .f32⟩
  | 28 => ⟨S100000x1, .f32⟩
  | 29 => ⟨S_, .f32⟩
  | 30 => ⟨S_, .f32⟩
  | 31 => ⟨S100000x1, .f32⟩
  | 32 => ⟨S100000x1, .f32⟩
  | 33 => ⟨S100000x1, .f32⟩
  | 34 => ⟨S_, .f32⟩
  | 35 => ⟨S100000x1, .f32⟩
  | 36 => ⟨S100000x1, .f32⟩
  | 37 => ⟨S_, .f32⟩
  | 38 => ⟨S_, .f32⟩
  | 39 => ⟨S100000x1, .f32⟩
  | 40 => ⟨S100000x1, .f32⟩
  | 41 => ⟨S_, .f32⟩
  | 42 => ⟨S_, .f32⟩
  | 43 => ⟨S100000x1, .f32⟩
  | 44 => ⟨S100000x1, .f32⟩
  | 45 => ⟨S100000x1, .f32⟩
  | 46 => ⟨S_, .f32⟩
  | 47 => ⟨S100000x1, .f32⟩
  | 48 => ⟨S100000x1, .f32⟩
  | 49 => ⟨S100000x1, .f32⟩
  | 50 => ⟨S100000x1, .f32⟩
  | 51 => ⟨S100000x1, .f32⟩
  | 52 => ⟨S_, .f32⟩
  | 53 => ⟨S100000x1, .f32⟩
  | 54 => ⟨S100000x1, .f32⟩
  | 55 => ⟨S100000x63, .f32⟩
  | 56 => ⟨S100000x63, .f32⟩
  | 57 => ⟨S100000x63, .f32⟩
  | 58 => ⟨S100000x63, .f32⟩
  | 59 => ⟨S100000x1, .f32⟩
  | 60 => ⟨S_, .f32⟩
  | 61 => ⟨S100000x1, .f32⟩
  | 62 => ⟨S100000x64, .f32⟩
  | 63 => ⟨S50000x63, .f32⟩
  | 64 => ⟨S50000x63, .f32⟩
  | 65 => ⟨S_, .f32⟩
  | 66 => ⟨S50000, .f32⟩
  | 67 => ⟨S50000x1, .f32⟩
  | 68 => ⟨S_, .f32⟩
  | 69 => ⟨S50000x1, .f32⟩
  | 70 => ⟨S50000x1, .f32⟩
  | 71 => ⟨S_, .f32⟩
  | 72 => ⟨S_, .f32⟩
  | 73 => ⟨S50000x1, .f32⟩
  | 74 => ⟨S50000x1, .f32⟩
  | 75 => ⟨S50000x1, .f32⟩
  | 76 => ⟨S50000x64, .f32⟩
  | 77 => ⟨S_, .f32⟩
  | 78 => ⟨S_, .f32⟩
  | 79 => ⟨S50000x63, .f32⟩
  | 80 => ⟨S50000x63, .f32⟩
  | 81 => ⟨S_, .f32⟩
  | 82 => ⟨S50000, .f32⟩
  | 83 => ⟨S50000x1, .f32⟩
  | 84 => ⟨S50000x1, .f32⟩
  | 85 => ⟨S_, .f32⟩
  | 86 => ⟨S_, .f32⟩
  | 87 => ⟨S50000x1, .f32⟩
  | 88 => ⟨S50000x1, .f32⟩
  | 89 => ⟨S50000x1, .f32⟩
  | 90 => ⟨S_, .f32⟩
  | 91 => ⟨S50000x1, .f32⟩
  | 92 => ⟨S50000x1, .f32⟩
  | 93 => ⟨S_, .f32⟩
  | 94 => ⟨S_, .f32⟩
  | 95 => ⟨S50000x1, .f32⟩
  | 96 => ⟨S50000x1, .f32⟩
  | 97 => ⟨S_, .f32⟩
  | 98 => ⟨S_, .f32⟩
  | 99 => ⟨S50000x1, .f32⟩
  | 100 => ⟨S50000x1, .f32⟩
  | 101 => ⟨S50000x1, .f32⟩
  | 102 => ⟨S_, .f32⟩
  | 103 => ⟨S50000x1, .f32⟩
  | 104 => ⟨S50000x1, .f32⟩
  | 105 => ⟨S50000x1, .f32⟩
  | 106 => ⟨S50000x1, .f32⟩
  | 107 => ⟨S50000x1, .f32⟩
  | 108 => ⟨S_, .f32⟩
  | 109 => ⟨S50000x1, .f32⟩
  | 110 => ⟨S50000x1, .f32⟩
  | 111 => ⟨S50000x63, .f32⟩
  | 112 => ⟨S50000x63, .f32⟩
  | 113 => ⟨S50000x63, .f32⟩
  | 114 => ⟨S50000x63, .f32⟩
  | 115 => ⟨S50000x1, .f32⟩
  | 116 => ⟨S_, .f32⟩
  | 117 => ⟨S50000x1, .f32⟩
  | 118 => ⟨S50000x64, .f32⟩
  | 119 => ⟨S150000x64, .f32⟩
  | 120 => ⟨S_, .f32⟩
  | 121 => ⟨S150000x64, .f32⟩
  | 122 => ⟨S2000000x1, .f32⟩
  | 123 => ⟨S_, .i32⟩
  | 124 => ⟨S2000000, .i32⟩
  | 125 => ⟨S2000000, .i1⟩
  | 126 => ⟨S_, .i32⟩
  | 127 => ⟨S2000000, .i32⟩
  | _ => ⟨S100000x64, .f32⟩

abbrev hbmTy0_1 (i : Nat) : BufTy := match i % 128 with
  | 0 => ⟨S2000000, .i32⟩
  | 1 => ⟨S2000000, .i32⟩
  | 2 => ⟨S2000000x1, .i32⟩
  | 3 => ⟨S2000000x64, .f32⟩
  | 4 => ⟨S2000000x64, .f32⟩
  | 5 => ⟨S2000000x64, .f32⟩
  | 6 => ⟨S_, .f32⟩
  | 7 => ⟨S150000x64, .f32⟩
  | 8 => ⟨S2000000x1, .i32⟩
  | 9 => ⟨S150000x64, .f32⟩
  | 10 => ⟨S150000x64, .f32⟩
  | 11 => ⟨S2000000x1, .f32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000x64, .f32⟩
  | 21 => ⟨S2000000x64, .f32⟩
  | 22 => ⟨S2000000x64, .f32⟩
  | 23 => ⟨S_, .f32⟩
  | 24 => ⟨S150000x64, .f32⟩
  | 25 => ⟨S2000000x1, .i32⟩
  | 26 => ⟨S150000x64, .f32⟩
  | 27 => ⟨S150000x64, .f32⟩
  | 28 => ⟨S2000000x1, .f32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000x64, .f32⟩
  | 38 => ⟨S2000000x64, .f32⟩
  | 39 => ⟨S2000000x64, .f32⟩
  | 40 => ⟨S_, .f32⟩
  | 41 => ⟨S150000x64, .f32⟩
  | 42 => ⟨S2000000x1, .i32⟩
  | 43 => ⟨S150000x64, .f32⟩
  | 44 => ⟨S150000x64, .f32⟩
  | 45 => ⟨S100000x64, .f32⟩
  | 46 => ⟨S50000x64, .f32⟩
  | 47 => ⟨S_, .i32⟩
  | 48 => ⟨S2048, .i32⟩
  | 49 => ⟨S2048, .i1⟩
  | 50 => ⟨S_, .i32⟩
  | 51 => ⟨S2048, .i32⟩
  | 52 => ⟨S2048, .i32⟩
  | 53 => ⟨S2048, .i32⟩
  | 54 => ⟨S2048x1, .i32⟩
  | 55 => ⟨S2048x64, .f32⟩
  | 56 => ⟨S_, .i32⟩
  | 57 => ⟨S2048, .i32⟩
  | 58 => ⟨S2048, .i1⟩
  | 59 => ⟨S_, .i32⟩
  | 60 => ⟨S2048, .i32⟩
  | 61 => ⟨S2048, .i32⟩
  | 62 => ⟨S2048, .i32⟩
  | 63 => ⟨S2048x1, .i32⟩
  | 64 => ⟨S2048x64, .f32⟩
  | 65 => ⟨S54096x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_call3_v0 : Ref sig .tc := ⟨.hbm, 38, rfl⟩
abbrev main_call3_v1 : Ref sig .tc := ⟨.hbm, 39, rfl⟩
abbrev main_v17 : Ref sig .tc := ⟨.hbm, 40, rfl⟩
abbrev main_cst_5 : Ref sig .tc := ⟨.hbm, 41, rfl⟩
abbrev main_call4_v0 : Ref sig .tc := ⟨.hbm, 42, rfl⟩
abbrev main_call4_v1 : Ref sig .tc := ⟨.hbm, 43, rfl⟩
abbrev main_v18 : Ref sig .tc := ⟨.hbm, 44, rfl⟩
abbrev main_v19 : Ref sig .tc := ⟨.hbm, 45, rfl⟩
abbrev main_cst_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_call5_v0 : Ref sig .tc := ⟨.hbm, 72, rfl⟩
abbrev main_call5_v1 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_11 : Ref sig .tc := ⟨.hbm, 77, rfl⟩
abbrev main_v44 : Ref sig .tc := ⟨.hbm, 78, rfl⟩
abbrev main_v45 : Ref sig .tc := ⟨.hbm, 79, rfl⟩
abbrev main_call6_v0 : Ref sig .tc := ⟨.hbm, 80, rfl⟩
abbrev main_call6_cst : Ref sig .tc := ⟨.hbm, 81, rfl⟩
abbrev main_call6_v1 : Ref sig .tc := ⟨.hbm, 82, rfl⟩
abbrev main_call6_v2 : Ref sig .tc := ⟨.hbm, 83, rfl⟩
abbrev main_v46 : Ref sig .tc := ⟨.hbm, 84, rfl⟩
abbrev main_cst_12 : Ref sig .tc := ⟨.hbm, 85, rfl⟩
abbrev main_call7_v0 : Ref sig .tc := ⟨.hbm, 86, rfl⟩
abbrev main_call7_v1 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_13 : Ref sig .tc := ⟨.hbm, 93, rfl⟩
abbrev main_call8_v0 : Ref sig .tc := ⟨.hbm, 94, rfl⟩
abbrev main_call8_v1 : Ref sig .tc := ⟨.hbm, 95, rfl⟩
abbrev main_v52 : Ref sig .tc := ⟨.hbm, 96, rfl⟩
abbrev main_cst_14 : Ref sig .tc := ⟨.hbm, 97, rfl⟩
abbrev main_call9_v0 : Ref sig .tc := ⟨.hbm, 98, rfl⟩
abbrev main_call9_v1 : Ref sig .tc := ⟨.hbm, 99, rfl⟩
abbrev main_v53 : Ref sig .tc := ⟨.hbm, 100, rfl⟩
abbrev main_v54 : Ref sig .tc := ⟨.hbm, 101, rfl⟩
abbrev main_cst_15 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_16 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_17 : Ref sig .tc := ⟨.hbm, 120, rfl⟩
abbrev main_v71 : Ref sig .tc := ⟨.hbm, 121, rfl⟩
abbrev main_v72 : Ref sig .tc := ⟨.hbm, 122, rfl⟩
abbrev main_c : Ref sig .tc := ⟨.hbm, 123, rfl⟩
abbrev main_v73 : Ref sig .tc := ⟨.hbm, 124, rfl⟩
abbrev main_v74 : Ref sig .tc := ⟨.hbm, 125, rfl⟩
abbrev main_c_18 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_19 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_c_20 : Ref sig .tc := ⟨.hbm, 140, rfl⟩
abbrev main_v87 : Ref sig .tc := ⟨.hbm, 141, rfl⟩
abbrev main_v88 : Ref sig .tc := ⟨.hbm, 142, rfl⟩
abbrev main_c_21 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_22 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_23 : Ref sig .tc := ⟨.hbm, 157, rfl⟩
abbrev main_v101 : Ref sig .tc := ⟨.hbm, 158, rfl⟩
abbrev main_v102 : Ref sig .tc := ⟨.hbm, 159, rfl⟩
abbrev main_c_24 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_cst_25 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_26 : Ref sig .tc := ⟨.hbm, 175, rfl⟩
abbrev main_v116 : Ref sig .tc := ⟨.hbm, 176, rfl⟩
abbrev main_v117 : Ref sig .tc := ⟨.hbm, 177, rfl⟩
abbrev main_c_27 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_c_28 : Ref sig .tc := ⟨.hbm, 184, rfl⟩
abbrev main_v123 : Ref sig .tc := ⟨.hbm, 185, rfl⟩
abbrev main_v124 : Ref sig .tc := ⟨.hbm, 186, rfl⟩
abbrev main_c_29 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩

abbrev nD : Nat := 1
abbrev τ : Topo := Topo.v7x

variable {F : FTy → Type} [FloatOps F]

class Facts₀ : Prop where
  slices_S100000x64_S100000x63_0_1 : S100000x64.Slices ![0, 1] S100000x63
  reducesTo_S100000x63_S100000_d1 : S100000x63.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  concatenates_S100000x1_S100000x63_S100000x64_d1 : Shape.Concatenates [S100000x1, S100000x63] S100000x64 1
  slices_S100000x64_S100000x1_0_0 : S100000x64.Slices ![0, 0] S100000x1
  bcast_S100000x1_S100000x63_0_1 : S100000x1.BroadcastsInDim S100000x63 (![0, 1] : Fin 2 → Fin S100000x63.rank)
  slices_S50000x64_S50000x63_0_1 : S50000x64.Slices ![0, 1] S50000x63
  reducesTo_S50000x63_S50000_d1 : S50000x63.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  concatenates_S50000x1_S50000x63_S50000x64_d1 : Shape.Concatenates [S50000x1, S50000x63] S50000x64 1
  slices_S50000x64_S50000x1_0_0 : S50000x64.Slices ![0, 0] S50000x1
  bcast_S50000x1_S50000x63_0_1 : S50000x1.BroadcastsInDim S50000x63 (![0, 1] : Fin 2 → Fin S50000x63.rank)
  concatenates_S100000x64_S50000x64_S150000x64_d0 : Shape.Concatenates [S100000x64, S50000x64] S150000x64 0
  bcast_S_S150000x64 : S_.BroadcastsInDim S150000x64 (![] : Fin 0 → Fin S150000x64.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  concatenates_S2048x64_S2048x64_S50000x64_S54096x64_d0 : Shape.Concatenates [S2048x64, S2048x64, S50000x64] S54096x64 0
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S2048x1_S2048x64_1_0_n_n_0_1_164_wf : GatherDims.WF S100000x64 S2048x1 S2048x64 [1] [0] [] [0] [] 1 ![1, 64]
  gather_S50000x64_S2048x1_S2048x64_1_0_n_n_0_1_164_wf : GatherDims.WF S50000x64 S2048x1 S2048x64 [1] [0] [] [0] [] 1 ![1, 64]

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def gather_S50000x64_S2048x1_S2048x64_1_0_n_n_0_1_164 : GatherDims S50000x64 S2048x1 S2048x64 where
  offsetDims := [1]
  collapsedSliceDims := [0]
  operandBatchingDims := []
  startIndicesBatchingDims := []
  startIndexMap := [0]
  indexVectorDim := 1
  sliceSizes := ![1, 64]
  wf := gather_S50000x64_S2048x1_S2048x64_1_0_n_n_0_1_164_wf

class Facts : Prop extends Facts₀ where

variable [Facts]
-- ==== Proof.K.Hyp0.lean ====
/-
  Region 0 of the kernel program: the row-tile map of the user table, at the contents `V` the
  region is entered from. A grid point `t` (50 of them) stages rows 2000·t … 2000·t + 1999 of the table, all 64
  columns; the body reads the tile once and writes the output tile in two pieces: column 0 (zeros) and columns
  1 … 63 (the tile's tangent-space image, a function of the tile alone). So the output tile after the body is the
  two pieces laid over whatever the buffer held, and they cover it.
-/
import proofs.«423441_j19576460935173_1_alg».proof.Proof.Gen.Kernel.Launch
import proofs.«423441_j19576460935173_1_alg».proof.Proof.Gen.Kernel.Skeleton
import proofs.«423441_j19576460935173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile is in its staging buffer at every point: it is fetched at every point and the body leaves it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole tile, its first column, and its last 63 columns. -/
abbrev tile0 : Rect S2000x64 := Rect.unit (s := S2000x64) ![0, 0] S2000x64.size inb_S2000x64_S2000x64_0_0
abbrev col0_0 : Rect S2000x64 := Rect.unit (s := S2000x64) ![0, 0] S2000x1.size inb_S2000x64_S2000x1_0_0
abbrev cols0 : Rect S2000x64 := Rect.unit (s := S2000x64) ![0, 1] S2000x63.size inb_S2000x64_S2000x63_0_1

/-- The output tile after the body, from the input tile: columns 1 … 63 at the tangent-space image of the input
    tile, column 0 at zero (the later store first). -/
def out0_1 (x0 : Vec F S2000x64 .f32) : Vec F S2000x64 .f32 :=
  View.canon [⟨cols0, k0_pay1 (View.ld x0 tile0)⟩, ⟨col0_0, k0_pay2 (F := F)⟩]

/-- Column 0 and columns 1 … 63 tile the 64 columns. -/
theorem cover0_1 (p0 : Vec F S2000x63 .f32) (p1 : Vec F S2000x1 .f32) (y : S2000x64.Idx) :
    ∃ pc ∈ ([⟨cols0, p0⟩, ⟨col0_0, p1⟩] : List (View.Piece (Elt F) S2000x64 .f32)), y ∈ pc.1.set :=
  View.cover_of_tiledBy [⟨cols0, p0⟩, ⟨col0_0, p1⟩] ![2000, 1] (by sl_kernel_rfl) y

set_option maxHeartbeats 1000000 in
/-- The body on whole staging buffers, the input's at `x0`, the output's at anything: it ends with the input's
    unchanged and the output's at `out0_1 x0`. -/
theorem sound_kernel0 (c : Dev nD) (E : Set ℕ) (i : grid0.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__hyp_kernel i arg1 harg1 arg2 harg2) K := by
  simp only [cc0__hyp_kernel_eq_skeleton]; unfold cc0__hyp_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _)

/-- The proof data of pipeline 0 on core `c`: the arrays as the region finds them; after the body at point `t` the
    input's buffer at its tile and the output's at `out0_1` of it; the scoped rest and the generator register ride
    along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Hyp1.lean ====
/-
  Region 1 of the kernel program: the row-tile map of the item table, at the contents `V` the
  region is entered from. A grid point `t` (25 of them) stages rows 2000·t … 2000·t + 1999 of the table, all 64
  columns; the body reads the tile once and writes the output tile in two pieces: column 0 (zeros) and columns
  1 … 63 (the tile's tangent-space image, a function of the tile alone). So the output tile after the body is the
  two pieces laid over whatever the buffer held, and they cover it.
-/
import proofs.«423441_j19576460935173_1_alg».proof.Proof.Gen.Kernel.Launch
import proofs.«423441_j19576460935173_1_alg».proof.Proof.Gen.Kernel.Skeleton
import proofs.«423441_j19576460935173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input tile is in its staging buffer at every point: it is fetched at every point and the body leaves it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole tile, its first column, and its last 63 columns. -/
abbrev tile1 : Rect S2000x64 := Rect.unit (s := S2000x64) ![0, 0] S2000x64.size inb_S2000x64_S2000x64_0_0
abbrev col1_0 : Rect S2000x64 := Rect.unit (s := S2000x64) ![0, 0] S2000x1.size inb_S2000x64_S2000x1_0_0
abbrev cols1 : Rect S2000x64 := Rect.unit (s := S2000x64) ![0, 1] S2000x63.size inb_S2000x64_S2000x63_0_1

/-- The output tile after the body, from the input tile: columns 1 … 63 at the tangent-space image of the input
    tile, column 0 at zero (the later store first). -/
def out1_1 (x0 : Vec F S2000x64 .f32) : Vec F S2000x64 .f32 :=
  View.canon [⟨cols1, k1_pay1 (View.ld x0 tile1)⟩, ⟨col1_0, k1_pay2 (F := F)⟩]

/-- Column 0 and columns 1 … 63 tile the 64 columns. -/
theorem cover1_1 (p0 : Vec F S2000x63 .f32) (p1 : Vec F S2000x1 .f32) (y : S2000x64.Idx) :
    ∃ pc ∈ ([⟨cols1, p0⟩, ⟨col1_0, p1⟩] : List (View.Piece (Elt F) S2000x64 .f32)), y ∈ pc.1.set :=
  View.cover_of_tiledBy [⟨cols1, p0⟩, ⟨col1_0, p1⟩] ![2000, 1] (by sl_kernel_rfl) y

set_option maxHeartbeats 1000000 in
/-- The body on whole staging buffers, the input's at `x0`, the output's at anything: it ends with the input's
    unchanged and the output's at `out1_1 x0`. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__hyp_kernel i arg1 harg1 arg2 harg2) K := by
  simp only [cc1__hyp_kernel_eq_skeleton]; unfold cc1__hyp_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _ _)

/-- The proof data of pipeline 1 on core `c`: the arrays as the region finds them; after the body at point `t` the
    input's buffer at its tile and the output's at `out1_1` of it; the scoped rest and the generator register ride
    along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Gat2.lean ====
/-
  Region 2 of the kernel program: the row gather out of the user half of the summed embeddings, at the
  contents `V` the region is entered from and at ANY admissible contents `a` of its index table. Grid point `t`
  (2048 of them) stages the one row of the table-indexed block (row `table[t]` of the [100000, 1, 64] array, all 64
  entries) and the body copies it, unchanged, into the output's one-row tile for point `t`. The body never reads
  the index table itself; the table rides through the region untouched.
-/
import proofs.«423441_j19576460935173_1_alg».proof.Proof.Gen.Kernel.Launch
import proofs.«423441_j19576460935173_1_alg».proof.Proof.Gen.Kernel.Skeleton
import proofs.«423441_j19576460935173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg2 (F := F)).Adm)

/-- The one-row tile of window `w` at point `t`, read off its array as the region finds it: for the input window
    the row the table names for `t`. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The input row is in its staging buffer at every point, fetched there or not (an unfetched point names the same
    row as the one before it), and the body leaves it. -/
theorem before2_0_of {c : Dev nD} (dat : Dat τ (Elt F) Unit ℕ (UR sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole one-row tile. -/
abbrev row2 : Rect S1x1x64 := Rect.unit (s := S1x1x64) ![0, 0, 0] S1x1x64.size inb_S1x1x64_S1x1x64_0_0_0

/-- The output tile after the body: the input row, stored whole. -/
def out2_1 (x0 : Vec F S1x1x64 .f32) : Vec F S1x1x64 .f32 :=
  View.canon [⟨row2, k2_pay1 (View.ld x0 row2)⟩]

theorem cover2_1 (p0 : Vec F S1x1x64 .f32) (y : S1x1x64.Idx) :
    ∃ pc ∈ ([⟨row2, p0⟩] : List (View.Piece (Elt F) S1x1x64 .f32)), y ∈ pc.1.set :=
  View.cover_of_tiled [⟨row2, p0⟩] S1x1x64.size (by rfl) y

set_option maxHeartbeats 1000000 in
/-- The body on whole staging buffers, the input's at `x0`, the output's at anything: it ends with the input's
    unchanged and the output's at `out2_1 x0`. The table's memref is an argument the body does not touch. -/
theorem sound_kernel2 (c : Dev nD) (E : Set ℕ) (i : grid2.Coords) (arg1 : Memref sig .tc .smem S2048 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_1 x0)) -∗ K ⟨⟩))
      ⊢ wp frame (wpE (defs₀ (F := F)) Variants.none c none) E (cc2__gather_kernel i arg1 harg1 arg2 harg2 arg3 harg3) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of pipeline 2 on core `c`: the arrays as the region finds them; after the body at point `t` the
    input's buffer at its row and the output's at that row; the scoped rest, the generator register and the index
    table (whole, at the admissible contents) ride along untouched; nothing owed; full shares. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => out2_1 (iblk2 V a c 0 t)
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; try rfl
theorem after2_1 (c : Dev nD) (t : Fin (cfg2 a).N) : (dat2 V a c).after 1 t = out2_1 (iblk2 V a c 0 t) := by dsimp only [dat2]; try rfl

theorem before2_0 (c : Dev nD) (t : Fin (cfg2 a).N) (d) : (dat2 V a c).before 0 t d = iblk2 V a c 0 t :=
  before2_0_of V a (dat2 V a c) (A_eq2 V a c 0) (after2_0 V a c) t d

/-- Each window's current staging buffer at point `t`, and the body as the pipeline calls it there. -/
abbrev st2_0 (t : Fin (cfg2 a).N) : Memref sig .tc .vmem S1x1x64 .f32 := spec2_0.stage ((cfg2 a).slots t 0)
abbrev st2_1 (t : Fin (cfg2 a).N) : Memref sig .tc .vmem S1x1x64 .f32 := spec2_1.stage ((cfg2 a).slots t 1)
abbrev bodyAt2 (t : Fin (cfg2 a).N) : Prog (TpuEff nD τ sig (Elt F) Λ₀ .tc) PUnit :=
  cc2__gather_kernel (grid2.coords t) (Memref.whole main_arg5) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1))

def bodyPre2 (c : Dev nD) (t : Fin (cfg2 a).N) : sProp 𝕄 :=
  iprop((dat2 V a c).Φ t.castSucc ∗ (dat2 V a c).owesAt () t.castSucc
    ∗ (∃ d, owns (c : Thread nD τ) (st2_0 a t) fullShare ((dat2 V a c).before 0 t d))
    ∗ (∃ d, owns (c : Thread nD τ) (st2_1 a t) fullShare ((dat2 V a c).before 1 t d)))

def bodyPost2 (c : Dev nD) (t : Fin (cfg2 a).N) : sProp 𝕄 :=
  iprop((dat2 V a c).Φ t.succ ∗ (dat2 V a c).owesAt () t.succ
    ∗ owns (c : Thread nD τ) (st2_0 a t) fullShare ((dat2 V a c).after 0 t)
    ∗ owns (c : Thread nD τ) (st2_1 a t) fullShare ((dat2 V a c).after 1 t))

theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  simp only [before2_0]
  rw [show (dat2 V a c).Φ t.succ = (dat2 V a c).Φ t.castSucc from rfl,
    show (dat2 V a c).owesAt () t.succ = (dat2 V a c).owesAt () t.castSucc from rfl,
    after2_0, after2_1]
  iintro ⟨HΦ, Ho, ⟨%d0, H0⟩, ⟨%d1, H1⟩⟩
  iapply (sound_kernel2 c Set.univ _ _ _ _ _ _ _ (iblk2 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation2 (c : Dev nD) : BodyObligation (dat2 (F := F) V a c) (defs₀ (F := F)) Variants.none () Set.univ := fun t => by
  rw [bigSep_W2, bigSep_W2]
  exact sound_body2 V a c t

end Cert.Kernel.Hand

end
-- ==== Proof.K.Gat3.lean ====
/-
  Region 3 of the kernel program: the row gather out of the item half of the summed embeddings, at the
  contents `V` the region is entered from and at ANY admissible contents `a` of its index table. Grid point `t`
  (2048 of them) stages the one row of the table-indexed block (row `table[t]` of the [50000, 1, 64] array, all 64
  entries) and the body copies it, unchanged, into the output's one-row tile for point `t`. The body never reads
  the index table itself; the table rides through the region untouched.
-/
import proofs.«423441_j19576460935173_1_alg».proof.Proof.Gen.Kernel.Launch
import proofs.«423441_j19576460935173_1_alg».proof.Proof.Gen.Kernel.Skeleton
import proofs.«423441_j19576460935173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg3 (F := F)).Adm)

/-- The one-row tile of window `w` at point `t`, read off its array as the region finds it: for the input window
    the row the table names for `t`. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- The input row is in its staging buffer at every point, fetched there or not (an unfetched point names the same
    row as the one before it), and the body leaves it. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 V a c 0 t) (t : Fin (cfg3 a).N) (d) : dat.before 0 t d = iblk3 V a c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole one-row tile. -/
abbrev row3 : Rect S1x1x64 := Rect.unit (s := S1x1x64) ![0, 0, 0] S1x1x64.size inb_S1x1x64_S1x1x64_0_0_0

/-- The output tile after the body: the input row, stored whole. -/
def out3_1 (x0 : Vec F S1x1x64 .f32) : Vec F S1x1x64 .f32 :=
  View.canon [⟨row3, k3_pay1 (View.ld x0 row3)⟩]

theorem cover3_1 (p0 : Vec F S1x1x64 .f32) (y : S1x1x64.Idx) :
    ∃ pc ∈ ([⟨row3, p0⟩] : List (View.Piece (Elt F) S1x1x64 .f32)), y ∈ pc.1.set :=
  View.cover_of_tiled [⟨row3, p0⟩] S1x1x64.size (by rfl) y

set_option maxHeartbeats 1000000 in
/-- The body on whole staging buffers, the input's at `x0`, the output's at anything: it ends with the input's
    unchanged and the output's at `out3_1 x0`. The table's memref is an argument the body does not touch. -/
theorem sound_kernel3 (c : Dev nD) (E : Set ℕ) (i : grid3.Coords) (arg1 : Memref sig .tc .smem S2048 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_1 x0)) -∗ K ⟨⟩))
      ⊢ wp frame (wpE (defs₀ (F := F)) Variants.none c none) E (cc3__gather_kernel i arg1 harg1 arg2 harg2 arg3 harg3) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The proof data of pipeline 3 on core `c`: the arrays as the region finds them; after the body at point `t` the
    input's buffer at its row and the output's at that row; the scoped rest, the generator register and the index
    table (whole, at the admissible contents) ride along untouched; nothing owed; full shares. -/
def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => out3_1 (iblk3 V a c 0 t)
  Φ _ := iprop(Pipeline.ΦA spec3 c ∗ Pipeline.prefHeld (Ix := Unit) (Name := ℕ) (U := UR sig nD τ) (Lvl := ℕ) pre3 c (fun _ => fullShare) a.1)
  q _ := fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after 0 t = iblk3 V a c 0 t := by dsimp only [dat3]; try rfl
theorem after3_1 (c : Dev nD) (t : Fin (cfg3 a).N) : (dat3 V a c).after 1 t = out3_1 (iblk3 V a c 0 t) := by dsimp only [dat3]; try rfl

theorem before3_0 (c : Dev nD) (t : Fin (cfg3 a).N) (d) : (dat3 V a c).before 0 t d = iblk3 V a c 0 t :=
  before3_0_of V a (dat3 V a c) (A_eq3 V a c 0) (after3_0 V a c) t d

/-- Each window's current staging buffer at point `t`, and the body as the pipeline calls it there. -/
abbrev st3_0 (t : Fin (cfg3 a).N) : Memref sig .tc .vmem S1x1x64 .f32 := spec3_0.stage ((cfg3 a).slots t 0)
abbrev st3_1 (t : Fin (cfg3 a).N) : Memref sig .tc .vmem S1x1x64 .f32 := spec3_1.stage ((cfg3 a).slots t 1)
abbrev bodyAt3 (t : Fin (cfg3 a).N) : Prog (TpuEff nD τ sig (Elt F) Λ₀ .tc) PUnit :=
  cc3__gather_kernel (grid3.coords t) (Memref.whole main_arg6) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1))

def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d))
    ∗ (∃ d, owns (c : Thread nD τ) (st3_1 a t) fullShare ((dat3 V a c).before 1 t d)))

def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t)
    ∗ owns (c : Thread nD τ) (st3_1 a t) fullShare ((dat3 V a c).after 1 t))

theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0]
  rw [show (dat3 V a c).Φ t.succ = (dat3 V a c).Φ t.castSucc from rfl,
    show (dat3 V a c).owesAt () t.succ = (dat3 V a c).owesAt () t.castSucc from rfl,
    after3_0, after3_1]
  iintro ⟨HΦ, Ho, ⟨%d0, H0⟩, ⟨%d1, H1⟩⟩
  iapply (sound_kernel3 c Set.univ _ _ _ _ _ _ _ (iblk3 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation3 (c : Dev nD) : BodyObligation (dat3 (F := F) V a c) (defs₀ (F := F)) Variants.none () Set.univ := fun t => by
  rw [bigSep_W3, bigSep_W3]
  exact sound_body3 V a c t

end Cert.Kernel.Hand

end
-- ==== Proof.K.OkOfPre.lean ====
/-
  From the precondition to the two index tables' admissibility. The precondition's last two conjuncts say that every
  word of `user` is in [0, 100000) and every word of `pos` in [0, 50000), read as signed 32-bit integers; such a word's
  unsigned value is then below the table's row count, so the one-row block the word names lies inside the
  [rows, 1, 64] array it indexes, which is the side condition the two gather pipelines ask of their tables.
-/
import proofs.«423441_j19576460935173_1_alg».proof.Proof.Gen.Kernel
import proofs.«423441_j19576460935173_1_alg».proof.Proof.Gen.Pre_finite_inputs
import Idealize.ShloMosaic.Lib.StableHlo.Predicate
import Idealize.ShloMosaic.Lib.ReduceAll

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The two index tables as launched (the program runs on one device). -/
def tbl2 : pre2.Contents (Elt F) := fun j => m (((0 : Dev nD) : Thread nD τ).loc (pre2.ref j))
def tbl3 : pre3.Contents (Elt F) := fun j => m (((0 : Dev nD) : Thread nD τ).loc (pre3.ref j))

/-- The precondition of the argument arrays in `m`, at any float instance: the printed predicate is all ones on every device. -/
def PreAt [Cert.Pre_finite_inputs.Facts] : Prop :=
  ∀ c : Dev nD,
    (Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) = (fun _ => 1#1)

variable [Cert.Pre_finite_inputs.Facts]

/-- The precondition's last two conjuncts, read at one element each. -/
private theorem pre_words (h : PreAt m) (c : Dev nD) (i : S2048.Idx) :
    (IntOp.cmpi .sge (m ((c.tc : Thread nD τ).loc main_arg5) i) (0#32) = 1#1
      ∧ IntOp.cmpi .slt (m ((c.tc : Thread nD τ).loc main_arg5) i) (100000#32) = 1#1)
    ∧ (IntOp.cmpi .sge (m ((c.tc : Thread nD τ).loc main_arg6) i) (0#32) = 1#1
      ∧ IntOp.cmpi .slt (m ((c.tc : Thread nD τ).loc main_arg6) i) (50000#32) = 1#1) := by
  haveI : Subsingleton Cert.Pre_finite_inputs.S_.Idx := ⟨fun a b => funext fun d => d.elim0⟩
  have e := congrFun (h c) (fun a => a.elim0)
  dsimp only [Cert.Pre_finite_inputs.fn, Cert.Pre_finite_inputs.fn_part1, andi] at e
  obtain ⟨e1, epos⟩ := IntOp.andi_eq_one.1 e
  obtain ⟨_, euser⟩ := IntOp.andi_eq_one.1 e1
  have hu := Host.reduce_andi_all _ _ _ _ _ euser i
  have hp := Host.reduce_andi_all _ _ _ _ _ epos i
  exact ⟨IntOp.andi_eq_one.1 hu, IntOp.andi_eq_one.1 hp⟩

/-- A 32-bit word that is, signed, at least 0 and below `n` (with `n` below 2³¹) has unsigned value below `n`. -/
private theorem toNat_lt_of_signed_range (w : BitVec 32) (n : Nat) (hn : n < 2 ^ 31)
    (h0 : IntOp.cmpi .sge w (0#32) = 1#1) (h1 : IntOp.cmpi .slt w (BitVec.ofNat 32 n) = 1#1) : w.toNat < n := by
  have h0' : (0#32 : BitVec 32).sle w = true := (StableHlo.Predicate.ofBool_eq_one_iff _).1 h0
  have h1' : w.slt (BitVec.ofNat 32 n) = true := (StableHlo.Predicate.ofBool_eq_one_iff _).1 h1
  simp only [BitVec.sle, BitVec.slt, decide_eq_true_eq, StableHlo.Predicate.toInt_ofNat_small n hn] at h0' h1'
  have hz : (0#32 : BitVec 32).toInt = 0 := by decide
  rw [hz] at h0'
  have hw := w.isLt
  rw [BitVec.toInt_eq_toNat_cond] at h0' h1'
  split at h0' <;> omega

/-- Every word of `user` is, signed, at least 0 and below 100000. -/
theorem user_range (h : PreAt m) (c : Dev nD) (i : S2048.Idx) :
    IntOp.cmpi .sge (m ((c.tc : Thread nD τ).loc main_arg5) i) (0#32) = 1#1
      ∧ IntOp.cmpi .slt (m ((c.tc : Thread nD τ).loc main_arg5) i) (100000#32) = 1#1 :=
  (pre_words m h c i).1

/-- Every word of `pos` is, signed, at least 0 and below 50000. -/
theorem pos_range (h : PreAt m) (c : Dev nD) (i : S2048.Idx) :
    IntOp.cmpi .sge (m ((c.tc : Thread nD τ).loc main_arg6) i) (0#32) = 1#1
      ∧ IntOp.cmpi .slt (m ((c.tc : Thread nD τ).loc main_arg6) i) (50000#32) = 1#1 :=
  (pre_words m h c i).2

/-- So its unsigned value names a row of the table's array. -/
theorem user_toNat_lt (h : PreAt m) (c : Dev nD) (i : S2048.Idx) : (m ((c.tc : Thread nD τ).loc main_arg5) i).toNat < 100000 :=
  toNat_lt_of_signed_range _ 100000 (by omega) (user_range m h c i).1 (user_range m h c i).2

theorem pos_toNat_lt (h : PreAt m) (c : Dev nD) (i : S2048.Idx) : (m ((c.tc : Thread nD τ).loc main_arg6) i).toNat < 50000 :=
  toNat_lt_of_signed_range _ 50000 (by omega) (pos_range m h c i).1 (pos_range m h c i).2

/-- The one-row block that a word below `n` names lies inside a [n, 1, 64] array. -/
private theorem block_inside (w : BitVec 32) (n : Nat) (hw : w.toNat < n) (a : Fin 3) :
    ((![w.toNat, (0#32 : BitVec 32).toNat, (0#32 : BitVec 32).toNat] : Fin 3 → Nat) a + 1) * S1x1x64.size a
      ≤ (⟨3, ![n, 1, 64]⟩ : Shape).size a := by
  fin_cases a <;> simp <;> omega

/-- The user gather's table is admissible: at every grid point the block its word names is inside the [100000, 1, 64] array. -/
theorem ok2_of_pre (h : PreAt m) : ok2 (F := F) (tbl2 m) := by
  intro i
  exact ⟨fun a => block_inside _ 100000 (user_toNat_lt m h 0 _) a, Or.inl rfl⟩

/-- The item gather's table is admissible. -/
theorem ok3_of_pre (h : PreAt m) : ok3 (F := F) (tbl3 m) := by
  intro i
  exact ⟨fun a => block_inside _ 50000 (pos_toNat_lt m h 0 _) a, Or.inl rfl⟩

end Cert.Kernel.Hand

end
-- ==== Proof.K.Run.lean ====
/-
  The whole run of the kernel program, at any float instance: @main is two row-tile regions (user table,
  item table), a stretch of 57 host operations (the three sparse products, their sum, its two halves), the user
  gather region, two reshapes, the item gather region, a reshape and the final concatenation. Between two items the
  core's unscoped buffers are held at a valuation: the launch memory; after a region, the same with the region's
  arrays at what its write-backs leave; after a host stretch, the stretch's operations applied. Each region is
  entered with its arrays split out of that valuation and left with them put back; the two gather regions also take
  their index table out and put it back unchanged, which is where the tables' admissibility is used. The post names
  EVERY unscoped buffer at the last valuation, so the frame (the arguments end as launched) and the result's value
  (the last valuation at the result buffer) are both read off this one run.
-/
import proofs.«423441_j19576460935173_1_alg».proof.Proof.K.Hyp0
import proofs.«423441_j19576460935173_1_alg».proof.Proof.K.Hyp1
import proofs.«423441_j19576460935173_1_alg».proof.Proof.K.Gat2
import proofs.«423441_j19576460935173_1_alg».proof.Proof.K.Gat3
import proofs.«423441_j19576460935173_1_alg».proof.Proof.K.OkOfPre
import proofs.«423441_j19576460935173_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (a2 : (pcfg2 (F := F)).Adm) (a3 : (pcfg3 (F := F)).Adm)

/-! ## The buffers' contents at each boundary -/

/-- At launch. -/
abbrev W0 : Dev nD → Valuation τ sig (Elt F) := fun c b => m (c, b)
abbrev U0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 winFacts0.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 winFacts1.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After the 57 host operations (the user gather's entry). -/
abbrev W3 : Dev nD → Valuation τ sig (Elt F) := fun c => StableHlo.after hostOps2 (W2 m c)
abbrev U3 : (c : Dev nD) → (b : Ref sig .tc) → Buf (Elt F) ((c : Thread nD τ).loc b) := fun c b => W3 m c b
/-- After the user gather. -/
def W4 (c : Dev nD) : Valuation τ sig (Elt F) :=
  Pipeline.withArrays spec2 c (W3 m c) fun w => (dat2 (U3 m) a2 c).arrAt w (cfg2 a2).N
theorem W4_arr (c : Dev nD) (w : Fin (cfg2 a2).W) :
    W4 m a2 c (Proc.devRef .tc (Pipeline.arrRef spec2 w)) = (dat2 (U3 m) a2 c).arrAt w (cfg2 a2).N := by
  unfold W4; exact Pipeline.withArrays_arr spec2 winFacts2.arr_inj c _ _ w
theorem W4_of_ne (c : Dev nD) (b : Ref sig .tc) (hb : ∀ w, Pipeline.arrRef spec2 w ≠ b) :
    W4 m a2 c (Proc.devRef .tc b) = W3 m c (Proc.devRef .tc b) := by
  unfold W4; exact Pipeline.withArrays_of_ne spec2 c _ _ b hb
abbrev U4 : (c : Dev nD) → (b : Ref sig .tc) → Buf (Elt F) ((c : Thread nD τ).loc b) := fun c b => W4 m a2 c b
theorem hF2 (c : Dev nD) (w : Fin (cfg2 a2).W) : (dat2 (U3 m) a2 c).arrAt w (cfg2 a2).N = U4 m a2 c (Pipeline.arrRef spec2 w) :=
  (W4_arr m a2 c w).symm
theorem hrest2 (c : Dev nD) : ∀ b, b ∉ Finset.univ.image (Pipeline.arrRef spec2) → U4 m a2 c b = U3 m c b :=
  fun b hb => W4_of_ne m a2 c b fun w e => hb (Finset.mem_image.mpr ⟨w, Finset.mem_univ _, e⟩)

/-- After the two reshapes (the item gather's entry). -/
abbrev W5 : Dev nD → Valuation τ sig (Elt F) := fun c => StableHlo.after hostOps3 (W4 m a2 c)
abbrev U5 : (c : Dev nD) → (b : Ref sig .tc) → Buf (Elt F) ((c : Thread nD τ).loc b) := fun c b => W5 m a2 c b
/-- After the item gather. -/
def W6 (c : Dev nD) : Valuation τ sig (Elt F) :=
  Pipeline.withArrays spec3 c (W5 m a2 c) fun w => (dat3 (U5 m a2) a3 c).arrAt w (cfg3 a3).N
theorem W6_arr (c : Dev nD) (w : Fin (cfg3 a3).W) :
    W6 m a2 a3 c (Proc.devRef .tc (Pipeline.arrRef spec3 w)) = (dat3 (U5 m a2) a3 c).arrAt w (cfg3 a3).N := by
  unfold W6; exact Pipeline.withArrays_arr spec3 winFacts3.arr_inj c _ _ w
theorem W6_of_ne (c : Dev nD) (b : Ref sig .tc) (hb : ∀ w, Pipeline.arrRef spec3 w ≠ b) :
    W6 m a2 a3 c (Proc.devRef .tc b) = W5 m a2 c (Proc.devRef .tc b) := by
  unfold W6; exact Pipeline.withArrays_of_ne spec3 c _ _ b hb
abbrev U6 : (c : Dev nD) → (b : Ref sig .tc) → Buf (Elt F) ((c : Thread nD τ).loc b) := fun c b => W6 m a2 a3 c b
theorem hF3 (c : Dev nD) (w : Fin (cfg3 a3).W) : (dat3 (U5 m a2) a3 c).arrAt w (cfg3 a3).N = U6 m a2 a3 c (Pipeline.arrRef spec3 w) :=
  (W6_arr m a2 a3 c w).symm
theorem hrest3 (c : Dev nD) : ∀ b, b ∉ Finset.univ.image (Pipeline.arrRef spec3) → U6 m a2 a3 c b = U5 m a2 c b :=
  fun b hb => W6_of_ne m a2 a3 c b fun w e => hb (Finset.mem_image.mpr ⟨w, Finset.mem_univ _, e⟩)

/-- After the last reshape and the concatenation: the final contents. -/
abbrev W7 : Dev nD → Valuation τ sig (Elt F) := fun c => StableHlo.after hostOps4 (W6 m a2 a3 c)

/-! ## A buffer no item writes keeps its launch contents -/

/-- A reference that is no region's array and that no host stretch writes holds, at every boundary, what it held at
    launch. -/
theorem W3_keep (c : Dev nD) (r : Ref sig .tc) (h0 : ∀ w, Pipeline.arrRef spec0 w ≠ r) (h1 : ∀ w, Pipeline.arrRef spec1 w ≠ r)
    (h2 : r ∉ hostOps2_W) : W3 m c (Proc.devRef .tc r) = m ((c : Thread nD τ).loc r) :=
  (StableHlo.after_of_writes_sub hostOps2 _ hostOps2_writes h2).trans ((W2_of_ne m c r h1).trans (W1_of_ne m c r h0))
theorem W5_keep (c : Dev nD) (r : Ref sig .tc) (h0 : ∀ w, Pipeline.arrRef spec0 w ≠ r) (h1 : ∀ w, Pipeline.arrRef spec1 w ≠ r)
    (h2 : r ∉ hostOps2_W) (h3 : ∀ w, Pipeline.arrRef spec2 w ≠ r) (h4 : r ∉ hostOps3_W) :
    W5 m a2 c (Proc.devRef .tc r) = m ((c : Thread nD τ).loc r) :=
  (StableHlo.after_of_writes_sub hostOps3 _ hostOps3_writes h4).trans ((W4_of_ne m a2 c r h3).trans (W3_keep m c r h0 h1 h2))
theorem W7_keep (c : Dev nD) (r : Ref sig .tc) (h0 : ∀ w, Pipeline.arrRef spec0 w ≠ r) (h1 : ∀ w, Pipeline.arrRef spec1 w ≠ r)
    (h2 : r ∉ hostOps2_W) (h3 : ∀ w, Pipeline.arrRef spec2 w ≠ r) (h4 : r ∉ hostOps3_W) (h5 : ∀ w, Pipeline.arrRef spec3 w ≠ r)
    (h6 : r ∉ hostOps4_W) : W7 m a2 a3 c (Proc.devRef .tc r) = m ((c : Thread nD τ).loc r) :=
  (StableHlo.after_of_writes_sub hostOps4 _ hostOps4_writes h6).trans ((W6_of_ne m a2 a3 c r h5).trans (W5_keep m a2 c r h0 h1 h2 h3 h4))

/-- The user gather finds its index table as launched; -/
theorem tbl_at2 (h2 : a2.1 = tbl2 m) (c : Dev nD) : (fun k => U3 m c (pre2.ref k)) = a2.1 := by
  obtain rfl : c = 0 := Subsingleton.elim _ _
  rw [h2]
  funext k
  match k with
  | ⟨0, _⟩ => exact W3_keep m 0 main_arg5 (by decide) (by decide) (by decide)
/-- the item gather too. -/
theorem tbl_at3 (h3 : a3.1 = tbl3 m) (c : Dev nD) : (fun k => U5 m a2 c (pre3.ref k)) = a3.1 := by
  obtain rfl : c = 0 := Subsingleton.elim _ _
  rw [h3]
  funext k
  match k with
  | ⟨0, _⟩ => exact W5_keep m a2 0 main_arg6 (by decide) (by decide) (by decide) (by decide) (by decide)

/-! ## The proof data family and the thread state -/

/-- The tables' admissible contents by pipeline: the two row-tile pipelines have no table. -/
abbrev adm : (p : Fin 4) → (pcfgs (F := F) p).Adm
  | ⟨0, _⟩ => cfg0.toPCfg_adm
  | ⟨1, _⟩ => cfg1.toPCfg_adm
  | ⟨2, _⟩ => a2
  | ⟨3, _⟩ => a3
/-- Every pipeline's proof data, each at its region's entry contents. -/
def pdats : (p : Fin 4) → (c : Dev nD) → Dat τ (Elt F) Unit ℕ (UR sig nD τ) ℕ (Pipeline.pin (pcfgs (F := F)) (adm a2 a3) p) c
  | ⟨0, _⟩ => fun c => dat0 (U0 m) c
  | ⟨1, _⟩ => fun c => dat1 (U1 m) c
  | ⟨2, _⟩ => fun c => dat2 (U3 m) a2 c
  | ⟨3, _⟩ => fun c => dat3 (U5 m a2) a3 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The user gather's unscoped rest is its index table, whole and at the admissible contents, and the rest. -/
theorem rest_split2 (h2 : a2.1 = tbl2 m) (c : Dev nD) :
    (Pipeline.unscopedRest (Ix := Unit) (Name := ℕ) (U := UR sig nD τ) (Lvl := ℕ) (Pipeline.pin (pcfgs (F := F)) (adm a2 a3) 2).spec c (U3 m c) : sProp 𝕄)
      = iprop(Pipeline.prefHeld pre2 c (fun _ => fullShare) a2.1 ∗ Pipeline.unscopedRestP pre2 spec2 c (U3 m c)) := by
  show (Pipeline.unscopedRest spec2 c (U3 m c) : sProp 𝕄) = _
  rw [Pipeline.unscopedRest_split preFacts2 c (U3 m c), tbl_at2 m a2 h2 c]
/-- The item gather's, the same. -/
theorem rest_split3 (h3 : a3.1 = tbl3 m) (c : Dev nD) :
    (Pipeline.unscopedRest (Ix := Unit) (Name := ℕ) (U := UR sig nD τ) (Lvl := ℕ) (Pipeline.pin (pcfgs (F := F)) (adm a2 a3) 3).spec c (U5 m a2 c) : sProp 𝕄)
      = iprop(Pipeline.prefHeld pre3 c (fun _ => fullShare) a3.1 ∗ Pipeline.unscopedRestP pre3 spec3 c (U5 m a2 c)) := by
  show (Pipeline.unscopedRest spec3 c (U5 m a2 c) : sProp 𝕄) = _
  rw [Pipeline.unscopedRest_split preFacts3 c (U5 m a2 c), tbl_at3 m a2 a3 h3 c]

/-! ## The regions as segments -/

set_option backward.isDefEq.respectTransparency.types false in
/-- Region 0 over the thread state: entered from every unscoped buffer at `W0 m`, left at `W1 m`. Its arrays are
    split out of the unscoped buffers and put back at the contents the pipeline leaves; the generator register goes
    into the invariant and comes out; nothing is owed; the kernel has no semaphore of its own. -/
def reg0 : Pipeline.RegionSeg (pcfgs (F := F)) (adm a2 a3) (pdats m a2 a3) () defs₀ 𝒱₀ L lv 0 where
  win := winFacts0.to₀
  block_pos := block_pos0
  stage_whole := stage_whole0
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) (adm a2 a3) (pdats m a2 a3) winFacts0 arr_whole0 c
      ((pdats m a2 a3 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a2 a3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a2 a3) (Ix := Unit) (Name := ℕ) (U := UR sig nD τ) (Lvl := ℕ)
      winFacts0 arr_whole0 c (pdats m a2 a3) ((pdats m a2 a3 0 c).share_full fun _ => rfl)
      (U0 m c) (U1 m c) ((pdats m a2 a3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1 m`, left at `W2 m`. Its arrays are
    split out of the unscoped buffers and put back at the contents the pipeline leaves; the generator register goes
    into the invariant and comes out; nothing is owed; the kernel has no semaphore of its own. -/
def reg1 : Pipeline.RegionSeg (pcfgs (F := F)) (adm a2 a3) (pdats m a2 a3) () defs₀ 𝒱₀ L lv 1 where
  win := winFacts1.to₀
  block_pos := block_pos1
  stage_whole := stage_whole1
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) (adm a2 a3) (pdats m a2 a3) winFacts1 arr_whole1 c
      ((pdats m a2 a3 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a2 a3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a2 a3) (Ix := Unit) (Name := ℕ) (U := UR sig nD τ) (Lvl := ℕ)
      winFacts1 arr_whole1 c (pdats m a2 a3) ((pdats m a2 a3 1 c).share_full fun _ => rfl)
      (U1 m c) (U2 m c) ((pdats m a2 a3 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3 m`, left at `W4 m a2`. Besides
    its arrays, its index table is taken out of the unscoped buffers, whole and at the admissible contents (which are
    what the buffer holds: `tbl_at2 m a2 h2`), rides through the invariant untouched, and is put back. -/
def reg2 (h2 : a2.1 = tbl2 m) : Pipeline.RegionSeg (pcfgs (F := F)) (adm a2 a3) (pdats m a2 a3) () defs₀ 𝒱₀ L lv 2 where
  win := winFacts2.to₀
  block_pos := block_pos2
  stage_whole := stage_whole2
  K := PEmpty
  osem k := k.elim
  ho := Pipeline.OwnSemFacts.none _
  hbody c := (body_obligation2 (U3 m) a2 c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m a2 c) ∗ R c)
  X c := iprop(∃ r, prngReg c r)
  Y c := iprop((∃ r, prngReg c r) ∗ Pipeline.prefHeld (Ix := Unit) (Name := ℕ) (U := UR sig nD τ) (Lvl := ℕ) pre2 c (fun _ => fullShare) a2.1)
  Z c := Pipeline.unscopedRestP (Ix := Unit) (Name := ℕ) (U := UR sig nD τ) (Lvl := ℕ) pre2 spec2 c (U3 m c)
  hentry c := by
    rw [Pipeline.ownSems0_none]
    have hsplit := Pipeline.arrays_of_unscopedBufs (p := 2) (pcfgs (F := F)) (adm a2 a3) (pdats m a2 a3) winFacts2 arr_whole2 c
      ((pdats m a2 a3 2 c).share_full fun _ => rfl) (U3 m c) fun _ => rfl
    rw [Pipeline.unscopedBufs_held] at hsplit
    have hsp : (StableHlo.held (c : Thread nD τ) (Pipeline.ucRefs τ sig) (W3 m c) : sProp 𝕄)
        ⊢ iprop((pdats m a2 a3 2 c).arrays ((pdats m a2 a3 2 c).arrAt · 0)
            ∗ Pipeline.prefHeld pre2 c (fun _ => fullShare) a2.1 ∗ Pipeline.unscopedRestP pre2 spec2 c (U3 m c)) :=
      hsplit.trans (sep_mono .rfl (Entails.of_eq (rest_split2 m a2 a3 h2 c)))
    iintro ⟨⟨Hub, Hp, HO⟩, -, -⟩
    ihave H := hsp $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 2 c).Φ 0 = iprop(Pipeline.ΦA spec2 c ∗ Pipeline.prefHeld (Ix := Unit) (Name := ℕ) (U := UR sig nD τ) (Lvl := ℕ) pre2 c (fun _ => fullShare) a2.1) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m a2 a3 2 c).Φ (Fin.last _) = iprop(Pipeline.ΦA spec2 c ∗ Pipeline.prefHeld (Ix := Unit) (Name := ℕ) (U := UR sig nD τ) (Lvl := ℕ) pre2 c (fun _ => fullShare) a2.1) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 2) (pcfgs (F := F)) (adm a2 a3) (Ix := Unit) (Name := ℕ) (U := UR sig nD τ) (Lvl := ℕ)
      winFacts2 arr_whole2 c (pdats m a2 a3) ((pdats m a2 a3 2 c).share_full fun _ => rfl)
      (U3 m c) (U4 m a2 c) ((pdats m a2 a3 2 c).arrAt · (cfg2 a2).N) (hF2 m a2 c) (hrest2 m a2 c)
    rw [Pipeline.unscopedBufs_held] at hjoin
    have hjn := (sep_mono .rfl (Entails.of_eq (rest_split2 m a2 a3 h2 c).symm)).trans hjoin
    iintro ⟨Ha, HO, ⟨HY, Hpf⟩, Hrest⟩
    imodintro
    isplitl [Ha Hrest Hpf]
    · iapply hjn
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5 m a2`, left at `W6 m a2 a3`. Besides
    its arrays, its index table is taken out of the unscoped buffers, whole and at the admissible contents (which are
    what the buffer holds: `tbl_at3 m a2 a3 h3`), rides through the invariant untouched, and is put back. -/
def reg3 (h3 : a3.1 = tbl3 m) : Pipeline.RegionSeg (pcfgs (F := F)) (adm a2 a3) (pdats m a2 a3) () defs₀ 𝒱₀ L lv 3 where
  win := winFacts3.to₀
  block_pos := block_pos3
  stage_whole := stage_whole3
  K := PEmpty
  osem k := k.elim
  ho := Pipeline.OwnSemFacts.none _
  hbody c := (body_obligation3 (U5 m a2) a3 c).loose
  hwaits := Pipeline.hwaits_of_owed_zero _ _ _ _ L lv 3 fun _ _ => rfl
  pre c := iprop(StableHlo.held (c : Thread nD τ) (Pipeline.ucRefs τ sig) (W5 m a2 c) ∗ R c)
  post c := iprop(StableHlo.held (c : Thread nD τ) (Pipeline.ucRefs τ sig) (W6 m a2 a3 c) ∗ R c)
  X c := iprop(∃ r, prngReg c r)
  Y c := iprop((∃ r, prngReg c r) ∗ Pipeline.prefHeld (Ix := Unit) (Name := ℕ) (U := UR sig nD τ) (Lvl := ℕ) pre3 c (fun _ => fullShare) a3.1)
  Z c := Pipeline.unscopedRestP (Ix := Unit) (Name := ℕ) (U := UR sig nD τ) (Lvl := ℕ) pre3 spec3 c (U5 m a2 c)
  hentry c := by
    rw [Pipeline.ownSems0_none]
    have hsplit := Pipeline.arrays_of_unscopedBufs (p := 3) (pcfgs (F := F)) (adm a2 a3) (pdats m a2 a3) winFacts3 arr_whole3 c
      ((pdats m a2 a3 3 c).share_full fun _ => rfl) (U5 m a2 c) fun _ => rfl
    rw [Pipeline.unscopedBufs_held] at hsplit
    have hsp : (StableHlo.held (c : Thread nD τ) (Pipeline.ucRefs τ sig) (W5 m a2 c) : sProp 𝕄)
        ⊢ iprop((pdats m a2 a3 3 c).arrays ((pdats m a2 a3 3 c).arrAt · 0)
            ∗ Pipeline.prefHeld pre3 c (fun _ => fullShare) a3.1 ∗ Pipeline.unscopedRestP pre3 spec3 c (U5 m a2 c)) :=
      hsplit.trans (sep_mono .rfl (Entails.of_eq (rest_split3 m a2 a3 h3 c)))
    iintro ⟨⟨Hub, Hp, HO⟩, -, -⟩
    ihave H := hsp $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 3 c).Φ 0 = iprop(Pipeline.ΦA spec3 c ∗ Pipeline.prefHeld (Ix := Unit) (Name := ℕ) (U := UR sig nD τ) (Lvl := ℕ) pre3 c (fun _ => fullShare) a3.1) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m a2 a3 3 c).Φ (Fin.last _) = iprop(Pipeline.ΦA spec3 c ∗ Pipeline.prefHeld (Ix := Unit) (Name := ℕ) (U := UR sig nD τ) (Lvl := ℕ) pre3 c (fun _ => fullShare) a3.1) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 3) (pcfgs (F := F)) (adm a2 a3) (Ix := Unit) (Name := ℕ) (U := UR sig nD τ) (Lvl := ℕ)
      winFacts3 arr_whole3 c (pdats m a2 a3) ((pdats m a2 a3 3 c).share_full fun _ => rfl)
      (U5 m a2 c) (U6 m a2 a3 c) ((pdats m a2 a3 3 c).arrAt · (cfg3 a3).N) (hF3 m a2 a3 c) (hrest3 m a2 a3 c)
    rw [Pipeline.unscopedBufs_held] at hjoin
    have hjn := (sep_mono .rfl (Entails.of_eq (rest_split3 m a2 a3 h3 c).symm)).trans hjoin
    iintro ⟨Ha, HO, ⟨HY, Hpf⟩, Hrest⟩
    imodintro
    isplitl [Ha Hrest Hpf]
    · iapply hjn
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## @main as segments, and the launch -/

/-- @main's 7 items in order. -/
abbrev segs (h2 : a2.1 = tbl2 m) (h3 : a3.1 = tbl3 m) : List (Pipeline.Seg (pcfgs (F := F)) (adm a2 a3) (pdats m a2 a3) () defs₀ 𝒱₀ L lv) :=
  [ .region (reg0 m a2 a3),
    .region (reg1 m a2 a3),
    .host (hseg hostOps2 hostOps2_sub hostOps2_fresh (W2 m)),
    .region (reg2 m a2 a3 h2),
    .host (hseg hostOps3 hostOps3_sub hostOps3_fresh (W4 m a2)),
    .region (reg3 m a2 a3 h3),
    .host (hseg hostOps4 hostOps4_sub hostOps4_fresh (W6 m a2 a3)) ]
theorem main_run (h2 : a2.1 = tbl2 m) (h3 : a3.1 = tbl3 m) (c : Dev nD) : main (F := F) c = Pipeline.Seg.run (segs m a2 a3 h2 h3) := (main_chain c).trans (by chain_rfl)

set_option backward.isDefEq.respectTransparency.types false in
/-- THE RUN: from any memory with zero counters, with the two tables admissible and as launched, every weakly fair
    execution of @main terminates, nothing faulting, and the final memory holds every unscoped buffer at the last
    valuation. -/
theorem run_all (h2 : a2.1 = tbl2 m) (h3 : a3.1 = tbl3 m) (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m a2 a3 c b) :=
  Pipeline.θ_run_regions_kit (pcfgs (F := F)) (adm a2 a3) (pdats m a2 a3) () (cellOf_inj (adm a2 a3)) emb₁ defs₀ 𝒱₀ L lv m ρ main (segs m a2 a3 h2 h3)
    (fun c Q => by rw [main_run m a2 a3 h2 h3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a2 a3)) (cellOf_inj (adm a2 a3))) (Pipeline.launchToks (Pipeline.pin (pcfgs (F := F)) (adm a2 a3)) (cellOf_inj (adm a2 a3))))
    (hu₀ := by
      iintro Hu; imodintro
      isplitl [Hu]
      · iapply (show (ownU (initOf (Pipeline.cells (Pipeline.pin (pcfgs (F := F)) (adm a2 a3)) (cellOf_inj (adm a2 a3))) (Pipeline.launchToks (Pipeline.pin (pcfgs (F := F)) (adm a2 a3)) (cellOf_inj (adm a2 a3)))) : sProp 𝕄)
            ⊢ BI.own (emb₁ (initOf (Pipeline.cells (Pipeline.pin (pcfgs (F := F)) (adm a2 a3)) (cellOf_inj (adm a2 a3))) (Pipeline.launchToks (Pipeline.pin (pcfgs (F := F)) (adm a2 a3)) (cellOf_inj (adm a2 a3))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m a2 a3 c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m a2 a3 c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m a2 a3 c b)
    (hfin := fun c s' => by
      iintro ⟨⟨Hh, -⟩, HSI⟩
      unfold StableHlo.held
      imodintro
      iapply (pointsTo_read_all (Pipeline.ucRefs τ sig) (fun b => (((c : Thread nD τ)).1, b)) (W7 m a2 a3 c) s')
      isplitl [Hh] <;> iassumption)
    (hQ := fun s h c => h c)

end Cert.Kernel.Hand

end
-- ==== Proof.K.Frame.lean ====
/-
  The frame read off the run: no item of @main writes an argument array. The user table is region 0's input array
  and the item table region 1's (an input window's array ends as it was entered); the other five arguments are no
  region's array; and no host operation writes any of the seven. So each holds, at the last valuation, what it held
  at launch.
-/
import proofs.«423441_j19576460935173_1_alg».proof.Proof.K.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)
variable (a2 : (pcfg2 (F := F)).Adm) (a3 : (pcfg3 (F := F)).Adm)

/-- Region 0 leaves the user table as it found it; -/
theorem W1_arg0 (c : Dev nD) : W1 m c (Proc.devRef .tc main_arg0) = m ((c : Thread nD τ).loc main_arg0) :=
  (W1_arr m c 0).trans (((dat0 (U0 m) c).arrAt_in 0 rfl _).trans (A_eq0 (U0 m) c 0))
/-- region 1 the item table. -/
theorem W2_arg1 (c : Dev nD) : W2 m c (Proc.devRef .tc main_arg1) = m ((c : Thread nD τ).loc main_arg1) :=
  (W2_arr m c 0).trans (((dat1 (U1 m) c).arrAt_in 0 rfl _).trans ((A_eq1 (U1 m) c 0).trans (W1_of_ne m c main_arg1 (by decide))))

/-- From region 1's exit on, a reference that no later region stages and no host stretch writes keeps its contents. -/
theorem W7_from2 (c : Dev nD) (r : Ref sig .tc) (h2 : r ∉ hostOps2_W) (h3 : ∀ w, Pipeline.arrRef spec2 w ≠ r) (h4 : r ∉ hostOps3_W)
    (h5 : ∀ w, Pipeline.arrRef spec3 w ≠ r) (h6 : r ∉ hostOps4_W) :
    W7 m a2 a3 c (Proc.devRef .tc r) = W2 m c (Proc.devRef .tc r) :=
  (StableHlo.after_of_writes_sub hostOps4 _ hostOps4_writes h6).trans ((W6_of_ne m a2 a3 c r h5).trans
    ((StableHlo.after_of_writes_sub hostOps3 _ hostOps3_writes h4).trans ((W4_of_ne m a2 c r h3).trans
      (StableHlo.after_of_writes_sub hostOps2 _ hostOps2_writes h2))))

theorem W7_arg0 (c : Dev nD) : W7 m a2 a3 c (Proc.devRef .tc main_arg0) = m ((c : Thread nD τ).loc main_arg0) :=
  (W7_from2 m a2 a3 c main_arg0 (by decide) (by decide) (by decide) (by decide) (by decide)).trans
    ((W2_of_ne m c main_arg0 (by decide)).trans (W1_arg0 m c))
theorem W7_arg1 (c : Dev nD) : W7 m a2 a3 c (Proc.devRef .tc main_arg1) = m ((c : Thread nD τ).loc main_arg1) :=
  (W7_from2 m a2 a3 c main_arg1 (by decide) (by decide) (by decide) (by decide) (by decide)).trans (W2_arg1 m c)
theorem W7_arg2 (c : Dev nD) : W7 m a2 a3 c (Proc.devRef .tc main_arg2) = m ((c : Thread nD τ).loc main_arg2) :=
  W7_keep m a2 a3 c main_arg2 (by decide) (by decide) (by decide) (by decide) (by decide) (by decide) (by decide)
theorem W7_arg3 (c : Dev nD) : W7 m a2 a3 c (Proc.devRef .tc main_arg3) = m ((c : Thread nD τ).loc main_arg3) :=
  W7_keep m a2 a3 c main_arg3 (by decide) (by decide) (by decide) (by decide) (by decide) (by decide) (by decide)
theorem W7_arg4 (c : Dev nD) : W7 m a2 a3 c (Proc.devRef .tc main_arg4) = m ((c : Thread nD τ).loc main_arg4) :=
  W7_keep m a2 a3 c main_arg4 (by decide) (by decide) (by decide) (by decide) (by decide) (by decide) (by decide)
theorem W7_arg5 (c : Dev nD) : W7 m a2 a3 c (Proc.devRef .tc main_arg5) = m ((c : Thread nD τ).loc main_arg5) :=
  W7_keep m a2 a3 c main_arg5 (by decide) (by decide) (by decide) (by decide) (by decide) (by decide) (by decide)
theorem W7_arg6 (c : Dev nD) : W7 m a2 a3 c (Proc.devRef .tc main_arg6) = m ((c : Thread nD τ).loc main_arg6) :=
  W7_keep m a2 a3 c main_arg6 (by decide) (by decide) (by decide) (by decide) (by decide) (by decide) (by decide)

/-- A final memory that holds every unscoped buffer at the last valuation holds the seven arguments as launched. -/
theorem args_kept (s : MemSt nD τ sig (Elt F))
    (h : ∀ c : Dev nD, ∀ b ∈ Pipeline.ucRefs τ sig, s.mem (((c : Thread nD τ)).1, b) = W7 m a2 a3 c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6) :=
  ⟨(h c _ (mem_uc main_arg0 (by decide))).trans (W7_arg0 m a2 a3 c),
   (h c _ (mem_uc main_arg1 (by decide))).trans (W7_arg1 m a2 a3 c),
   (h c _ (mem_uc main_arg2 (by decide))).trans (W7_arg2 m a2 a3 c),
   (h c _ (mem_uc main_arg3 (by decide))).trans (W7_arg3 m a2 a3 c),
   (h c _ (mem_uc main_arg4 (by decide))).trans (W7_arg4 m a2 a3 c),
   (h c _ (mem_uc main_arg5 (by decide))).trans (W7_arg5 m a2 a3 c),
   (h c _ (mem_uc main_arg6 (by decide))).trans (W7_arg6 m a2 a3 c)⟩

variable [Cert.Pre_finite_inputs.Facts]

/-- THE FRAME of this program at any float instance, from the precondition: the tables are admissible
    (the precondition's index-range conjuncts) and as launched, so the run applies, and the arguments are read off it. -/
theorem frame (hpre : PreAt m) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m ⟨tbl2 m, ok2_of_pre m hpre⟩ ⟨tbl3 m, ok3_of_pre m hpre⟩ r.2 h c)
    (run_all m ⟨tbl2 m, ok2_of_pre m hpre⟩ ⟨tbl3 m, ok3_of_pre m hpre⟩ rfl rfl ρ)

end Cert.Kernel.Hand

end
-- ==== Proof.KI.Hyp0.lean ====
/-
  Region 0 of the idealized kernel program: the row-tile map of the user table, at the contents `V` the
  region is entered from. A grid point `t` (50 of them) stages rows 2000·t … 2000·t + 1999 of the table, all 64
  columns; the body reads the tile once and writes the output tile in two pieces: column 0 (zeros) and columns
  1 … 63 (the tile's tangent-space image, a function of the tile alone). So the output tile after the body is the
  two pieces laid over whatever the buffer held, and they cover it.
-/
import proofs.«423441_j19576460935173_1_alg».proof.Proof.Gen.KernelIdeal.Launch
import proofs.«423441_j19576460935173_1_alg».proof.Proof.Gen.KernelIdeal.Skeleton
import proofs.«423441_j19576460935173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile is in its staging buffer at every point: it is fetched at every point and the body leaves it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole tile, its first column, and its last 63 columns. -/
abbrev tile0 : Rect S2000x64 := Rect.unit (s := S2000x64) ![0, 0] S2000x64.size inb_S2000x64_S2000x64_0_0
abbrev col0_0 : Rect S2000x64 := Rect.unit (s := S2000x64) ![0, 0] S2000x1.size inb_S2000x64_S2000x1_0_0
abbrev cols0 : Rect S2000x64 := Rect.unit (s := S2000x64) ![0, 1] S2000x63.size inb_S2000x64_S2000x63_0_1

/-- The output tile after the body, from the input tile: columns 1 … 63 at the tangent-space image of the input
    tile, column 0 at zero (the later store first). -/
def out0_1 (x0 : Vec F S2000x64 .f32) : Vec F S2000x64 .f32 :=
  View.canon [⟨cols0, k0_pay1 (View.ld x0 tile0)⟩, ⟨col0_0, k0_pay2 (F := F)⟩]

/-- Column 0 and columns 1 … 63 tile the 64 columns. -/
theorem cover0_1 (p0 : Vec F S2000x63 .f32) (p1 : Vec F S2000x1 .f32) (y : S2000x64.Idx) :
    ∃ pc ∈ ([⟨cols0, p0⟩, ⟨col0_0, p1⟩] : List (View.Piece (Elt F) S2000x64 .f32)), y ∈ pc.1.set :=
  View.cover_of_tiledBy [⟨cols0, p0⟩, ⟨col0_0, p1⟩] ![2000, 1] (by sl_kernel_rfl) y

set_option maxHeartbeats 1000000 in
/-- The body on whole staging buffers, the input's at `x0`, the output's at anything: it ends with the input's
    unchanged and the output's at `out0_1 x0`. -/
theorem sound_kernel0 (c : Dev nD) (E : Set ℕ) (i : grid0.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__hyp_kernel i arg1 harg1 arg2 harg2) K := by
  simp only [cc0__hyp_kernel_eq_skeleton]; unfold cc0__hyp_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _)

/-- The proof data of pipeline 0 on core `c`: the arrays as the region finds them; after the body at point `t` the
    input's buffer at its tile and the output's at `out0_1` of it; the scoped rest and the generator register ride
    along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Hyp1.lean ====
/-
  Region 1 of the idealized kernel program: the row-tile map of the item table, at the contents `V` the
  region is entered from. A grid point `t` (25 of them) stages rows 2000·t … 2000·t + 1999 of the table, all 64
  columns; the body reads the tile once and writes the output tile in two pieces: column 0 (zeros) and columns
  1 … 63 (the tile's tangent-space image, a function of the tile alone). So the output tile after the body is the
  two pieces laid over whatever the buffer held, and they cover it.
-/
import proofs.«423441_j19576460935173_1_alg».proof.Proof.Gen.KernelIdeal.Launch
import proofs.«423441_j19576460935173_1_alg».proof.Proof.Gen.KernelIdeal.Skeleton
import proofs.«423441_j19576460935173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input tile is in its staging buffer at every point: it is fetched at every point and the body leaves it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole tile, its first column, and its last 63 columns. -/
abbrev tile1 : Rect S2000x64 := Rect.unit (s := S2000x64) ![0, 0] S2000x64.size inb_S2000x64_S2000x64_0_0
abbrev col1_0 : Rect S2000x64 := Rect.unit (s := S2000x64) ![0, 0] S2000x1.size inb_S2000x64_S2000x1_0_0
abbrev cols1 : Rect S2000x64 := Rect.unit (s := S2000x64) ![0, 1] S2000x63.size inb_S2000x64_S2000x63_0_1

/-- The output tile after the body, from the input tile: columns 1 … 63 at the tangent-space image of the input
    tile, column 0 at zero (the later store first). -/
def out1_1 (x0 : Vec F S2000x64 .f32) : Vec F S2000x64 .f32 :=
  View.canon [⟨cols1, k1_pay1 (View.ld x0 tile1)⟩, ⟨col1_0, k1_pay2 (F := F)⟩]

/-- Column 0 and columns 1 … 63 tile the 64 columns. -/
theorem cover1_1 (p0 : Vec F S2000x63 .f32) (p1 : Vec F S2000x1 .f32) (y : S2000x64.Idx) :
    ∃ pc ∈ ([⟨cols1, p0⟩, ⟨col1_0, p1⟩] : List (View.Piece (Elt F) S2000x64 .f32)), y ∈ pc.1.set :=
  View.cover_of_tiledBy [⟨cols1, p0⟩, ⟨col1_0, p1⟩] ![2000, 1] (by sl_kernel_rfl) y

set_option maxHeartbeats 1000000 in
/-- The body on whole staging buffers, the input's at `x0`, the output's at anything: it ends with the input's
    unchanged and the output's at `out1_1 x0`. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__hyp_kernel i arg1 harg1 arg2 harg2) K := by
  simp only [cc1__hyp_kernel_eq_skeleton]; unfold cc1__hyp_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _ _)

/-- The proof data of pipeline 1 on core `c`: the arrays as the region finds them; after the body at point `t` the
    input's buffer at its tile and the output's at `out1_1` of it; the scoped rest and the generator register ride
    along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Gat2.lean ====
/-
  Region 2 of the idealized kernel program: the row gather out of the user half of the summed embeddings, at the
  contents `V` the region is entered from and at ANY admissible contents `a` of its index table. Grid point `t`
  (2048 of them) stages the one row of the table-indexed block (row `table[t]` of the [100000, 1, 64] array, all 64
  entries) and the body copies it, unchanged, into the output's one-row tile for point `t`. The body never reads
  the index table itself; the table rides through the region untouched.
-/
import proofs.«423441_j19576460935173_1_alg».proof.Proof.Gen.KernelIdeal.Launch
import proofs.«423441_j19576460935173_1_alg».proof.Proof.Gen.KernelIdeal.Skeleton
import proofs.«423441_j19576460935173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg2 (F := F)).Adm)

/-- The one-row tile of window `w` at point `t`, read off its array as the region finds it: for the input window
    the row the table names for `t`. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The input row is in its staging buffer at every point, fetched there or not (an unfetched point names the same
    row as the one before it), and the body leaves it. -/
theorem before2_0_of {c : Dev nD} (dat : Dat τ (Elt F) Unit ℕ (UR sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole one-row tile. -/
abbrev row2 : Rect S1x1x64 := Rect.unit (s := S1x1x64) ![0, 0, 0] S1x1x64.size inb_S1x1x64_S1x1x64_0_0_0

/-- The output tile after the body: the input row, stored whole. -/
def out2_1 (x0 : Vec F S1x1x64 .f32) : Vec F S1x1x64 .f32 :=
  View.canon [⟨row2, k2_pay1 (View.ld x0 row2)⟩]

theorem cover2_1 (p0 : Vec F S1x1x64 .f32) (y : S1x1x64.Idx) :
    ∃ pc ∈ ([⟨row2, p0⟩] : List (View.Piece (Elt F) S1x1x64 .f32)), y ∈ pc.1.set :=
  View.cover_of_tiled [⟨row2, p0⟩] S1x1x64.size (by rfl) y

set_option maxHeartbeats 1000000 in
/-- The body on whole staging buffers, the input's at `x0`, the output's at anything: it ends with the input's
    unchanged and the output's at `out2_1 x0`. The table's memref is an argument the body does not touch. -/
theorem sound_kernel2 (c : Dev nD) (E : Set ℕ) (i : grid2.Coords) (arg1 : Memref sig .tc .smem S2048 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_1 x0)) -∗ K ⟨⟩))
      ⊢ wp frame (wpE (defs₀ (F := F)) Variants.none c none) E (cc2__gather_kernel i arg1 harg1 arg2 harg2 arg3 harg3) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of pipeline 2 on core `c`: the arrays as the region finds them; after the body at point `t` the
    input's buffer at its row and the output's at that row; the scoped rest, the generator register and the index
    table (whole, at the admissible contents) ride along untouched; nothing owed; full shares. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => out2_1 (iblk2 V a c 0 t)
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; try rfl
theorem after2_1 (c : Dev nD) (t : Fin (cfg2 a).N) : (dat2 V a c).after 1 t = out2_1 (iblk2 V a c 0 t) := by dsimp only [dat2]; try rfl

theorem before2_0 (c : Dev nD) (t : Fin (cfg2 a).N) (d) : (dat2 V a c).before 0 t d = iblk2 V a c 0 t :=
  before2_0_of V a (dat2 V a c) (A_eq2 V a c 0) (after2_0 V a c) t d

/-- Each window's current staging buffer at point `t`, and the body as the pipeline calls it there. -/
abbrev st2_0 (t : Fin (cfg2 a).N) : Memref sig .tc .vmem S1x1x64 .f32 := spec2_0.stage ((cfg2 a).slots t 0)
abbrev st2_1 (t : Fin (cfg2 a).N) : Memref sig .tc .vmem S1x1x64 .f32 := spec2_1.stage ((cfg2 a).slots t 1)
abbrev bodyAt2 (t : Fin (cfg2 a).N) : Prog (TpuEff nD τ sig (Elt F) Λ₀ .tc) PUnit :=
  cc2__gather_kernel (grid2.coords t) (Memref.whole main_arg5) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1))

def bodyPre2 (c : Dev nD) (t : Fin (cfg2 a).N) : sProp 𝕄 :=
  iprop((dat2 V a c).Φ t.castSucc ∗ (dat2 V a c).owesAt () t.castSucc
    ∗ (∃ d, owns (c : Thread nD τ) (st2_0 a t) fullShare ((dat2 V a c).before 0 t d))
    ∗ (∃ d, owns (c : Thread nD τ) (st2_1 a t) fullShare ((dat2 V a c).before 1 t d)))

def bodyPost2 (c : Dev nD) (t : Fin (cfg2 a).N) : sProp 𝕄 :=
  iprop((dat2 V a c).Φ t.succ ∗ (dat2 V a c).owesAt () t.succ
    ∗ owns (c : Thread nD τ) (st2_0 a t) fullShare ((dat2 V a c).after 0 t)
    ∗ owns (c : Thread nD τ) (st2_1 a t) fullShare ((dat2 V a c).after 1 t))

theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  simp only [before2_0]
  rw [show (dat2 V a c).Φ t.succ = (dat2 V a c).Φ t.castSucc from rfl,
    show (dat2 V a c).owesAt () t.succ = (dat2 V a c).owesAt () t.castSucc from rfl,
    after2_0, after2_1]
  iintro ⟨HΦ, Ho, ⟨%d0, H0⟩, ⟨%d1, H1⟩⟩
  iapply (sound_kernel2 c Set.univ _ _ _ _ _ _ _ (iblk2 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation2 (c : Dev nD) : BodyObligation (dat2 (F := F) V a c) (defs₀ (F := F)) Variants.none () Set.univ := fun t => by
  rw [bigSep_W2, bigSep_W2]
  exact sound_body2 V a c t

end Cert.KernelIdeal.Hand

end
-- ==== Proof.KI.Gat3.lean ====
/-
  Region 3 of the idealized kernel program: the row gather out of the item half of the summed embeddings, at the
  contents `V` the region is entered from and at ANY admissible contents `a` of its index table. Grid point `t`
  (2048 of them) stages the one row of the table-indexed block (row `table[t]` of the [50000, 1, 64] array, all 64
  entries) and the body copies it, unchanged, into the output's one-row tile for point `t`. The body never reads
  the index table itself; the table rides through the region untouched.
-/
import proofs.«423441_j19576460935173_1_alg».proof.Proof.Gen.KernelIdeal.Launch
import proofs.«423441_j19576460935173_1_alg».proof.Proof.Gen.KernelIdeal.Skeleton
import proofs.«423441_j19576460935173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg3 (F := F)).Adm)

/-- The one-row tile of window `w` at point `t`, read off its array as the region finds it: for the input window
    the row the table names for `t`. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- The input row is in its staging buffer at every point, fetched there or not (an unfetched point names the same
    row as the one before it), and the body leaves it. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 V a c 0 t) (t : Fin (cfg3 a).N) (d) : dat.before 0 t d = iblk3 V a c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole one-row tile. -/
abbrev row3 : Rect S1x1x64 := Rect.unit (s := S1x1x64) ![0, 0, 0] S1x1x64.size inb_S1x1x64_S1x1x64_0_0_0

/-- The output tile after the body: the input row, stored whole. -/
def out3_1 (x0 : Vec F S1x1x64 .f32) : Vec F S1x1x64 .f32 :=
  View.canon [⟨row3, k3_pay1 (View.ld x0 row3)⟩]

theorem cover3_1 (p0 : Vec F S1x1x64 .f32) (y : S1x1x64.Idx) :
    ∃ pc ∈ ([⟨row3, p0⟩] : List (View.Piece (Elt F) S1x1x64 .f32)), y ∈ pc.1.set :=
  View.cover_of_tiled [⟨row3, p0⟩] S1x1x64.size (by rfl) y

set_option maxHeartbeats 1000000 in
/-- The body on whole staging buffers, the input's at `x0`, the output's at anything: it ends with the input's
    unchanged and the output's at `out3_1 x0`. The table's memref is an argument the body does not touch. -/
theorem sound_kernel3 (c : Dev nD) (E : Set ℕ) (i : grid3.Coords) (arg1 : Memref sig .tc .smem S2048 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_1 x0)) -∗ K ⟨⟩))
      ⊢ wp frame (wpE (defs₀ (F := F)) Variants.none c none) E (cc3__gather_kernel i arg1 harg1 arg2 harg2 arg3 harg3) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The proof data of pipeline 3 on core `c`: the arrays as the region finds them; after the body at point `t` the
    input's buffer at its row and the output's at that row; the scoped rest, the generator register and the index
    table (whole, at the admissible contents) ride along untouched; nothing owed; full shares. -/
def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => out3_1 (iblk3 V a c 0 t)
  Φ _ := iprop(Pipeline.ΦA spec3 c ∗ Pipeline.prefHeld (Ix := Unit) (Name := ℕ) (U := UR sig nD τ) (Lvl := ℕ) pre3 c (fun _ => fullShare) a.1)
  q _ := fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after 0 t = iblk3 V a c 0 t := by dsimp only [dat3]; try rfl
theorem after3_1 (c : Dev nD) (t : Fin (cfg3 a).N) : (dat3 V a c).after 1 t = out3_1 (iblk3 V a c 0 t) := by dsimp only [dat3]; try rfl

theorem before3_0 (c : Dev nD) (t : Fin (cfg3 a).N) (d) : (dat3 V a c).before 0 t d = iblk3 V a c 0 t :=
  before3_0_of V a (dat3 V a c) (A_eq3 V a c 0) (after3_0 V a c) t d

/-- Each window's current staging buffer at point `t`, and the body as the pipeline calls it there. -/
abbrev st3_0 (t : Fin (cfg3 a).N) : Memref sig .tc .vmem S1x1x64 .f32 := spec3_0.stage ((cfg3 a).slots t 0)
abbrev st3_1 (t : Fin (cfg3 a).N) : Memref sig .tc .vmem S1x1x64 .f32 := spec3_1.stage ((cfg3 a).slots t 1)
abbrev bodyAt3 (t : Fin (cfg3 a).N) : Prog (TpuEff nD τ sig (Elt F) Λ₀ .tc) PUnit :=
  cc3__gather_kernel (grid3.coords t) (Memref.whole main_arg6) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1))

def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d))
    ∗ (∃ d, owns (c : Thread nD τ) (st3_1 a t) fullShare ((dat3 V a c).before 1 t d)))

def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t)
    ∗ owns (c : Thread nD τ) (st3_1 a t) fullShare ((dat3 V a c).after 1 t))

theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0]
  rw [show (dat3 V a c).Φ t.succ = (dat3 V a c).Φ t.castSucc from rfl,
    show (dat3 V a c).owesAt () t.succ = (dat3 V a c).owesAt () t.castSucc from rfl,
    after3_0, after3_1]
  iintro ⟨HΦ, Ho, ⟨%d0, H0⟩, ⟨%d1, H1⟩⟩
  iapply (sound_kernel3 c Set.univ _ _ _ _ _ _ _ (iblk3 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation3 (c : Dev nD) : BodyObligation (dat3 (F := F) V a c) (defs₀ (F := F)) Variants.none () Set.univ := fun t => by
  rw [bigSep_W3, bigSep_W3]
  exact sound_body3 V a c t

end Cert.KernelIdeal.Hand

end
-- ==== Proof.KI.OkOfPre.lean ====
/-
  From the precondition to the two index tables' admissibility. The precondition's last two conjuncts say that every
  word of `user` is in [0, 100000) and every word of `pos` in [0, 50000), read as signed 32-bit integers; such a word's
  unsigned value is then below the table's row count, so the one-row block the word names lies inside the
  [rows, 1, 64] array it indexes, which is the side condition the two gather pipelines ask of their tables.
-/
import proofs.«423441_j19576460935173_1_alg».proof.Proof.Gen.KernelIdeal
import proofs.«423441_j19576460935173_1_alg».proof.Proof.Gen.Pre_finite_inputs
import Idealize.ShloMosaic.Lib.StableHlo.Predicate
import Idealize.ShloMosaic.Lib.ReduceAll

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The two index tables as launched (the program runs on one device). -/
def tbl2 : pre2.Contents (Elt F) := fun j => m (((0 : Dev nD) : Thread nD τ).loc (pre2.ref j))
def tbl3 : pre3.Contents (Elt F) := fun j => m (((0 : Dev nD) : Thread nD τ).loc (pre3.ref j))

/-- The precondition of the argument arrays in `m`, at any float instance: the printed predicate is all ones on every device. -/
def PreAt [Cert.Pre_finite_inputs.Facts] : Prop :=
  ∀ c : Dev nD,
    (Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) = (fun _ => 1#1)

variable [Cert.Pre_finite_inputs.Facts]

/-- The precondition's last two conjuncts, read at one element each. -/
private theorem pre_words (h : PreAt m) (c : Dev nD) (i : S2048.Idx) :
    (IntOp.cmpi .sge (m ((c.tc : Thread nD τ).loc main_arg5) i) (0#32) = 1#1
      ∧ IntOp.cmpi .slt (m ((c.tc : Thread nD τ).loc main_arg5) i) (100000#32) = 1#1)
    ∧ (IntOp.cmpi .sge (m ((c.tc : Thread nD τ).loc main_arg6) i) (0#32) = 1#1
      ∧ IntOp.cmpi .slt (m ((c.tc : Thread nD τ).loc main_arg6) i) (50000#32) = 1#1) := by
  haveI : Subsingleton Cert.Pre_finite_inputs.S_.Idx := ⟨fun a b => funext fun d => d.elim0⟩
  have e := congrFun (h c) (fun a => a.elim0)
  dsimp only [Cert.Pre_finite_inputs.fn, Cert.Pre_finite_inputs.fn_part1, andi] at e
  obtain ⟨e1, epos⟩ := IntOp.andi_eq_one.1 e
  obtain ⟨_, euser⟩ := IntOp.andi_eq_one.1 e1
  have hu := Host.reduce_andi_all _ _ _ _ _ euser i
  have hp := Host.reduce_andi_all _ _ _ _ _ epos i
  exact ⟨IntOp.andi_eq_one.1 hu, IntOp.andi_eq_one.1 hp⟩

/-- A 32-bit word that is, signed, at least 0 and below `n` (with `n` below 2³¹) has unsigned value below `n`. -/
private theorem toNat_lt_of_signed_range (w : BitVec 32) (n : Nat) (hn : n < 2 ^ 31)
    (h0 : IntOp.cmpi .sge w (0#32) = 1#1) (h1 : IntOp.cmpi .slt w (BitVec.ofNat 32 n) = 1#1) : w.toNat < n := by
  have h0' : (0#32 : BitVec 32).sle w = true := (StableHlo.Predicate.ofBool_eq_one_iff _).1 h0
  have h1' : w.slt (BitVec.ofNat 32 n) = true := (StableHlo.Predicate.ofBool_eq_one_iff _).1 h1
  simp only [BitVec.sle, BitVec.slt, decide_eq_true_eq, StableHlo.Predicate.toInt_ofNat_small n hn] at h0' h1'
  have hz : (0#32 : BitVec 32).toInt = 0 := by decide
  rw [hz] at h0'
  have hw := w.isLt
  rw [BitVec.toInt_eq_toNat_cond] at h0' h1'
  split at h0' <;> omega

/-- Every word of `user` is, signed, at least 0 and below 100000. -/
theorem user_range (h : PreAt m) (c : Dev nD) (i : S2048.Idx) :
    IntOp.cmpi .sge (m ((c.tc : Thread nD τ).loc main_arg5) i) (0#32) = 1#1
      ∧ IntOp.cmpi .slt (m ((c.tc : Thread nD τ).loc main_arg5) i) (100000#32) = 1#1 :=
  (pre_words m h c i).1

/-- Every word of `pos` is, signed, at least 0 and below 50000. -/
theorem pos_range (h : PreAt m) (c : Dev nD) (i : S2048.Idx) :
    IntOp.cmpi .sge (m ((c.tc : Thread nD τ).loc main_arg6) i) (0#32) = 1#1
      ∧ IntOp.cmpi .slt (m ((c.tc : Thread nD τ).loc main_arg6) i) (50000#32) = 1#1 :=
  (pre_words m h c i).2

/-- So its unsigned value names a row of the table's array. -/
theorem user_toNat_lt (h : PreAt m) (c : Dev nD) (i : S2048.Idx) : (m ((c.tc : Thread nD τ).loc main_arg5) i).toNat < 100000 :=
  toNat_lt_of_signed_range _ 100000 (by omega) (user_range m h c i).1 (user_range m h c i).2

theorem pos_toNat_lt (h : PreAt m) (c : Dev nD) (i : S2048.Idx) : (m ((c.tc : Thread nD τ).loc main_arg6) i).toNat < 50000 :=
  toNat_lt_of_signed_range _ 50000 (by omega) (pos_range m h c i).1 (pos_range m h c i).2

/-- The one-row block that a word below `n` names lies inside a [n, 1, 64] array. -/
private theorem block_inside (w : BitVec 32) (n : Nat) (hw : w.toNat < n) (a : Fin 3) :
    ((![w.toNat, (0#32 : BitVec 32).toNat, (0#32 : BitVec 32).toNat] : Fin 3 → Nat) a + 1) * S1x1x64.size a
      ≤ (⟨3, ![n, 1, 64]⟩ : Shape).size a := by
  fin_cases a <;> simp <;> omega

/-- The user gather's table is admissible: at every grid point the block its word names is inside the [100000, 1, 64] array. -/
theorem ok2_of_pre (h : PreAt m) : ok2 (F := F) (tbl2 m) := by
  intro i
  exact ⟨fun a => block_inside _ 100000 (user_toNat_lt m h 0 _) a, Or.inl rfl⟩

/-- The item gather's table is admissible. -/
theorem ok3_of_pre (h : PreAt m) : ok3 (F := F) (tbl3 m) := by
  intro i
  exact ⟨fun a => block_inside _ 50000 (pos_toNat_lt m h 0 _) a, Or.inl rfl⟩

end Cert.KernelIdeal.Hand

end
-- ==== Proof.KI.Run.lean ====
/-
  The whole run of the idealized kernel program, at any float instance: @main is two row-tile regions (user table,
  item table), a stretch of 57 host operations (the three sparse products, their sum, its two halves), the user
  gather region, two reshapes, the item gather region, a reshape and the final concatenation. Between two items the
  core's unscoped buffers are held at a valuation: the launch memory; after a region, the same with the region's
  arrays at what its write-backs leave; after a host stretch, the stretch's operations applied. Each region is
  entered with its arrays split out of that valuation and left with them put back; the two gather regions also take
  their index table out and put it back unchanged, which is where the tables' admissibility is used. The post names
  EVERY unscoped buffer at the last valuation, so the frame (the arguments end as launched) and the result's value
  (the last valuation at the result buffer) are both read off this one run.
-/
import proofs.«423441_j19576460935173_1_alg».proof.Proof.KI.Hyp0
import proofs.«423441_j19576460935173_1_alg».proof.Proof.KI.Hyp1
import proofs.«423441_j19576460935173_1_alg».proof.Proof.KI.Gat2
import proofs.«423441_j19576460935173_1_alg».proof.Proof.KI.Gat3
import proofs.«423441_j19576460935173_1_alg».proof.Proof.KI.OkOfPre
import proofs.«423441_j19576460935173_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (a2 : (pcfg2 (F := F)).Adm) (a3 : (pcfg3 (F := F)).Adm)

/-! ## The buffers' contents at each boundary -/

/-- At launch. -/
abbrev W0 : Dev nD → Valuation τ sig (Elt F) := fun c b => m (c, b)
abbrev U0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 winFacts0.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 winFacts1.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After the 57 host operations (the user gather's entry). -/
abbrev W3 : Dev nD → Valuation τ sig (Elt F) := fun c => StableHlo.after hostOps2 (W2 m c)
abbrev U3 : (c : Dev nD) → (b : Ref sig .tc) → Buf (Elt F) ((c : Thread nD τ).loc b) := fun c b => W3 m c b
/-- After the user gather. -/
def W4 (c : Dev nD) : Valuation τ sig (Elt F) :=
  Pipeline.withArrays spec2 c (W3 m c) fun w => (dat2 (U3 m) a2 c).arrAt w (cfg2 a2).N
theorem W4_arr (c : Dev nD) (w : Fin (cfg2 a2).W) :
    W4 m a2 c (Proc.devRef .tc (Pipeline.arrRef spec2 w)) = (dat2 (U3 m) a2 c).arrAt w (cfg2 a2).N := by
  unfold W4; exact Pipeline.withArrays_arr spec2 winFacts2.arr_inj c _ _ w
theorem W4_of_ne (c : Dev nD) (b : Ref sig .tc) (hb : ∀ w, Pipeline.arrRef spec2 w ≠ b) :
    W4 m a2 c (Proc.devRef .tc b) = W3 m c (Proc.devRef .tc b) := by
  unfold W4; exact Pipeline.withArrays_of_ne spec2 c _ _ b hb
abbrev U4 : (c : Dev nD) → (b : Ref sig .tc) → Buf (Elt F) ((c : Thread nD τ).loc b) := fun c b => W4 m a2 c b
theorem hF2 (c : Dev nD) (w : Fin (cfg2 a2).W) : (dat2 (U3 m) a2 c).arrAt w (cfg2 a2).N = U4 m a2 c (Pipeline.arrRef spec2 w) :=
  (W4_arr m a2 c w).symm
theorem hrest2 (c : Dev nD) : ∀ b, b ∉ Finset.univ.image (Pipeline.arrRef spec2) → U4 m a2 c b = U3 m c b :=
  fun b hb => W4_of_ne m a2 c b fun w e => hb (Finset.mem_image.mpr ⟨w, Finset.mem_univ _, e⟩)

/-- After the two reshapes (the item gather's entry). -/
abbrev W5 : Dev nD → Valuation τ sig (Elt F) := fun c => StableHlo.after hostOps3 (W4 m a2 c)
abbrev U5 : (c : Dev nD) → (b : Ref sig .tc) → Buf (Elt F) ((c : Thread nD τ).loc b) := fun c b => W5 m a2 c b
/-- After the item gather. -/
def W6 (c : Dev nD) : Valuation τ sig (Elt F) :=
  Pipeline.withArrays spec3 c (W5 m a2 c) fun w => (dat3 (U5 m a2) a3 c).arrAt w (cfg3 a3).N
theorem W6_arr (c : Dev nD) (w : Fin (cfg3 a3).W) :
    W6 m a2 a3 c (Proc.devRef .tc (Pipeline.arrRef spec3 w)) = (dat3 (U5 m a2) a3 c).arrAt w (cfg3 a3).N := by
  unfold W6; exact Pipeline.withArrays_arr spec3 winFacts3.arr_inj c _ _ w
theorem W6_of_ne (c : Dev nD) (b : Ref sig .tc) (hb : ∀ w, Pipeline.arrRef spec3 w ≠ b) :
    W6 m a2 a3 c (Proc.devRef .tc b) = W5 m a2 c (Proc.devRef .tc b) := by
  unfold W6; exact Pipeline.withArrays_of_ne spec3 c _ _ b hb
abbrev U6 : (c : Dev nD) → (b : Ref sig .tc) → Buf (Elt F) ((c : Thread nD τ).loc b) := fun c b => W6 m a2 a3 c b
theorem hF3 (c : Dev nD) (w : Fin (cfg3 a3).W) : (dat3 (U5 m a2) a3 c).arrAt w (cfg3 a3).N = U6 m a2 a3 c (Pipeline.arrRef spec3 w) :=
  (W6_arr m a2 a3 c w).symm
theorem hrest3 (c : Dev nD) : ∀ b, b ∉ Finset.univ.image (Pipeline.arrRef spec3) → U6 m a2 a3 c b = U5 m a2 c b :=
  fun b hb => W6_of_ne m a2 a3 c b fun w e => hb (Finset.mem_image.mpr ⟨w, Finset.mem_univ _, e⟩)

/-- After the last reshape and the concatenation: the final contents. -/
abbrev W7 : Dev nD → Valuation τ sig (Elt F) := fun c => StableHlo.after hostOps4 (W6 m a2 a3 c)

/-! ## A buffer no item writes keeps its launch contents -/

/-- A reference that is no region's array and that no host stretch writes holds, at every boundary, what it held at
    launch. -/
theorem W3_keep (c : Dev nD) (r : Ref sig .tc) (h0 : ∀ w, Pipeline.arrRef spec0 w ≠ r) (h1 : ∀ w, Pipeline.arrRef spec1 w ≠ r)
    (h2 : r ∉ hostOps2_W) : W3 m c (Proc.devRef .tc r) = m ((c : Thread nD τ).loc r) :=
  (StableHlo.after_of_writes_sub hostOps2 _ hostOps2_writes h2).trans ((W2_of_ne m c r h1).trans (W1_of_ne m c r h0))
theorem W5_keep (c : Dev nD) (r : Ref sig .tc) (h0 : ∀ w, Pipeline.arrRef spec0 w ≠ r) (h1 : ∀ w, Pipeline.arrRef spec1 w ≠ r)
    (h2 : r ∉ hostOps2_W) (h3 : ∀ w, Pipeline.arrRef spec2 w ≠ r) (h4 : r ∉ hostOps3_W) :
    W5 m a2 c (Proc.devRef .tc r) = m ((c : Thread nD τ).loc r) :=
  (StableHlo.after_of_writes_sub hostOps3 _ hostOps3_writes h4).trans ((W4_of_ne m a2 c r h3).trans (W3_keep m c r h0 h1 h2))
theorem W7_keep (c : Dev nD) (r : Ref sig .tc) (h0 : ∀ w, Pipeline.arrRef spec0 w ≠ r) (h1 : ∀ w, Pipeline.arrRef spec1 w ≠ r)
    (h2 : r ∉ hostOps2_W) (h3 : ∀ w, Pipeline.arrRef spec2 w ≠ r) (h4 : r ∉ hostOps3_W) (h5 : ∀ w, Pipeline.arrRef spec3 w ≠ r)
    (h6 : r ∉ hostOps4_W) : W7 m a2 a3 c (Proc.devRef .tc r) = m ((c : Thread nD τ).loc r) :=
  (StableHlo.after_of_writes_sub hostOps4 _ hostOps4_writes h6).trans ((W6_of_ne m a2 a3 c r h5).trans (W5_keep m a2 c r h0 h1 h2 h3 h4))

/-- The user gather finds its index table as launched; -/
theorem tbl_at2 (h2 : a2.1 = tbl2 m) (c : Dev nD) : (fun k => U3 m c (pre2.ref k)) = a2.1 := by
  obtain rfl : c = 0 := Subsingleton.elim _ _
  rw [h2]
  funext k
  match k with
  | ⟨0, _⟩ => exact W3_keep m 0 main_arg5 (by decide) (by decide) (by decide)
/-- the item gather too. -/
theorem tbl_at3 (h3 : a3.1 = tbl3 m) (c : Dev nD) : (fun k => U5 m a2 c (pre3.ref k)) = a3.1 := by
  obtain rfl : c = 0 := Subsingleton.elim _ _
  rw [h3]
  funext k
  match k with
  | ⟨0, _⟩ => exact W5_keep m a2 0 main_arg6 (by decide) (by decide) (by decide) (by decide) (by decide)

/-! ## The proof data family and the thread state -/

/-- The tables' admissible contents by pipeline: the two row-tile pipelines have no table. -/
abbrev adm : (p : Fin 4) → (pcfgs (F := F) p).Adm
  | ⟨0, _⟩ => cfg0.toPCfg_adm
  | ⟨1, _⟩ => cfg1.toPCfg_adm
  | ⟨2, _⟩ => a2
  | ⟨3, _⟩ => a3
/-- Every pipeline's proof data, each at its region's entry contents. -/
def pdats : (p : Fin 4) → (c : Dev nD) → Dat τ (Elt F) Unit ℕ (UR sig nD τ) ℕ (Pipeline.pin (pcfgs (F := F)) (adm a2 a3) p) c
  | ⟨0, _⟩ => fun c => dat0 (U0 m) c
  | ⟨1, _⟩ => fun c => dat1 (U1 m) c
  | ⟨2, _⟩ => fun c => dat2 (U3 m) a2 c
  | ⟨3, _⟩ => fun c => dat3 (U5 m a2) a3 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The user gather's unscoped rest is its index table, whole and at the admissible contents, and the rest. -/
theorem rest_split2 (h2 : a2.1 = tbl2 m) (c : Dev nD) :
    (Pipeline.unscopedRest (Ix := Unit) (Name := ℕ) (U := UR sig nD τ) (Lvl := ℕ) (Pipeline.pin (pcfgs (F := F)) (adm a2 a3) 2).spec c (U3 m c) : sProp 𝕄)
      = iprop(Pipeline.prefHeld pre2 c (fun _ => fullShare) a2.1 ∗ Pipeline.unscopedRestP pre2 spec2 c (U3 m c)) := by
  show (Pipeline.unscopedRest spec2 c (U3 m c) : sProp 𝕄) = _
  rw [Pipeline.unscopedRest_split preFacts2 c (U3 m c), tbl_at2 m a2 h2 c]
/-- The item gather's, the same. -/
theorem rest_split3 (h3 : a3.1 = tbl3 m) (c : Dev nD) :
    (Pipeline.unscopedRest (Ix := Unit) (Name := ℕ) (U := UR sig nD τ) (Lvl := ℕ) (Pipeline.pin (pcfgs (F := F)) (adm a2 a3) 3).spec c (U5 m a2 c) : sProp 𝕄)
      = iprop(Pipeline.prefHeld pre3 c (fun _ => fullShare) a3.1 ∗ Pipeline.unscopedRestP pre3 spec3 c (U5 m a2 c)) := by
  show (Pipeline.unscopedRest spec3 c (U5 m a2 c) : sProp 𝕄) = _
  rw [Pipeline.unscopedRest_split preFacts3 c (U5 m a2 c), tbl_at3 m a2 a3 h3 c]

/-! ## The regions as segments -/

set_option backward.isDefEq.respectTransparency.types false in
/-- Region 0 over the thread state: entered from every unscoped buffer at `W0 m`, left at `W1 m`. Its arrays are
    split out of the unscoped buffers and put back at the contents the pipeline leaves; the generator register goes
    into the invariant and comes out; nothing is owed; the kernel has no semaphore of its own. -/
def reg0 : Pipeline.RegionSeg (pcfgs (F := F)) (adm a2 a3) (pdats m a2 a3) () defs₀ 𝒱₀ L lv 0 where
  win := winFacts0.to₀
  block_pos := block_pos0
  stage_whole := stage_whole0
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) (adm a2 a3) (pdats m a2 a3) winFacts0 arr_whole0 c
      ((pdats m a2 a3 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a2 a3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a2 a3) (Ix := Unit) (Name := ℕ) (U := UR sig nD τ) (Lvl := ℕ)
      winFacts0 arr_whole0 c (pdats m a2 a3) ((pdats m a2 a3 0 c).share_full fun _ => rfl)
      (U0 m c) (U1 m c) ((pdats m a2 a3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1 m`, left at `W2 m`. Its arrays are
    split out of the unscoped buffers and put back at the contents the pipeline leaves; the generator register goes
    into the invariant and comes out; nothing is owed; the kernel has no semaphore of its own. -/
def reg1 : Pipeline.RegionSeg (pcfgs (F := F)) (adm a2 a3) (pdats m a2 a3) () defs₀ 𝒱₀ L lv 1 where
  win := winFacts1.to₀
  block_pos := block_pos1
  stage_whole := stage_whole1
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) (adm a2 a3) (pdats m a2 a3) winFacts1 arr_whole1 c
      ((pdats m a2 a3 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a2 a3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a2 a3) (Ix := Unit) (Name := ℕ) (U := UR sig nD τ) (Lvl := ℕ)
      winFacts1 arr_whole1 c (pdats m a2 a3) ((pdats m a2 a3 1 c).share_full fun _ => rfl)
      (U1 m c) (U2 m c) ((pdats m a2 a3 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3 m`, left at `W4 m a2`. Besides
    its arrays, its index table is taken out of the unscoped buffers, whole and at the admissible contents (which are
    what the buffer holds: `tbl_at2 m a2 h2`), rides through the invariant untouched, and is put back. -/
def reg2 (h2 : a2.1 = tbl2 m) : Pipeline.RegionSeg (pcfgs (F := F)) (adm a2 a3) (pdats m a2 a3) () defs₀ 𝒱₀ L lv 2 where
  win := winFacts2.to₀
  block_pos := block_pos2
  stage_whole := stage_whole2
  K := PEmpty
  osem k := k.elim
  ho := Pipeline.OwnSemFacts.none _
  hbody c := (body_obligation2 (U3 m) a2 c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m a2 c) ∗ R c)
  X c := iprop(∃ r, prngReg c r)
  Y c := iprop((∃ r, prngReg c r) ∗ Pipeline.prefHeld (Ix := Unit) (Name := ℕ) (U := UR sig nD τ) (Lvl := ℕ) pre2 c (fun _ => fullShare) a2.1)
  Z c := Pipeline.unscopedRestP (Ix := Unit) (Name := ℕ) (U := UR sig nD τ) (Lvl := ℕ) pre2 spec2 c (U3 m c)
  hentry c := by
    rw [Pipeline.ownSems0_none]
    have hsplit := Pipeline.arrays_of_unscopedBufs (p := 2) (pcfgs (F := F)) (adm a2 a3) (pdats m a2 a3) winFacts2 arr_whole2 c
      ((pdats m a2 a3 2 c).share_full fun _ => rfl) (U3 m c) fun _ => rfl
    rw [Pipeline.unscopedBufs_held] at hsplit
    have hsp : (StableHlo.held (c : Thread nD τ) (Pipeline.ucRefs τ sig) (W3 m c) : sProp 𝕄)
        ⊢ iprop((pdats m a2 a3 2 c).arrays ((pdats m a2 a3 2 c).arrAt · 0)
            ∗ Pipeline.prefHeld pre2 c (fun _ => fullShare) a2.1 ∗ Pipeline.unscopedRestP pre2 spec2 c (U3 m c)) :=
      hsplit.trans (sep_mono .rfl (Entails.of_eq (rest_split2 m a2 a3 h2 c)))
    iintro ⟨⟨Hub, Hp, HO⟩, -, -⟩
    ihave H := hsp $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 2 c).Φ 0 = iprop(Pipeline.ΦA spec2 c ∗ Pipeline.prefHeld (Ix := Unit) (Name := ℕ) (U := UR sig nD τ) (Lvl := ℕ) pre2 c (fun _ => fullShare) a2.1) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m a2 a3 2 c).Φ (Fin.last _) = iprop(Pipeline.ΦA spec2 c ∗ Pipeline.prefHeld (Ix := Unit) (Name := ℕ) (U := UR sig nD τ) (Lvl := ℕ) pre2 c (fun _ => fullShare) a2.1) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 2) (pcfgs (F := F)) (adm a2 a3) (Ix := Unit) (Name := ℕ) (U := UR sig nD τ) (Lvl := ℕ)
      winFacts2 arr_whole2 c (pdats m a2 a3) ((pdats m a2 a3 2 c).share_full fun _ => rfl)
      (U3 m c) (U4 m a2 c) ((pdats m a2 a3 2 c).arrAt · (cfg2 a2).N) (hF2 m a2 c) (hrest2 m a2 c)
    rw [Pipeline.unscopedBufs_held] at hjoin
    have hjn := (sep_mono .rfl (Entails.of_eq (rest_split2 m a2 a3 h2 c).symm)).trans hjoin
    iintro ⟨Ha, HO, ⟨HY, Hpf⟩, Hrest⟩
    imodintro
    isplitl [Ha Hrest Hpf]
    · iapply hjn
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5 m a2`, left at `W6 m a2 a3`. Besides
    its arrays, its index table is taken out of the unscoped buffers, whole and at the admissible contents (which are
    what the buffer holds: `tbl_at3 m a2 a3 h3`), rides through the invariant untouched, and is put back. -/
def reg3 (h3 : a3.1 = tbl3 m) : Pipeline.RegionSeg (pcfgs (F := F)) (adm a2 a3) (pdats m a2 a3) () defs₀ 𝒱₀ L lv 3 where
  win := winFacts3.to₀
  block_pos := block_pos3
  stage_whole := stage_whole3
  K := PEmpty
  osem k := k.elim
  ho := Pipeline.OwnSemFacts.none _
  hbody c := (body_obligation3 (U5 m a2) a3 c).loose
  hwaits := Pipeline.hwaits_of_owed_zero _ _ _ _ L lv 3 fun _ _ => rfl
  pre c := iprop(StableHlo.held (c : Thread nD τ) (Pipeline.ucRefs τ sig) (W5 m a2 c) ∗ R c)
  post c := iprop(StableHlo.held (c : Thread nD τ) (Pipeline.ucRefs τ sig) (W6 m a2 a3 c) ∗ R c)
  X c := iprop(∃ r, prngReg c r)
  Y c := iprop((∃ r, prngReg c r) ∗ Pipeline.prefHeld (Ix := Unit) (Name := ℕ) (U := UR sig nD τ) (Lvl := ℕ) pre3 c (fun _ => fullShare) a3.1)
  Z c := Pipeline.unscopedRestP (Ix := Unit) (Name := ℕ) (U := UR sig nD τ) (Lvl := ℕ) pre3 spec3 c (U5 m a2 c)
  hentry c := by
    rw [Pipeline.ownSems0_none]
    have hsplit := Pipeline.arrays_of_unscopedBufs (p := 3) (pcfgs (F := F)) (adm a2 a3) (pdats m a2 a3) winFacts3 arr_whole3 c
      ((pdats m a2 a3 3 c).share_full fun _ => rfl) (U5 m a2 c) fun _ => rfl
    rw [Pipeline.unscopedBufs_held] at hsplit
    have hsp : (StableHlo.held (c : Thread nD τ) (Pipeline.ucRefs τ sig) (W5 m a2 c) : sProp 𝕄)
        ⊢ iprop((pdats m a2 a3 3 c).arrays ((pdats m a2 a3 3 c).arrAt · 0)
            ∗ Pipeline.prefHeld pre3 c (fun _ => fullShare) a3.1 ∗ Pipeline.unscopedRestP pre3 spec3 c (U5 m a2 c)) :=
      hsplit.trans (sep_mono .rfl (Entails.of_eq (rest_split3 m a2 a3 h3 c)))
    iintro ⟨⟨Hub, Hp, HO⟩, -, -⟩
    ihave H := hsp $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 3 c).Φ 0 = iprop(Pipeline.ΦA spec3 c ∗ Pipeline.prefHeld (Ix := Unit) (Name := ℕ) (U := UR sig nD τ) (Lvl := ℕ) pre3 c (fun _ => fullShare) a3.1) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m a2 a3 3 c).Φ (Fin.last _) = iprop(Pipeline.ΦA spec3 c ∗ Pipeline.prefHeld (Ix := Unit) (Name := ℕ) (U := UR sig nD τ) (Lvl := ℕ) pre3 c (fun _ => fullShare) a3.1) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 3) (pcfgs (F := F)) (adm a2 a3) (Ix := Unit) (Name := ℕ) (U := UR sig nD τ) (Lvl := ℕ)
      winFacts3 arr_whole3 c (pdats m a2 a3) ((pdats m a2 a3 3 c).share_full fun _ => rfl)
      (U5 m a2 c) (U6 m a2 a3 c) ((pdats m a2 a3 3 c).arrAt · (cfg3 a3).N) (hF3 m a2 a3 c) (hrest3 m a2 a3 c)
    rw [Pipeline.unscopedBufs_held] at hjoin
    have hjn := (sep_mono .rfl (Entails.of_eq (rest_split3 m a2 a3 h3 c).symm)).trans hjoin
    iintro ⟨Ha, HO, ⟨HY, Hpf⟩, Hrest⟩
    imodintro
    isplitl [Ha Hrest Hpf]
    · iapply hjn
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## @main as segments, and the launch -/

/-- @main's 7 items in order. -/
abbrev segs (h2 : a2.1 = tbl2 m) (h3 : a3.1 = tbl3 m) : List (Pipeline.Seg (pcfgs (F := F)) (adm a2 a3) (pdats m a2 a3) () defs₀ 𝒱₀ L lv) :=
  [ .region (reg0 m a2 a3),
    .region (reg1 m a2 a3),
    .host (hseg hostOps2 hostOps2_sub hostOps2_fresh (W2 m)),
    .region (reg2 m a2 a3 h2),
    .host (hseg hostOps3 hostOps3_sub hostOps3_fresh (W4 m a2)),
    .region (reg3 m a2 a3 h3),
    .host (hseg hostOps4 hostOps4_sub hostOps4_fresh (W6 m a2 a3)) ]
theorem main_run (h2 : a2.1 = tbl2 m) (h3 : a3.1 = tbl3 m) (c : Dev nD) : main (F := F) c = Pipeline.Seg.run (segs m a2 a3 h2 h3) := (main_chain c).trans (by chain_rfl)

set_option backward.isDefEq.respectTransparency.types false in
/-- THE RUN: from any memory with zero counters, with the two tables admissible and as launched, every weakly fair
    execution of @main terminates, nothing faulting, and the final memory holds every unscoped buffer at the last
    valuation. -/
theorem run_all (h2 : a2.1 = tbl2 m) (h3 : a3.1 = tbl3 m) (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m a2 a3 c b) :=
  Pipeline.θ_run_regions_kit (pcfgs (F := F)) (adm a2 a3) (pdats m a2 a3) () (cellOf_inj (adm a2 a3)) emb₁ defs₀ 𝒱₀ L lv m ρ main (segs m a2 a3 h2 h3)
    (fun c Q => by rw [main_run m a2 a3 h2 h3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a2 a3)) (cellOf_inj (adm a2 a3))) (Pipeline.launchToks (Pipeline.pin (pcfgs (F := F)) (adm a2 a3)) (cellOf_inj (adm a2 a3))))
    (hu₀ := by
      iintro Hu; imodintro
      isplitl [Hu]
      · iapply (show (ownU (initOf (Pipeline.cells (Pipeline.pin (pcfgs (F := F)) (adm a2 a3)) (cellOf_inj (adm a2 a3))) (Pipeline.launchToks (Pipeline.pin (pcfgs (F := F)) (adm a2 a3)) (cellOf_inj (adm a2 a3)))) : sProp 𝕄)
            ⊢ BI.own (emb₁ (initOf (Pipeline.cells (Pipeline.pin (pcfgs (F := F)) (adm a2 a3)) (cellOf_inj (adm a2 a3))) (Pipeline.launchToks (Pipeline.pin (pcfgs (F := F)) (adm a2 a3)) (cellOf_inj (adm a2 a3))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m a2 a3 c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m a2 a3 c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m a2 a3 c b)
    (hfin := fun c s' => by
      iintro ⟨⟨Hh, -⟩, HSI⟩
      unfold StableHlo.held
      imodintro
      iapply (pointsTo_read_all (Pipeline.ucRefs τ sig) (fun b => (((c : Thread nD τ)).1, b)) (W7 m a2 a3 c) s')
      isplitl [Hh] <;> iassumption)
    (hQ := fun s h c => h c)

end Cert.KernelIdeal.Hand

end
-- ==== Proof.KI.Frame.lean ====
/-
  The frame read off the run: no item of @main writes an argument array. The user table is region 0's input array
  and the item table region 1's (an input window's array ends as it was entered); the other five arguments are no
  region's array; and no host operation writes any of the seven. So each holds, at the last valuation, what it held
  at launch.
-/
import proofs.«423441_j19576460935173_1_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)
variable (a2 : (pcfg2 (F := F)).Adm) (a3 : (pcfg3 (F := F)).Adm)

/-- Region 0 leaves the user table as it found it; -/
theorem W1_arg0 (c : Dev nD) : W1 m c (Proc.devRef .tc main_arg0) = m ((c : Thread nD τ).loc main_arg0) :=
  (W1_arr m c 0).trans (((dat0 (U0 m) c).arrAt_in 0 rfl _).trans (A_eq0 (U0 m) c 0))
/-- region 1 the item table. -/
theorem W2_arg1 (c : Dev nD) : W2 m c (Proc.devRef .tc main_arg1) = m ((c : Thread nD τ).loc main_arg1) :=
  (W2_arr m c 0).trans (((dat1 (U1 m) c).arrAt_in 0 rfl _).trans ((A_eq1 (U1 m) c 0).trans (W1_of_ne m c main_arg1 (by decide))))

/-- From region 1's exit on, a reference that no later region stages and no host stretch writes keeps its contents. -/
theorem W7_from2 (c : Dev nD) (r : Ref sig .tc) (h2 : r ∉ hostOps2_W) (h3 : ∀ w, Pipeline.arrRef spec2 w ≠ r) (h4 : r ∉ hostOps3_W)
    (h5 : ∀ w, Pipeline.arrRef spec3 w ≠ r) (h6 : r ∉ hostOps4_W) :
    W7 m a2 a3 c (Proc.devRef .tc r) = W2 m c (Proc.devRef .tc r) :=
  (StableHlo.after_of_writes_sub hostOps4 _ hostOps4_writes h6).trans ((W6_of_ne m a2 a3 c r h5).trans
    ((StableHlo.after_of_writes_sub hostOps3 _ hostOps3_writes h4).trans ((W4_of_ne m a2 c r h3).trans
      (StableHlo.after_of_writes_sub hostOps2 _ hostOps2_writes h2))))

theorem W7_arg0 (c : Dev nD) : W7 m a2 a3 c (Proc.devRef .tc main_arg0) = m ((c : Thread nD τ).loc main_arg0) :=
  (W7_from2 m a2 a3 c main_arg0 (by decide) (by decide) (by decide) (by decide) (by decide)).trans
    ((W2_of_ne m c main_arg0 (by decide)).trans (W1_arg0 m c))
theorem W7_arg1 (c : Dev nD) : W7 m a2 a3 c (Proc.devRef .tc main_arg1) = m ((c : Thread nD τ).loc main_arg1) :=
  (W7_from2 m a2 a3 c main_arg1 (by decide) (by decide) (by decide) (by decide) (by decide)).trans (W2_arg1 m c)
theorem W7_arg2 (c : Dev nD) : W7 m a2 a3 c (Proc.devRef .tc main_arg2) = m ((c : Thread nD τ).loc main_arg2) :=
  W7_keep m a2 a3 c main_arg2 (by decide) (by decide) (by decide) (by decide) (by decide) (by decide) (by decide)
theorem W7_arg3 (c : Dev nD) : W7 m a2 a3 c (Proc.devRef .tc main_arg3) = m ((c : Thread nD τ).loc main_arg3) :=
  W7_keep m a2 a3 c main_arg3 (by decide) (by decide) (by decide) (by decide) (by decide) (by decide) (by decide)
theorem W7_arg4 (c : Dev nD) : W7 m a2 a3 c (Proc.devRef .tc main_arg4) = m ((c : Thread nD τ).loc main_arg4) :=
  W7_keep m a2 a3 c main_arg4 (by decide) (by decide) (by decide) (by decide) (by decide) (by decide) (by decide)
theorem W7_arg5 (c : Dev nD) : W7 m a2 a3 c (Proc.devRef .tc main_arg5) = m ((c : Thread nD τ).loc main_arg5) :=
  W7_keep m a2 a3 c main_arg5 (by decide) (by decide) (by decide) (by decide) (by decide) (by decide) (by decide)
theorem W7_arg6 (c : Dev nD) : W7 m a2 a3 c (Proc.devRef .tc main_arg6) = m ((c : Thread nD τ).loc main_arg6) :=
  W7_keep m a2 a3 c main_arg6 (by decide) (by decide) (by decide) (by decide) (by decide) (by decide) (by decide)

/-- A final memory that holds every unscoped buffer at the last valuation holds the seven arguments as launched. -/
theorem args_kept (s : MemSt nD τ sig (Elt F))
    (h : ∀ c : Dev nD, ∀ b ∈ Pipeline.ucRefs τ sig, s.mem (((c : Thread nD τ)).1, b) = W7 m a2 a3 c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6) :=
  ⟨(h c _ (mem_uc main_arg0 (by decide))).trans (W7_arg0 m a2 a3 c),
   (h c _ (mem_uc main_arg1 (by decide))).trans (W7_arg1 m a2 a3 c),
   (h c _ (mem_uc main_arg2 (by decide))).trans (W7_arg2 m a2 a3 c),
   (h c _ (mem_uc main_arg3 (by decide))).trans (W7_arg3 m a2 a3 c),
   (h c _ (mem_uc main_arg4 (by decide))).trans (W7_arg4 m a2 a3 c),
   (h c _ (mem_uc main_arg5 (by decide))).trans (W7_arg5 m a2 a3 c),
   (h c _ (mem_uc main_arg6 (by decide))).trans (W7_arg6 m a2 a3 c)⟩

variable [Cert.Pre_finite_inputs.Facts]

/-- THE FRAME of this program at any float instance, from the precondition: the tables are admissible
    (the precondition's index-range conjuncts) and as launched, so the run applies, and the arguments are read off it. -/
theorem frame (hpre : PreAt m) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m ⟨tbl2 m, ok2_of_pre m hpre⟩ ⟨tbl3 m, ok3_of_pre m hpre⟩ r.2 h c)
    (run_all m ⟨tbl2 m, ok2_of_pre m hpre⟩ ⟨tbl3 m, ok3_of_pre m hpre⟩ rfl rfl ρ)

end Cert.KernelIdeal.Hand

end
-- ==== Proof.Val.KerTail.lean ====
/-
  The kernel program's host stretches read at an index, over the valuations of the run. After the 57 host operations
  the summed embeddings sit in buffer main_v45 ([150000, 64]: users first, items after); main_v47 is its item half
  (row r of it is row 100000 + r of the sum), main_v48 its user half reshaped to [100000, 1, 64] (row (r, 0) is row r
  of the sum). After the user gather, main_v51 is main_v47 reshaped to [50000, 1, 64]. The final result main_v54 is
  the concatenation, along the rows, of the user gather's output reshaped to [2048, 64], the item gather's output
  reshaped the same way, and main_v47.
-/
import proofs.«423441_j19576460935173_1_alg».proof.Proof.KI.Run
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)
variable (a2 : (pcfg2 (F := F)).Adm) (a3 : (pcfg3 (F := F)).Adm)

/-! ## Two reshapes that add or drop a middle unit axis, read at an index given by coordinates -/

/-- An [n, d] array cast to [n, 1, d] reads, at (p, u, q), the array at (p, q). -/
theorem cast_nd_n1d_apply {α : Type} {n d : ℕ} (x : (⟨2, ![n, d]⟩ : Shape).Idx → α)
    (h : (⟨2, ![n, d]⟩ : Shape).ShapeCasts ⟨3, ![n, 1, d]⟩) (p : Fin n) (u : Fin 1) (q : Fin d) :
    shapeCast ⟨3, ![n, 1, d]⟩ x h (ix3 p u q) = x (ix2 p q) :=
  shapeCast_apply x h _ _ (by
    have hu : u.val = 0 := by omega
    rw [Shape.rowMajor_val_three, Shape.rowMajor_val_two]
    show p.val * d + q.val = (p.val * 1 + u.val) * d + q.val
    rw [hu, Nat.mul_one, Nat.add_zero])

/-- An [n, 1, d] array cast to [n, d] reads, at (p, q), the array at (p, 0, q). -/
theorem cast_n1d_nd_apply {α : Type} {n d : ℕ} (x : (⟨3, ![n, 1, d]⟩ : Shape).Idx → α)
    (h : (⟨3, ![n, 1, d]⟩ : Shape).ShapeCasts ⟨2, ![n, d]⟩) (p : Fin n) (q : Fin d) :
    shapeCast ⟨2, ![n, d]⟩ x h (ix2 p q) = x (ix3 p (0 : Fin 1) q) :=
  shapeCast_apply x h _ _ (by
    rw [Shape.rowMajor_val_three, Shape.rowMajor_val_two]
    show (p.val * 1 + 0) * d + q.val = p.val * d + q.val
    rw [Nat.mul_one, Nat.add_zero])

/-! ## The last three of the 57 host operations -/

/-- The two halves of the sum and the user half's reshape. -/
def last3 : List (HloOp τ sig (Elt F)) :=
  [ StableHlo.unary main_v45 main_v46 ((extractStridedSlice S100000x64 ![0, 0] · slices_S150000x64_S100000x64_0_0) : (⟨S150000x64, .f32⟩ : BufTy).Contents (Elt F) → (⟨S100000x64, .f32⟩ : BufTy).Contents (Elt F)),
    StableHlo.unary main_v45 main_v47 ((extractStridedSlice S50000x64 ![100000, 0] · slices_S150000x64_S50000x64_100000_0) : (⟨S150000x64, .f32⟩ : BufTy).Contents (Elt F) → (⟨S50000x64, .f32⟩ : BufTy).Contents (Elt F)),
    StableHlo.reshape main_v46 main_v48 rfl shapeCasts_S100000x64_S100000x1x64 ]

/-- They are what is left of the 57 after the first 54. -/
theorem drop54 : (hostOps2 : List (HloOp τ sig (Elt F))).drop 54 = last3 := rfl

/-- So the contents after the 57 are the contents after the first 54, then these three. -/
theorem after_hostOps2 (V : Valuation τ sig (Elt F)) :
    StableHlo.after hostOps2 V = StableHlo.after last3 (StableHlo.after (hostOps2.take 54) V) := by
  rw [← drop54, ← StableHlo.after_append, List.take_append_drop]

/-- From any contents G, the three operations leave the sum as it was, -/
theorem last3_v45 (G : Valuation τ sig (Elt F)) :
    StableHlo.after last3 G (Proc.devRef .tc main_v45) = G (Proc.devRef .tc main_v45) := by
  unfold last3
  after_results

/-- its item half in main_v47, -/
theorem last3_v47 (G : Valuation τ sig (Elt F)) :
    StableHlo.after last3 G (Proc.devRef .tc main_v47)
      = extractStridedSlice S50000x64 ![100000, 0] (G (Proc.devRef .tc main_v45)) slices_S150000x64_S50000x64_100000_0 := by
  unfold last3
  after_results

/-- and its user half, reshaped, in main_v48. -/
theorem last3_v48 (G : Valuation τ sig (Elt F)) :
    StableHlo.after last3 G (Proc.devRef .tc main_v48)
      = shapeCast S100000x1x64 (extractStridedSlice S100000x64 ![0, 0] (G (Proc.devRef .tc main_v45)) slices_S150000x64_S100000x64_0_0) shapeCasts_S100000x64_S100000x1x64 := by
  unfold last3
  after_results
  rfl

/-- Over any contents V the 57 operations start from: the item half of the sum, at an index. -/
theorem v47_of (V : Valuation τ sig (Elt F)) (r : Fin 50000) (j : Fin 64) :
    StableHlo.after hostOps2 V (Proc.devRef .tc main_v47) (ix2 r j)
      = StableHlo.after hostOps2 V (Proc.devRef .tc main_v45) (ix2 ⟨100000 + r.val, by have := r.isLt; omega⟩ j) := by
  rw [after_hostOps2]
  generalize StableHlo.after (hostOps2.take 54) V = G
  rw [last3_v47, last3_v45]
  exact slice2_axis0_apply 100000 _ _ r j ⟨100000 + r.val, by have := r.isLt; omega⟩ rfl

/-- The user half of the sum, reshaped, at an index. -/
theorem v48_of (V : Valuation τ sig (Elt F)) (r : Fin 100000) (j : Fin 64) :
    StableHlo.after hostOps2 V (Proc.devRef .tc main_v48) (ix3 r (0 : Fin 1) j)
      = StableHlo.after hostOps2 V (Proc.devRef .tc main_v45) (ix2 ⟨r.val, by have := r.isLt; omega⟩ j) := by
  rw [after_hostOps2]
  generalize StableHlo.after (hostOps2.take 54) V = G
  rw [last3_v48, last3_v45]
  refine (cast_nd_n1d_apply _ shapeCasts_S100000x64_S100000x1x64 r 0 j).trans ?_
  exact slice2_axis0_apply 0 _ _ r j ⟨r.val, by have := r.isLt; omega⟩ (Nat.zero_add _).symm

/-! ## The two reshapes before the item gather, and the last reshape and concatenation -/

/-- From any contents G, the two reshapes leave the item half as it was, -/
theorem hostOps3_v47 (G : Valuation τ sig (Elt F)) :
    StableHlo.after hostOps3 G (Proc.devRef .tc main_v47) = G (Proc.devRef .tc main_v47) := by
  unfold hostOps3
  after_results

/-- its reshape in main_v51, -/
theorem hostOps3_v51 (G : Valuation τ sig (Elt F)) :
    StableHlo.after hostOps3 G (Proc.devRef .tc main_v51)
      = shapeCast S50000x1x64 (G (Proc.devRef .tc main_v47)) shapeCasts_S50000x64_S50000x1x64 := by
  unfold hostOps3
  after_results
  rfl

/-- and the user gather's output, reshaped, in main_v50. -/
theorem hostOps3_v50 (G : Valuation τ sig (Elt F)) :
    StableHlo.after hostOps3 G (Proc.devRef .tc main_v50)
      = shapeCast S2048x64 (G (Proc.devRef .tc main_v49)) shapeCasts_S2048x1x64_S2048x64 := by
  unfold hostOps3
  after_results
  rfl

/-- From any contents G, the result is the concatenation of main_v50, the reshaped main_v52 and main_v47. -/
theorem hostOps4_v54 (G : Valuation τ sig (Elt F)) :
    StableHlo.after hostOps4 G (Proc.devRef .tc main_v54)
      = concatenate S54096x64 0 [⟨S2048x64, G (Proc.devRef .tc main_v50)⟩,
          ⟨S2048x64, shapeCast S2048x64 (G (Proc.devRef .tc main_v52)) shapeCasts_S2048x1x64_S2048x64⟩,
          ⟨S50000x64, G (Proc.devRef .tc main_v47)⟩] concatenates_S2048x64_S2048x64_S50000x64_S54096x64_d0 := by
  unfold hostOps4
  after_results
  dsimp only [Matrix.cons_val]
  rw [reshape_result]
  repeat (rw [reshape_result_ne]; rotate_left; decide)
  rfl

/-- Two functions of a rank-2 index that agree at every pair of coordinates are equal. -/
theorem ext_ix2 {α : Type} {n0 n1 : ℕ} {f g : (⟨2, ![n0, n1]⟩ : Shape).Idx → α}
    (h : ∀ (p : Fin n0) (q : Fin n1), f (ix2 p q) = g (ix2 p q)) : f = g :=
  funext fun i => by rw [eq_ix2 i]; exact h _ _

/-! ## The four readings over the run's valuations -/

/-- The item half of the sum: row r is row 100000 + r of the sum. -/
theorem v47_apply (c : Dev nD) (r : Fin 50000) (j : Fin 64) :
    W3 m c (Proc.devRef .tc main_v47) (ix2 r j)
      = W3 m c (Proc.devRef .tc main_v45) (ix2 ⟨100000 + r.val, by have := r.isLt; omega⟩ j) := by
  exact v47_of (W2 m c) r j

/-- The user half of the sum, reshaped: row (r, 0) is row r of the sum. -/
theorem v48_apply (c : Dev nD) (r : Fin 100000) (j : Fin 64) :
    W3 m c (Proc.devRef .tc main_v48) (ix3 r (0 : Fin 1) j)
      = W3 m c (Proc.devRef .tc main_v45) (ix2 ⟨r.val, by have := r.isLt; omega⟩ j) := by
  exact v48_of (W2 m c) r j

/-- The item half reshaped for the item gather: row (r, 0) is row r of the item half. -/
theorem v51_apply (c : Dev nD) (r : Fin 50000) (j : Fin 64) :
    W5 m a2 c (Proc.devRef .tc main_v51) (ix3 r (0 : Fin 1) j) = W3 m c (Proc.devRef .tc main_v47) (ix2 r j) := by
  refine Eq.trans ?_ (congrFun (W4_of_ne m a2 c main_v47 (by decide)) (ix2 r j))
  show StableHlo.after hostOps3 (W4 m a2 c) (Proc.devRef .tc main_v51) (ix3 r (0 : Fin 1) j)
      = W4 m a2 c (Proc.devRef .tc main_v47) (ix2 r j)
  rw [hostOps3_v51]
  exact cast_nd_n1d_apply _ shapeCasts_S50000x64_S50000x1x64 r 0 j

/-- The result: the concatenation of any three arrays that agree, entry by entry, with the user gather's output
    (reshaped), the item gather's output (reshaped) and the item half of the sum. -/
theorem v54_eq (c : Dev nD) (A B : S2048x64.Idx → Elt F .f32) (C : S50000x64.Idx → Elt F .f32)
    (hA : ∀ (i : Fin 2048) (j : Fin 64), A (ix2 i j) = W4 m a2 c (Proc.devRef .tc main_v49) (ix3 i (0 : Fin 1) j))
    (hB : ∀ (i : Fin 2048) (j : Fin 64), B (ix2 i j) = W6 m a2 a3 c (Proc.devRef .tc main_v52) (ix3 i (0 : Fin 1) j))
    (hC : ∀ (r : Fin 50000) (j : Fin 64), C (ix2 r j) = W3 m c (Proc.devRef .tc main_v47) (ix2 r j)) :
    W7 m a2 a3 c (Proc.devRef .tc main_v54)
      = concatenate S54096x64 0 [⟨S2048x64, A⟩, ⟨S2048x64, B⟩, ⟨S50000x64, C⟩] concatenates_S2048x64_S2048x64_S50000x64_S54096x64_d0 := by
  -- the first operand: main_v50 is untouched by the item gather, and is the user gather's output reshaped
  have e50 : W6 m a2 a3 c (Proc.devRef .tc main_v50) = A := ext_ix2 fun p q => by
    refine (congrFun (W6_of_ne m a2 a3 c main_v50 (by decide)) (ix2 p q)).trans ?_
    show StableHlo.after hostOps3 (W4 m a2 c) (Proc.devRef .tc main_v50) (ix2 p q) = A (ix2 p q)
    rw [hostOps3_v50]
    exact (cast_n1d_nd_apply _ shapeCasts_S2048x1x64_S2048x64 p q).trans (hA p q).symm
  -- the second: the item gather's output reshaped
  have e53 : shapeCast S2048x64 (W6 m a2 a3 c (Proc.devRef .tc main_v52)) shapeCasts_S2048x1x64_S2048x64 = B :=
    ext_ix2 fun p q => (cast_n1d_nd_apply _ shapeCasts_S2048x1x64_S2048x64 p q).trans (hB p q).symm
  -- the third: main_v47 is untouched since the 57 operations wrote it
  have e47 : W6 m a2 a3 c (Proc.devRef .tc main_v47) = C := ext_ix2 fun p q => by
    refine (congrFun (W6_of_ne m a2 a3 c main_v47 (by decide)) (ix2 p q)).trans ?_
    show StableHlo.after hostOps3 (W4 m a2 c) (Proc.devRef .tc main_v47) (ix2 p q) = C (ix2 p q)
    rw [hostOps3_v47]
    exact (congrFun (W4_of_ne m a2 c main_v47 (by decide)) (ix2 p q)).trans (hC p q).symm
  show StableHlo.after hostOps4 (W6 m a2 a3 c) (Proc.devRef .tc main_v54) = _
  rw [hostOps4_v54, e50, e53, e47]

end Cert.Val

end
-- ==== Proof.Val.Spec.lean ====
/-
  The row map both programs apply to each embedding table before the sparse products.
  For a row x ∈ (extended reals)^64 with tail y = (x₁, …, x₆₃) and s = Σₖ yₖ²:
    x₀' = sqrt(max(ε, 1 + s))                       (the recomputed time coordinate, ε = f32(1e-7))
    θ   = max(c, max(c, x₀' / 1))                   (c = 1 + 2⁻²³, the f32 next above 1)
    out₀ = 0,   outⱼ = (1 · log(θ + sqrt(θ·θ − 1))) · xⱼ / max(μ, sqrt s)   for j ≥ 1   (μ = f32(1e-15)).
  Every operation is the exact one on the extended reals; the literals are the values their f32 patterns denote.
-/
import Idealize.ShloMosaic.PureOps.Ideal
import Idealize.ShloMosaic.Lib.ValueIdx

noncomputable section

namespace Cert.Spec

open Idealize.ShloMosaic

/-- The literals, as the extended reals their f32 patterns denote. -/
abbrev c0 : EReal := Ideal.ofBits .f32 0x00000000#32
abbrev c1 : EReal := Ideal.ofBits .f32 0x3F800000#32
abbrev cEps : EReal := Ideal.ofBits .f32 0x33D6BF95#32
abbrev cMin : EReal := Ideal.ofBits .f32 0x26901D7D#32
abbrev cTh : EReal := Ideal.ofBits .f32 0x3F800001#32

/-- The squared norm of a row's last 63 entries. -/
def rowSq (x : Fin 64 → EReal) : EReal := ∑ k : Fin 63, x k.succ * x k.succ

/-- The clipped hyperbolic angle's argument from the squared norm. -/
def theta (s : EReal) : EReal := max cTh (max cTh (Ideal.div (Ideal.sqrt (max cEps (c1 + s))) c1))

/-- The scale applied to every tail entry of a row with squared norm `s`, before the division by the clipped norm. -/
def arc (s : EReal) : EReal := c1 * Ideal.log (theta s + Ideal.sqrt (theta s * theta s - c1))

/-- Entry `j` of the image of the row `x`. -/
def hypRow (x : Fin 64 → EReal) (j : Fin 64) : EReal :=
  if j.val = 0 then c0 else Ideal.div (arc (rowSq x) * x j) (max cMin (Ideal.sqrt (rowSq x)))

end Cert.Spec

end
-- ==== Proof.Val.KernelRow.lean ====
/-
  What the row-tile kernels leave in an output tile, entry by entry, at the ideal instance: entry (r, j) of the tile
  written from the input tile `x0` is entry j of the row map applied to row r of `x0` — column 0 is the zero piece,
  columns 1 … 63 the tangent-space piece, whose value at (r, j) uses only row r: the lane sum of the squared tail, the
  clips, the square roots and the logarithm are all taken within the row.
-/
import proofs.«423441_j19576460935173_1_alg».proof.Proof.KI.Hyp0
import proofs.«423441_j19576460935173_1_alg».proof.Proof.KI.Hyp1
import proofs.«423441_j19576460935173_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Cert.KernelIdeal Cert.KernelIdeal.Gen Cert.KernelIdeal.Hand Cert.Spec
open Idealize.ShloMosaic Idealize.ShloMosaic.ValueIdx

/-! ## Three layout operations read at an index given by coordinates -/

/-- A length-a vector cast to an [a, 1] column reads, at (p, u), the vector at p. -/
theorem cast_col_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at p. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an [a, b] array read at row p is the sum of that row's entries: the index the sum runs over puts
    its coordinate on axis 1 and keeps the row. -/
theorem lanesum_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ v acc h hφ hacc (ix1 p) = ∑ k : Fin b, v (ix2 p k) := by
  refine (Ideal.multiReduction_add_single v acc h hφ hacc (ix1 p)).trans ?_
  refine Fintype.sum_congr _ _ fun k => congrArg v ?_
  funext ax
  match ax with
  | ⟨0, _⟩ => exact Fin.ext rfl
  | ⟨1, _⟩ => exact Fin.ext rfl

/-- A square root and a logarithm at an index are the element's. -/
theorem vsqrt_apply {s : Shape} {φ : FTy} (a : FVec Ideal s φ) (i : s.Idx) : sqrt a i = Ideal.sqrt (a i) := rfl
theorem vlog_apply {s : Shape} {φ : FTy} (a : FVec Ideal s φ) (i : s.Idx) : log a i = Ideal.log (a i) := rfl

/-! ## The tangent-space piece at (r, j'): a function of row r alone -/

/-- The tile's last 63 columns read at (r, j') are the tile at (r, j' + 1). -/
theorem tail_apply (x : FVec Ideal S2000x64 .f32) (r : Fin 2000) (j' : Fin 63) :
    extractStridedSlice S2000x63 ![0, 1] x slices_S2000x64_o0_1_S2000x63 (ix2 r j') = x (ix2 r j'.succ) :=
  slice2_axis1_apply 1 x slices_S2000x64_o0_1_S2000x63 r j' j'.succ (by rw [Fin.val_succ]; omega)

/-- The squared norm of row r's tail as the kernels compute it — the lane sum of the squared last 63 columns, kept as
    a column — is the row map's `rowSq` of row r: lane k of the slice is column k + 1 of the tile. -/
theorem sq_apply (x : FVec Ideal S2000x64 .f32) (r : Fin 2000) (u : Fin 1) :
    shapeCast S2000x1 (multiReduction (F := Ideal) .add [1] S2000
      (mulf (extractStridedSlice S2000x63 ![0, 1] x slices_S2000x64_o0_1_S2000x63)
        (extractStridedSlice S2000x63 ![0, 1] x slices_S2000x64_o0_1_S2000x63))
      0x00000000#32 reduces_S2000x63_S2000 (.inl rfl) rfl) shapeCasts_S2000_S2000x1 (ix2 r u)
      = rowSq (fun k => x (ix2 r k)) := by
  refine (cast_col_apply _ shapeCasts_S2000_S2000x1 r u).trans ?_
  refine (lanesum_apply _ _ reduces_S2000x63_S2000 (.inl rfl) rfl r).trans ?_
  unfold rowSq
  refine Fintype.sum_congr _ _ fun k => ?_
  show extractStridedSlice S2000x63 ![0, 1] x slices_S2000x64_o0_1_S2000x63 (ix2 r k)
      * extractStridedSlice S2000x63 ![0, 1] x slices_S2000x64_o0_1_S2000x63 (ix2 r k) = x (ix2 r k.succ) * x (ix2 r k.succ)
  rw [tail_apply]

/-- Region 0's tangent-space payload at (r, j'): with s the squared norm of row r's tail, the scale `arc s` times the
    entry at column j' + 1, over the clipped norm. The pointwise operations read through at the index; the two column
    broadcasts read the column at row r; what is left is the row map's own expression in s. -/
theorem pay1_apply0 (x : FVec Ideal S2000x64 .f32) (r : Fin 2000) (j' : Fin 63) :
    k0_pay1 (F := Ideal) x (ix2 r j')
      = Ideal.div (arc (rowSq (fun k => x (ix2 r k))) * x (ix2 r j'.succ)) (max cMin (Ideal.sqrt (rowSq (fun k => x (ix2 r k))))) := by
  unfold k0_pay1
  simp only [divf_apply, mulf_apply, addf_apply, subf_apply, maximumf_apply, vsqrt_apply, vlog_apply, broadcast_apply,
    bcast_col_apply, tail_apply, Scalar.ofBits, Ideal.ofBits_def]
  rw [sq_apply x r 0]
  unfold arc theta
  rfl

/-! ## The two pieces of the output tile -/

/-- The tile's zero offsets, however spelt. -/
theorem hz00 : (![0, 0] : Fin 2 → Nat) = fun _ => 0 := funext fun a => by
  match a with
  | ⟨0, _⟩ => rfl
  | ⟨1, _⟩ => rfl

/-- Entry (r, j' + 1) of the tile is entry (r, j') of its last 63 columns. -/
theorem cols0_emb (r : Fin 2000) (j' : Fin 63) : cols0.emb (ix2 r j') = ix2 r j'.succ := by
  funext ax
  match ax with
  | ⟨0, _⟩ => exact Fin.ext (by show 0 + 1 * r.val = r.val; omega)
  | ⟨1, _⟩ => exact Fin.ext (by show 1 + 1 * j'.val = j'.succ.val; rw [Fin.val_succ]; omega)

/-- Entry (r, 0) of the tile is entry (r, 0) of its first column, -/
theorem col0_emb (r : Fin 2000) : col0_0.emb (ix2 r (0 : Fin 1)) = ix2 r (0 : Fin 64) := by
  funext ax
  match ax with
  | ⟨0, _⟩ => exact Fin.ext (by show 0 + 1 * r.val = r.val; omega)
  | ⟨1, _⟩ => exact Fin.ext (by show 0 + 1 * 0 = 0; rfl)

/-- and lies outside the last 63 columns. -/
theorem not_mem_cols0 (r : Fin 2000) : ix2 r (0 : Fin 64) ∉ cols0.set := fun h =>
  Nat.not_succ_le_zero 0 ((Rect.mem_set_unit.mp h) 1).1

/-- The two pieces laid over each other, read in column 0: the first-column piece, -/
theorem canon_col0 (P : Vec Ideal S2000x63 .f32) (Z : Vec Ideal S2000x1 .f32) (r : Fin 2000) :
    View.canon (Val := Elt Ideal) [⟨cols0, P⟩, ⟨col0_0, Z⟩] (ix2 r (0 : Fin 64)) = Z (ix2 r (0 : Fin 1)) := by
  refine (View.canon_cons_of_not_mem (Val := Elt Ideal) ⟨cols0, P⟩ [⟨col0_0, Z⟩] (not_mem_cols0 r)).trans ?_
  refine (congrArg (View.canon (Val := Elt Ideal) [⟨col0_0, Z⟩]) (col0_emb r).symm).trans ?_
  exact View.canon_cons_emb (Val := Elt Ideal) col0_0 Z [] (ix2 r (0 : Fin 1))

/-- and in column j' + 1: the piece of the last 63 columns. -/
theorem canon_cols0 (P : Vec Ideal S2000x63 .f32) (Z : Vec Ideal S2000x1 .f32) (r : Fin 2000) (j' : Fin 63) :
    View.canon (Val := Elt Ideal) [⟨cols0, P⟩, ⟨col0_0, Z⟩] (ix2 r j'.succ) = P (ix2 r j') := by
  refine (congrArg (View.canon (Val := Elt Ideal) [⟨cols0, P⟩, ⟨col0_0, Z⟩]) (cols0_emb r j').symm).trans ?_
  exact View.canon_cons_emb (Val := Elt Ideal) cols0 P [⟨col0_0, Z⟩] (ix2 r j')

/-- Region 0's output tile at (r, j) is the row map of row r of the input tile, at j. -/
theorem out0_1_apply (x0 : Vec Ideal S2000x64 .f32) (r : Fin 2000) (j : Fin 64) :
    out0_1 (F := Ideal) x0 (ix2 r j) = hypRow (fun k => x0 (ix2 r k)) j := by
  have hld : View.ld x0 tile0 = x0 := View.ld_unit_zero hz00 inb_S2000x64_S2000x64_0_0 x0
  unfold out0_1
  rw [hld]
  rcases Fin.eq_zero_or_eq_succ j with rfl | ⟨j', rfl⟩
  · -- column 0: the zero piece
    refine (canon_col0 (k0_pay1 (F := Ideal) x0) (k0_pay2 (F := Ideal)) r).trans ?_
    rfl
  · -- column j' + 1: the tangent-space piece
    refine (canon_cols0 (k0_pay1 (F := Ideal) x0) (k0_pay2 (F := Ideal)) r j').trans ?_
    refine (pay1_apply0 x0 r j').trans ?_
    unfold hypRow
    rw [if_neg (by rw [Fin.val_succ]; omega)]

/-- Region 1 runs the same body: its output tile is region 0's. -/
theorem out1_1_eq_out0_1 (x0 : Vec Ideal S2000x64 .f32) : out1_1 (F := Ideal) x0 = out0_1 (F := Ideal) x0 := rfl

/-- Region 1's output tile, the same. -/
theorem out1_1_apply (x0 : Vec Ideal S2000x64 .f32) (r : Fin 2000) (j : Fin 64) :
    out1_1 (F := Ideal) x0 (ix2 r j) = hypRow (fun k => x0 (ix2 r k)) j := by
  rw [out1_1_eq_out0_1]
  exact out0_1_apply x0 r j

end Cert.Val

end
-- ==== Proof.Val.Blocks.lean ====
/-
  From tiles to arrays. Each region's output array, after all its grid points, is covered by the tiles the points
  write back, one tile per point and no two overlapping, so the array is read entry by entry off the tile that holds
  the entry. For the two row-tile regions entry (r, j) lies in tile r / 2000 at row r % 2000, whose input tile is
  rows 2000·(r / 2000) … of the argument table, so the entry is the row map of row r of the table. For the two gather
  regions entry (i, 0, j) is point i's one-row tile, which is the row of the gathered array that the table's word i
  names.
-/
import proofs.«423441_j19576460935173_1_alg».proof.Proof.KI.Hyp0
import proofs.«423441_j19576460935173_1_alg».proof.Proof.KI.Hyp1
import proofs.«423441_j19576460935173_1_alg».proof.Proof.KI.Gat2
import proofs.«423441_j19576460935173_1_alg».proof.Proof.KI.Gat3
import proofs.«423441_j19576460935173_1_alg».proof.Proof.Val.KernelRow
import Idealize.ShloMosaic.Lib.ValueIdx
import Idealize.ShloMosaic.Lib.Pipeline.Value

set_option maxRecDepth 16384

noncomputable section

namespace Cert.Val

open Cert.KernelIdeal Cert.KernelIdeal.Gen Cert.KernelIdeal.Hand Cert.Spec
open Idealize.ShloMosaic Idealize.ShloMosaic.TcCoe Idealize.ShloMosaic.ValueIdx Idealize.SL.Sem

section RowTiles

variable (V : (c : Dev nD) → (b : Ref sig .tc) → Buf (Elt Ideal) ((c : Thread nD τ).loc b))

/-- The index maps of region 0, decided over its 50 points: both windows are at tile (t, 0). -/
private theorem tile_index0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The array region 0 leaves: every row of the table through the row map. -/
private abbrev rowsMapped0 (c : Dev nD) : S100000x64.Idx → EReal :=
  fun i => hypRow (fun k => V c main_arg0 (ValueIdx.ix2 ⟨(i 0).val, idx2_lt0 i⟩ k)) ⟨(i 1).val, idx2_lt1 i⟩

/-- The input tile of point t at (p, k) is the table at row 2000·t + p, column k. -/
private theorem tile_read0 (c : Dev nD) (t : Fin cfg0.N) (p : Fin 2000) (k : Fin 64) (hr : 2000 * t.val + p.val < 100000) :
    (iblk0 V c 0 t : Vec Ideal S2000x64 .f32) (ValueIdx.ix2 p k) = V c main_arg0 (ValueIdx.ix2 ⟨2000 * t.val + p.val, hr⟩ k) := by
  obtain ⟨e0, e1, -, -⟩ := tile_index0 t
  unfold iblk0
  rw [View.read_apply]
  show V c main_arg0 _ = V c main_arg0 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 64 + 1 * k.val = k.val; rw [e1]; omega

/-- What point t writes back is tile t of the mapped rows. -/
private theorem flushed0_eq (c : Dev nD) (t : Fin cfg0.N) :
    (dat0 (F := Ideal) V c).flushed 1 t = ((cfg0.win 1).blk t).view.read (Elt Ideal) (rowsMapped0 V c) := by
  have hN : cfg0.N = 50 := N_0
  have ht : t.val < 50 := hN ▸ t.isLt
  obtain ⟨-, -, e2, e3⟩ := tile_index0 t
  show (cfg0.win 1).cut (grid0.coords t) ((dat0 V c).after 1 t) = _
  rw [after0_1]
  funext y
  obtain ⟨p, q, rfl⟩ : ∃ (p : Fin 2000) (q : Fin 64), y = ValueIdx.ix2 p q := ⟨y 0, y 1, eq_ix2 y⟩
  have hr : 2000 * t.val + p.val < 100000 := by have := p.isLt; omega
  have hemb : ((cfg0.win 1).blk t).view.emb (ValueIdx.ix2 p q) = (ValueIdx.ix2 ⟨2000 * t.val + p.val, hr⟩ q : S100000x64.Idx) := by
    funext a
    apply Fin.ext
    match a with
    | ⟨0, _⟩ => show win0_1.index t (0 : Fin 2) * 2000 + 1 * p.val = 2000 * t.val + p.val; rw [e2]; omega
    | ⟨1, _⟩ => show win0_1.index t (1 : Fin 2) * 64 + 1 * q.val = q.val; rw [e3]; omega
  show out0_1 (iblk0 V c 0 t) (ValueIdx.ix2 p q) = _
  refine (out0_1_apply (iblk0 V c 0 t) p q).trans ?_
  refine (congrArg (fun x => hypRow x q) (funext fun k => tile_read0 V c t p k hr)).trans ?_
  rw [View.read_apply]
  show _ = rowsMapped0 V c (((cfg0.win 1).blk t).view.emb (ValueIdx.ix2 p q))
  rw [hemb]

/-- An entry of the array is in point t's tile iff each coordinate is in the tile's range on its axis. -/
private theorem mem_tile0 (t : Fin cfg0.N) (i : S100000x64.Idx) :
    i ∈ ((cfg0.win 1).blk t).view.set ↔ ∀ a : Fin 2, win0_1.index t a * S2000x64.size a ≤ (i a).val ∧ (i a).val < win0_1.index t a * S2000x64.size a + S2000x64.size a := by
  show i ∈ ((View.whole main_v0).slice (win0_1.rect t)).set ↔ _
  rw [View.set_slice_whole, Rect.mem_set_unit]
  exact Iff.rfl

/-- Every entry lies in the tile of the point its row divided by 2000 names, and every point writes back. -/
private theorem cover0 (i : S100000x64.Idx) : ∃ t : Fin cfg0.N, (cfg0.win 1).flush t = true ∧ i ∈ ((cfg0.win 1).blk t).view.set := by
  have h0 : (i 0).val < 100000 := idx2_lt0 i
  have h1 : (i 1).val < 64 := idx2_lt1 i
  have hN : cfg0.N = 50 := N_0
  obtain ⟨t, ht⟩ : ∃ t : Fin cfg0.N, t.val = (i 0).val / 2000 := ⟨⟨(i 0).val / 2000, by rw [hN]; omega⟩, rfl⟩
  obtain ⟨-, -, e2, e3⟩ := tile_index0 t
  refine ⟨t, flush0_1 t, ?_⟩
  rw [mem_tile0]
  intro a
  match a with
  | ⟨0, _⟩ => show win0_1.index t (0 : Fin 2) * 2000 ≤ (i 0).val ∧ (i 0).val < win0_1.index t (0 : Fin 2) * 2000 + 2000; rw [e2, ht]; omega
  | ⟨1, _⟩ => show win0_1.index t (1 : Fin 2) * 64 ≤ (i 1).val ∧ (i 1).val < win0_1.index t (1 : Fin 2) * 64 + 64; rw [e3]; omega

/-- Region 0's output array after its 50 points: entry (r, j) is the row map of row r of the user table as the region finds it. -/
theorem arr0_apply (c : Dev nD) (r : Fin 100000) (j : Fin 64) :
    (dat0 (F := Ideal) V c).arrAt 1 cfg0.N (ix2 r j) = hypRow (fun k => V c main_arg0 (ix2 r k)) j := by
  rw [(dat0 (F := Ideal) V c).arrAt_eq_of_cover 1 (rowsMapped0 V c) (fun t _ => flushed0_eq V c t) (cover0)]

/-- The index maps of region 1, decided over its 25 points: both windows are at tile (t, 0). -/
private theorem tile_index1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The array region 1 leaves: every row of the table through the row map. -/
private abbrev rowsMapped1 (c : Dev nD) : S50000x64.Idx → EReal :=
  fun i => hypRow (fun k => V c main_arg1 (ValueIdx.ix2 ⟨(i 0).val, idx2_lt0 i⟩ k)) ⟨(i 1).val, idx2_lt1 i⟩

/-- The input tile of point t at (p, k) is the table at row 2000·t + p, column k. -/
private theorem tile_read1 (c : Dev nD) (t : Fin cfg1.N) (p : Fin 2000) (k : Fin 64) (hr : 2000 * t.val + p.val < 50000) :
    (iblk1 V c 0 t : Vec Ideal S2000x64 .f32) (ValueIdx.ix2 p k) = V c main_arg1 (ValueIdx.ix2 ⟨2000 * t.val + p.val, hr⟩ k) := by
  obtain ⟨e0, e1, -, -⟩ := tile_index1 t
  unfold iblk1
  rw [View.read_apply]
  show V c main_arg1 _ = V c main_arg1 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 64 + 1 * k.val = k.val; rw [e1]; omega

/-- What point t writes back is tile t of the mapped rows. -/
private theorem flushed1_eq (c : Dev nD) (t : Fin cfg1.N) :
    (dat1 (F := Ideal) V c).flushed 1 t = ((cfg1.win 1).blk t).view.read (Elt Ideal) (rowsMapped1 V c) := by
  have hN : cfg1.N = 25 := N_1
  have ht : t.val < 25 := hN ▸ t.isLt
  obtain ⟨-, -, e2, e3⟩ := tile_index1 t
  show (cfg1.win 1).cut (grid1.coords t) ((dat1 V c).after 1 t) = _
  rw [after1_1]
  funext y
  obtain ⟨p, q, rfl⟩ : ∃ (p : Fin 2000) (q : Fin 64), y = ValueIdx.ix2 p q := ⟨y 0, y 1, eq_ix2 y⟩
  have hr : 2000 * t.val + p.val < 50000 := by have := p.isLt; omega
  have hemb : ((cfg1.win 1).blk t).view.emb (ValueIdx.ix2 p q) = (ValueIdx.ix2 ⟨2000 * t.val + p.val, hr⟩ q : S50000x64.Idx) := by
    funext a
    apply Fin.ext
    match a with
    | ⟨0, _⟩ => show win1_1.index t (0 : Fin 2) * 2000 + 1 * p.val = 2000 * t.val + p.val; rw [e2]; omega
    | ⟨1, _⟩ => show win1_1.index t (1 : Fin 2) * 64 + 1 * q.val = q.val; rw [e3]; omega
  show out1_1 (iblk1 V c 0 t) (ValueIdx.ix2 p q) = _
  refine (out1_1_apply (iblk1 V c 0 t) p q).trans ?_
  refine (congrArg (fun x => hypRow x q) (funext fun k => tile_read1 V c t p k hr)).trans ?_
  rw [View.read_apply]
  show _ = rowsMapped1 V c (((cfg1.win 1).blk t).view.emb (ValueIdx.ix2 p q))
  rw [hemb]

/-- An entry of the array is in point t's tile iff each coordinate is in the tile's range on its axis. -/
private theorem mem_tile1 (t : Fin cfg1.N) (i : S50000x64.Idx) :
    i ∈ ((cfg1.win 1).blk t).view.set ↔ ∀ a : Fin 2, win1_1.index t a * S2000x64.size a ≤ (i a).val ∧ (i a).val < win1_1.index t a * S2000x64.size a + S2000x64.size a := by
  show i ∈ ((View.whole main_v1).slice (win1_1.rect t)).set ↔ _
  rw [View.set_slice_whole, Rect.mem_set_unit]
  exact Iff.rfl

/-- Every entry lies in the tile of the point its row divided by 2000 names, and every point writes back. -/
private theorem cover1 (i : S50000x64.Idx) : ∃ t : Fin cfg1.N, (cfg1.win 1).flush t = true ∧ i ∈ ((cfg1.win 1).blk t).view.set := by
  have h0 : (i 0).val < 50000 := idx2_lt0 i
  have h1 : (i 1).val < 64 := idx2_lt1 i
  have hN : cfg1.N = 25 := N_1
  obtain ⟨t, ht⟩ : ∃ t : Fin cfg1.N, t.val = (i 0).val / 2000 := ⟨⟨(i 0).val / 2000, by rw [hN]; omega⟩, rfl⟩
  obtain ⟨-, -, e2, e3⟩ := tile_index1 t
  refine ⟨t, flush1_1 t, ?_⟩
  rw [mem_tile1]
  intro a
  match a with
  | ⟨0, _⟩ => show win1_1.index t (0 : Fin 2) * 2000 ≤ (i 0).val ∧ (i 0).val < win1_1.index t (0 : Fin 2) * 2000 + 2000; rw [e2, ht]; omega
  | ⟨1, _⟩ => show win1_1.index t (1 : Fin 2) * 64 ≤ (i 1).val ∧ (i 1).val < win1_1.index t (1 : Fin 2) * 64 + 64; rw [e3]; omega

/-- Region 1's output array after its 25 points: the same of the item table. -/
theorem arr1_apply (c : Dev nD) (r : Fin 50000) (j : Fin 64) :
    (dat1 (F := Ideal) V c).arrAt 1 cfg1.N (ix2 r j) = hypRow (fun k => V c main_arg1 (ix2 r k)) j := by
  rw [(dat1 (F := Ideal) V c).arrAt_eq_of_cover 1 (rowsMapped1 V c) (fun t _ => flushed1_eq V c t) (cover1)]

end RowTiles

section Gathers

variable {F : FTy → Type} [FloatOps F]
variable (V : (c : Dev nD) → (b : Ref sig .tc) → Buf (Elt F) ((c : Thread nD τ).loc b))

private theorem zero_offsets3 : (![0, 0, 0] : Fin 3 → Nat) = fun _ => 0 := funext fun a => by fin_cases a <;> rfl

/-- The one element of a one-word rectangle of a [2048] table at offset n is the table's entry n. -/
private theorem unit_emb1 (off : Fin 1 → Nat) (inb : ∀ a, off a + S1.size a ≤ S2048.size a) (n : Nat) (hoff : off 0 = n) (hn : n < 2048)
    (z : (Rect.unit (s := S2048) off S1.size inb).shape.Idx) :
    (Rect.unit (s := S2048) off S1.size inb).emb z = ValueIdx.ix1 ⟨n, hn⟩ := by
  funext d
  apply Fin.ext
  match d with
  | ⟨0, _⟩ =>
    show off 0 + 1 * (z 0).val = n
    have hz : (z 0).val < 1 := (z 0).isLt
    omega

/-- A grid point of gather 2 is its one coordinate. -/
private theorem point_coord2 (t : Fin grid2.N) : (grid2.coords t 0).val = t.val := by
  have ht : t.val < 2048 := lt_of_lt_of_eq t.isLt N_2
  show t.val / grid2.stride 0 % grid2.bound 0 = t.val
  rw [show grid2.stride 0 = 1 from by decide, show grid2.bound 0 = 2048 from rfl, Nat.div_one, Nat.mod_eq_of_lt ht]

/-- The word the input window's index map reads at grid coordinates i is the table's word at i. -/
private theorem table_word2 (pf : pre2.Contents (Elt F)) (i : grid2.Coords) :
    cc2_transform_0 k2_off1_inb numel1_S1 pf i 0 = BitVec.toNat (pf 0 (ValueIdx.ix1 ⟨(i 0).val, (i 0).isLt⟩)) := by
  have hv : (Scalar.indexCast (BitVec.ofNat 32 (i 0).val)).toNat = (i 0).val := congrFun (k2_off1_eq i) 0
  exact congrArg (fun x : S2048.Idx => BitVec.toNat (pf 0 x)) (unit_emb1 _ _ (i 0).val hv (i 0).isLt _)

/-- Admissibility keeps every word of the table below the gathered array's row count. -/
private theorem word_lt2 (a : (pcfg2 (F := F)).Adm) (i : Fin 2048) : BitVec.toNat (a.1 0 (ValueIdx.ix1 i)) < 100000 := by
  have h := hinb2 a.1 a.2 0 (ValueIdx.ix1 i) 0
  have hw : cc2_transform_0 k2_off1_inb numel1_S1 a.1 (ValueIdx.ix1 i) 0 = BitVec.toNat (a.1 0 (ValueIdx.ix1 i)) := table_word2 a.1 (ValueIdx.ix1 i)
  have h' : (cc2_transform_0 k2_off1_inb numel1_S1 a.1 (ValueIdx.ix1 i) 0 + 1) * 1 ≤ 100000 := h
  omega

/-- The index maps at point t: the input window is at the row the table's word t names, the output window at row t. -/
private theorem gather_index2 (a : (pcfg2 (F := F)).Adm) (t : Fin (cfg2 a).N) (i : Fin 2048) (hi : i.val = t.val) :
    ((cfg2 a).win 0).index t (0 : Fin 3) = BitVec.toNat (a.1 0 (ValueIdx.ix1 i)) ∧ ((cfg2 a).win 0).index t (1 : Fin 3) = 0 ∧ ((cfg2 a).win 0).index t (2 : Fin 3) = 0
    ∧ ((cfg2 a).win 1).index t (0 : Fin 3) = t.val ∧ ((cfg2 a).win 1).index t (1 : Fin 3) = 0 ∧ ((cfg2 a).win 1).index t (2 : Fin 3) = 0 := by
  have ht : t.val < 2048 := lt_of_lt_of_eq t.isLt N_2
  refine ⟨?_, rfl, rfl, ?_, rfl, rfl⟩
  · exact (table_word2 a.1 (grid2.coords t)).trans
      (congrArg (fun j : Fin 2048 => BitVec.toNat (a.1 0 (ValueIdx.ix1 j))) (Fin.ext ((point_coord2 t).trans hi.symm)))
  · show (BitVec.ofNat 32 (grid2.coords t 0).val).toNat = t.val
    rw [point_coord2 t, BitVec.toNat_ofNat, Nat.mod_eq_of_lt (by omega)]

/-- Every point writes its output tile back: consecutive points name different rows. -/
private theorem flush2_1 (a : (pcfg2 (F := F)).Adm) (t : Fin (cfg2 a).N) : ((cfg2 a).win 1).flush t = true := by
  have hN : (cfg2 a).N = 2048 := N_2
  have ht : t.val < 2048 := lt_of_lt_of_eq t.isLt hN
  rw [Pipeline.Window.flush_out _ rfl]
  by_cases h : t.val + 1 = 2048
  · exact Or.inl (h.trans N_2.symm)
  · have hlt : t.val + 1 < (cfg2 a).N := lt_of_lt_of_eq (by omega : t.val + 1 < 2048) hN.symm
    refine Or.inr ⟨hlt, fun e => ?_⟩
    have e0 := congrFun e (0 : Fin 3)
    rw [(gather_index2 a ⟨t.val + 1, hlt⟩ ⟨t.val + 1, by omega⟩ rfl).2.2.2.1, (gather_index2 a t ⟨t.val, ht⟩ rfl).2.2.2.1] at e0
    exact absurd e0 (by show t.val + 1 ≠ t.val; omega)

/-- The output tile after the body is the input tile. -/
private theorem out2_1_eq (x0 : Vec F S1x1x64 .f32) : out2_1 x0 = x0 := by
  unfold out2_1
  rw [View.canon_unit_zero zero_offsets3]
  unfold k2_pay1
  rw [shapeCast_self, View.ld_unit_zero (S := S1x1x64) zero_offsets3]

/-- The array gather 2 leaves: row i is the row of the gathered array that the table's word i names. -/
private abbrev gathered2 (a : (pcfg2 (F := F)).Adm) (c : Dev nD) : S2048x1x64.Idx → Elt F .f32 :=
  fun y => V c main_v48 (ValueIdx.ix3 ⟨BitVec.toNat (a.1 0 (ValueIdx.ix1 ⟨(y 0).val, (y 0).isLt⟩)), word_lt2 a _⟩ ⟨(y 1).val, (y 1).isLt⟩ ⟨(y 2).val, (y 2).isLt⟩)

/-- The output tile of point t sits at row t of the output array. -/
private theorem tile_emb2 (a : (pcfg2 (F := F)).Adm) (t : Fin (cfg2 a).N) (i : Fin 2048) (hi : i.val = t.val) (p q : Fin 1) (s : Fin 64) :
    (((cfg2 a).win 1).blk t).view.emb (ValueIdx.ix3 p q s) = (ValueIdx.ix3 i (0 : Fin 1) s : S2048x1x64.Idx) := by
  obtain ⟨-, -, -, e3, e4, e5⟩ := gather_index2 a t i hi
  have hp : p.val = 0 := by omega
  have hq : q.val = 0 := by omega
  funext d
  apply Fin.ext
  match d with
  | ⟨0, _⟩ => show ((cfg2 a).win 1).index t (0 : Fin 3) * 1 + 1 * p.val = i.val; rw [e3]; omega
  | ⟨1, _⟩ => show ((cfg2 a).win 1).index t (1 : Fin 3) * 1 + 1 * q.val = 0; rw [e4]; omega
  | ⟨2, _⟩ => show ((cfg2 a).win 1).index t (2 : Fin 3) * 64 + 1 * s.val = s.val; rw [e5]; omega

/-- What point t writes back is tile t of the gathered rows. -/
private theorem flushed2_eq (a : (pcfg2 (F := F)).Adm) (c : Dev nD) (t : Fin (cfg2 a).N) :
    (dat2 V a c).flushed 1 t = (((cfg2 a).win 1).blk t).view.read (Elt F) (gathered2 V a c) := by
  have ht : t.val < 2048 := lt_of_lt_of_eq t.isLt N_2
  obtain ⟨e0, e1, e2, e3, e4, e5⟩ := gather_index2 a t ⟨t.val, ht⟩ rfl
  show ((cfg2 a).win 1).cut ((cfg2 a).grid.coords t) ((dat2 V a c).after 1 t) = _
  rw [after2_1]
  funext y
  obtain ⟨p, q, s, rfl⟩ : ∃ (p : Fin 1) (q : Fin 1) (s : Fin 64), y = ValueIdx.ix3 p q s := ⟨_, _, _, eq_ix3 (n0 := 1) (n1 := 1) (n2 := 64) y⟩
  have hp : p.val = 0 := by omega
  have hq : q.val = 0 := by omega
  have hemb0 : (((cfg2 a).win 0).blk t).view.emb (ValueIdx.ix3 p q s)
      = (ValueIdx.ix3 ⟨BitVec.toNat (a.1 0 (ValueIdx.ix1 ⟨t.val, ht⟩)), word_lt2 a _⟩ (0 : Fin 1) s : S100000x1x64.Idx) := by
    funext d
    apply Fin.ext
    match d with
    | ⟨0, _⟩ => show ((cfg2 a).win 0).index t (0 : Fin 3) * 1 + 1 * p.val = BitVec.toNat (a.1 0 (ValueIdx.ix1 ⟨t.val, ht⟩)); rw [e0]; omega
    | ⟨1, _⟩ => show ((cfg2 a).win 0).index t (1 : Fin 3) * 1 + 1 * q.val = 0; rw [e1]; omega
    | ⟨2, _⟩ => show ((cfg2 a).win 0).index t (2 : Fin 3) * 64 + 1 * s.val = s.val; rw [e2]; omega
  have hemb1 := tile_emb2 a t ⟨t.val, ht⟩ rfl p q s
  show out2_1 (iblk2 V a c 0 t) (ValueIdx.ix3 p q s) = _
  refine (congrFun (out2_1_eq (iblk2 V a c 0 t)) (ValueIdx.ix3 p q s)).trans ?_
  unfold iblk2
  show V c main_v48 ((((cfg2 a).win 0).blk t).view.emb (ValueIdx.ix3 p q s)) = gathered2 V a c ((((cfg2 a).win 1).blk t).view.emb (ValueIdx.ix3 p q s))
  rw [hemb0, hemb1]

/-- Row i of the output array is point i's tile, and every point writes back. -/
private theorem cover2 (a : (pcfg2 (F := F)).Adm) (i : S2048x1x64.Idx) :
    ∃ t : Fin (cfg2 a).N, ((cfg2 a).win 1).flush t = true ∧ i ∈ (((cfg2 a).win 1).blk t).view.set := by
  have h0 : (i 0).val < 2048 := (i 0).isLt
  have h1 : (i 1).val < 1 := (i 1).isLt
  have h2 : (i 2).val < 64 := (i 2).isLt
  have hN : (cfg2 a).N = 2048 := N_2
  obtain ⟨t, ht⟩ : ∃ t : Fin (cfg2 a).N, t.val = (i 0).val := ⟨⟨(i 0).val, lt_of_lt_of_eq h0 hN.symm⟩, rfl⟩
  refine ⟨t, flush2_1 a t, ?_⟩
  have hi : i = ValueIdx.ix3 ⟨(i 0).val, h0⟩ (0 : Fin 1) ⟨(i 2).val, h2⟩ := by
    funext d
    apply Fin.ext
    match d with
    | ⟨0, _⟩ => rfl
    | ⟨1, _⟩ => show (i 1).val = 0; omega
    | ⟨2, _⟩ => rfl
  have hmem := (((cfg2 a).win 1).blk t).view.emb_mem_set (ValueIdx.ix3 (0 : Fin 1) (0 : Fin 1) ⟨(i 2).val, h2⟩)
  rw [tile_emb2 a t ⟨(i 0).val, h0⟩ ht.symm] at hmem
  rw [hi]
  exact hmem

/-- The user gather's output array after its 2048 points: row i is the row of the [100000, 1, 64] array that the
    table's word i names (the word's unsigned value, which admissibility keeps below 100000). -/
theorem arr2_apply (a : (pcfg2 (F := F)).Adm) (c : Dev nD) (i : Fin 2048) (j : Fin 64)
    (hlt : BitVec.toNat (a.1 0 (ix1 i)) < 100000) :
    (dat2 V a c).arrAt 1 (cfg2 a).N (ix3 i (0 : Fin 1) j) = V c main_v48 (ix3 ⟨BitVec.toNat (a.1 0 (ix1 i)), hlt⟩ (0 : Fin 1) j) := by
  rw [(dat2 V a c).arrAt_eq_of_cover 1 (gathered2 V a c) (fun t _ => flushed2_eq V a c t) (cover2 a)]

/-- A grid point of gather 3 is its one coordinate. -/
private theorem point_coord3 (t : Fin grid3.N) : (grid3.coords t 0).val = t.val := by
  have ht : t.val < 2048 := lt_of_lt_of_eq t.isLt N_3
  show t.val / grid3.stride 0 % grid3.bound 0 = t.val
  rw [show grid3.stride 0 = 1 from by decide, show grid3.bound 0 = 2048 from rfl, Nat.div_one, Nat.mod_eq_of_lt ht]

/-- The word the input window's index map reads at grid coordinates i is the table's word at i. -/
private theorem table_word3 (pf : pre3.Contents (Elt F)) (i : grid3.Coords) :
    cc3_transform_0 k3_off1_inb numel1_S1 pf i 0 = BitVec.toNat (pf 0 (ValueIdx.ix1 ⟨(i 0).val, (i 0).isLt⟩)) := by
  have hv : (Scalar.indexCast (BitVec.ofNat 32 (i 0).val)).toNat = (i 0).val := congrFun (k3_off1_eq i) 0
  exact congrArg (fun x : S2048.Idx => BitVec.toNat (pf 0 x)) (unit_emb1 _ _ (i 0).val hv (i 0).isLt _)

/-- Admissibility keeps every word of the table below the gathered array's row count. -/
private theorem word_lt3 (a : (pcfg3 (F := F)).Adm) (i : Fin 2048) : BitVec.toNat (a.1 0 (ValueIdx.ix1 i)) < 50000 := by
  have h := hinb3 a.1 a.2 0 (ValueIdx.ix1 i) 0
  have hw : cc3_transform_0 k3_off1_inb numel1_S1 a.1 (ValueIdx.ix1 i) 0 = BitVec.toNat (a.1 0 (ValueIdx.ix1 i)) := table_word3 a.1 (ValueIdx.ix1 i)
  have h' : (cc3_transform_0 k3_off1_inb numel1_S1 a.1 (ValueIdx.ix1 i) 0 + 1) * 1 ≤ 50000 := h
  omega

/-- The index maps at point t: the input window is at the row the table's word t names, the output window at row t. -/
private theorem gather_index3 (a : (pcfg3 (F := F)).Adm) (t : Fin (cfg3 a).N) (i : Fin 2048) (hi : i.val = t.val) :
    ((cfg3 a).win 0).index t (0 : Fin 3) = BitVec.toNat (a.1 0 (ValueIdx.ix1 i)) ∧ ((cfg3 a).win 0).index t (1 : Fin 3) = 0 ∧ ((cfg3 a).win 0).index t (2 : Fin 3) = 0
    ∧ ((cfg3 a).win 1).index t (0 : Fin 3) = t.val ∧ ((cfg3 a).win 1).index t (1 : Fin 3) = 0 ∧ ((cfg3 a).win 1).index t (2 : Fin 3) = 0 := by
  have ht : t.val < 2048 := lt_of_lt_of_eq t.isLt N_3
  refine ⟨?_, rfl, rfl, ?_, rfl, rfl⟩
  · exact (table_word3 a.1 (grid3.coords t)).trans
      (congrArg (fun j : Fin 2048 => BitVec.toNat (a.1 0 (ValueIdx.ix1 j))) (Fin.ext ((point_coord3 t).trans hi.symm)))
  · show (BitVec.ofNat 32 (grid3.coords t 0).val).toNat = t.val
    rw [point_coord3 t, BitVec.toNat_ofNat, Nat.mod_eq_of_lt (by omega)]

/-- Every point writes its output tile back: consecutive points name different rows. -/
private theorem flush3_1 (a : (pcfg3 (F := F)).Adm) (t : Fin (cfg3 a).N) : ((cfg3 a).win 1).flush t = true := by
  have hN : (cfg3 a).N = 2048 := N_3
  have ht : t.val < 2048 := lt_of_lt_of_eq t.isLt hN
  rw [Pipeline.Window.flush_out _ rfl]
  by_cases h : t.val + 1 = 2048
  · exact Or.inl (h.trans N_3.symm)
  · have hlt : t.val + 1 < (cfg3 a).N := lt_of_lt_of_eq (by omega : t.val + 1 < 2048) hN.symm
    refine Or.inr ⟨hlt, fun e => ?_⟩
    have e0 := congrFun e (0 : Fin 3)
    rw [(gather_index3 a ⟨t.val + 1, hlt⟩ ⟨t.val + 1, by omega⟩ rfl).2.2.2.1, (gather_index3 a t ⟨t.val, ht⟩ rfl).2.2.2.1] at e0
    exact absurd e0 (by show t.val + 1 ≠ t.val; omega)

/-- The output tile after the body is the input tile. -/
private theorem out3_1_eq (x0 : Vec F S1x1x64 .f32) : out3_1 x0 = x0 := by
  unfold out3_1
  rw [View.canon_unit_zero zero_offsets3]
  unfold k3_pay1
  rw [shapeCast_self, View.ld_unit_zero (S := S1x1x64) zero_offsets3]

/-- The array gather 3 leaves: row i is the row of the gathered array that the table's word i names. -/
private abbrev gathered3 (a : (pcfg3 (F := F)).Adm) (c : Dev nD) : S2048x1x64.Idx → Elt F .f32 :=
  fun y => V c main_v51 (ValueIdx.ix3 ⟨BitVec.toNat (a.1 0 (ValueIdx.ix1 ⟨(y 0).val, (y 0).isLt⟩)), word_lt3 a _⟩ ⟨(y 1).val, (y 1).isLt⟩ ⟨(y 2).val, (y 2).isLt⟩)

/-- The output tile of point t sits at row t of the output array. -/
private theorem tile_emb3 (a : (pcfg3 (F := F)).Adm) (t : Fin (cfg3 a).N) (i : Fin 2048) (hi : i.val = t.val) (p q : Fin 1) (s : Fin 64) :
    (((cfg3 a).win 1).blk t).view.emb (ValueIdx.ix3 p q s) = (ValueIdx.ix3 i (0 : Fin 1) s : S2048x1x64.Idx) := by
  obtain ⟨-, -, -, e3, e4, e5⟩ := gather_index3 a t i hi
  have hp : p.val = 0 := by omega
  have hq : q.val = 0 := by omega
  funext d
  apply Fin.ext
  match d with
  | ⟨0, _⟩ => show ((cfg3 a).win 1).index t (0 : Fin 3) * 1 + 1 * p.val = i.val; rw [e3]; omega
  | ⟨1, _⟩ => show ((cfg3 a).win 1).index t (1 : Fin 3) * 1 + 1 * q.val = 0; rw [e4]; omega
  | ⟨2, _⟩ => show ((cfg3 a).win 1).index t (2 : Fin 3) * 64 + 1 * s.val = s.val; rw [e5]; omega

/-- What point t writes back is tile t of the gathered rows. -/
private theorem flushed3_eq (a : (pcfg3 (F := F)).Adm) (c : Dev nD) (t : Fin (cfg3 a).N) :
    (dat3 V a c).flushed 1 t = (((cfg3 a).win 1).blk t).view.read (Elt F) (gathered3 V a c) := by
  have ht : t.val < 2048 := lt_of_lt_of_eq t.isLt N_3
  obtain ⟨e0, e1, e2, e3, e4, e5⟩ := gather_index3 a t ⟨t.val, ht⟩ rfl
  show ((cfg3 a).win 1).cut ((cfg3 a).grid.coords t) ((dat3 V a c).after 1 t) = _
  rw [after3_1]
  funext y
  obtain ⟨p, q, s, rfl⟩ : ∃ (p : Fin 1) (q : Fin 1) (s : Fin 64), y = ValueIdx.ix3 p q s := ⟨_, _, _, eq_ix3 (n0 := 1) (n1 := 1) (n2 := 64) y⟩
  have hp : p.val = 0 := by omega
  have hq : q.val = 0 := by omega
  have hemb0 : (((cfg3 a).win 0).blk t).view.emb (ValueIdx.ix3 p q s)
      = (ValueIdx.ix3 ⟨BitVec.toNat (a.1 0 (ValueIdx.ix1 ⟨t.val, ht⟩)), word_lt3 a _⟩ (0 : Fin 1) s : S50000x1x64.Idx) := by
    funext d
    apply Fin.ext
    match d with
    | ⟨0, _⟩ => show ((cfg3 a).win 0).index t (0 : Fin 3) * 1 + 1 * p.val = BitVec.toNat (a.1 0 (ValueIdx.ix1 ⟨t.val, ht⟩)); rw [e0]; omega
    | ⟨1, _⟩ => show ((cfg3 a).win 0).index t (1 : Fin 3) * 1 + 1 * q.val = 0; rw [e1]; omega
    | ⟨2, _⟩ => show ((cfg3 a).win 0).index t (2 : Fin 3) * 64 + 1 * s.val = s.val; rw [e2]; omega
  have hemb1 := tile_emb3 a t ⟨t.val, ht⟩ rfl p q s
  show out3_1 (iblk3 V a c 0 t) (ValueIdx.ix3 p q s) = _
  refine (congrFun (out3_1_eq (iblk3 V a c 0 t)) (ValueIdx.ix3 p q s)).trans ?_
  unfold iblk3
  show V c main_v51 ((((cfg3 a).win 0).blk t).view.emb (ValueIdx.ix3 p q s)) = gathered3 V a c ((((cfg3 a).win 1).blk t).view.emb (ValueIdx.ix3 p q s))
  rw [hemb0, hemb1]

/-- Row i of the output array is point i's tile, and every point writes back. -/
private theorem cover3 (a : (pcfg3 (F := F)).Adm) (i : S2048x1x64.Idx) :
    ∃ t : Fin (cfg3 a).N, ((cfg3 a).win 1).flush t = true ∧ i ∈ (((cfg3 a).win 1).blk t).view.set := by
  have h0 : (i 0).val < 2048 := (i 0).isLt
  have h1 : (i 1).val < 1 := (i 1).isLt
  have h2 : (i 2).val < 64 := (i 2).isLt
  have hN : (cfg3 a).N = 2048 := N_3
  obtain ⟨t, ht⟩ : ∃ t : Fin (cfg3 a).N, t.val = (i 0).val := ⟨⟨(i 0).val, lt_of_lt_of_eq h0 hN.symm⟩, rfl⟩
  refine ⟨t, flush3_1 a t, ?_⟩
  have hi : i = ValueIdx.ix3 ⟨(i 0).val, h0⟩ (0 : Fin 1) ⟨(i 2).val, h2⟩ := by
    funext d
    apply Fin.ext
    match d with
    | ⟨0, _⟩ => rfl
    | ⟨1, _⟩ => show (i 1).val = 0; omega
    | ⟨2, _⟩ => rfl
  have hmem := (((cfg3 a).win 1).blk t).view.emb_mem_set (ValueIdx.ix3 (0 : Fin 1) (0 : Fin 1) ⟨(i 2).val, h2⟩)
  rw [tile_emb3 a t ⟨(i 0).val, h0⟩ ht.symm] at hmem
  rw [hi]
  exact hmem

/-- The item gather's output array, the same over the [50000, 1, 64] array. -/
theorem arr3_apply (a : (pcfg3 (F := F)).Adm) (c : Dev nD) (i : Fin 2048) (j : Fin 64)
    (hlt : BitVec.toNat (a.1 0 (ix1 i)) < 50000) :
    (dat3 V a c).arrAt 1 (cfg3 a).N (ix3 i (0 : Fin 1) j) = V c main_v51 (ix3 ⟨BitVec.toNat (a.1 0 (ix1 i)), hlt⟩ (0 : Fin 1) j) := by
  rw [(dat3 V a c).arrAt_eq_of_cover 1 (gathered3 V a c) (fun t _ => flushed3_eq V a c t) (cover3 a)]

end Gathers

end Cert.Val

end
-- ==== Proof.Val.RefRow.lean ====
/-
  The reference's image of each embedding table, entry by entry, at the ideal instance: entry (r, j) of the
  reference's tangent-space table (its stage main_v34 for the user table, main_v69 for the item table) is entry j of
  the row map applied to row r of the argument table. The reference recomputes the time coordinate, concatenates it
  in front of the tail, slices both back out, divides by sqrt(1) and multiplies by sqrt(1); at the ideal instance
  sqrt(1) = 1 and the slices of the concatenation are its parts, so its value is the row map's.
-/
import proofs.«423441_j19576460935173_1_alg».proof.Proof.Val.ReadP
import proofs.«423441_j19576460935173_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Cert.Spec
open Idealize.ShloMosaic Idealize.ShloMosaic.ValueIdx

/-! ## The literal one and its square root -/

/-- The pattern of 1.0 denotes the real number 1. -/
theorem c1_eq_one : c1 = ((1 : ℝ) : EReal) := by
  simp [c1, Ideal.ofBits, Ideal.ieee, -EReal.coe_mul] <;> norm_num

/-- The square root of one is one, so dividing by it and multiplying by it are the row map's own ÷ 1 and 1 ·. -/
theorem sqrt_c1 : Ideal.sqrt c1 = c1 := by
  rw [c1_eq_one]
  show (if (1 : ℝ) < 0 then (⊥ : EReal) else ((Real.sqrt 1 : ℝ) : EReal)) = _
  rw [if_neg (by norm_num), Real.sqrt_one]

/-! ## A column joined in front of 63 columns, read at an entry -/

section Join
variable {α : Type} {n : Nat}

/-- Column 0 of [A | B] is A's only column. -/
theorem join_head (A : (⟨2, ![n, 1]⟩ : Shape).Idx → α) (B : (⟨2, ![n, 63]⟩ : Shape).Idx → α)
    (h : Shape.Concatenates [⟨2, ![n, 1]⟩, ⟨2, ![n, 63]⟩] ⟨2, ![n, 64]⟩ 1) (r : Fin n) :
    concatenate ⟨2, ![n, 64]⟩ 1 [⟨⟨2, ![n, 1]⟩, A⟩, ⟨⟨2, ![n, 63]⟩, B⟩] h (ix2 r (0 : Fin 64)) = A (ix2 r (0 : Fin 1)) := by
  refine concatenate_pair_apply_left 1 A B h _ rfl (ix2 r (0 : Fin 1)) (fun b => ?_)
  match b with
  | ⟨0, _⟩ => rfl
  | ⟨1, _⟩ => rfl

/-- Column k + 1 of [A | B] is B's column k. -/
theorem join_tail (A : (⟨2, ![n, 1]⟩ : Shape).Idx → α) (B : (⟨2, ![n, 63]⟩ : Shape).Idx → α)
    (h : Shape.Concatenates [⟨2, ![n, 1]⟩, ⟨2, ![n, 63]⟩] ⟨2, ![n, 64]⟩ 1) (r : Fin n) (k : Fin 63) :
    concatenate ⟨2, ![n, 64]⟩ 1 [⟨⟨2, ![n, 1]⟩, A⟩, ⟨⟨2, ![n, 63]⟩, B⟩] h (ix2 r k.succ) = B (ix2 r k) := by
  refine concatenate_pair_apply_right 1 A B h _ rfl rfl (ix2 r k) (fun b hb => ?_) ?_
  · match b with
    | ⟨0, _⟩ => rfl
    | ⟨1, _⟩ => exact absurd rfl hb
  · rfl

end Join

/-! ## The user table -/

section Users
open Cert.ReferenceIdeal Cert.ReferenceIdeal.ReadP
variable (u : (⟨S100000x64, .f32⟩ : BufTy).Contents (Elt Ideal)) (r : Fin 100000)

/-- The tail slice at column k is the row's entry k + 1. -/
theorem users_tail (k : Fin 63) : val_main_v0 (F := Ideal) u (ix2 r k) = u (ix2 r k.succ) := by
  rw [val_main_v0_apply]
  exact congrArg u (funext fun a => Fin.ext (by
    match a with
    | ⟨0, _⟩ => rfl
    | ⟨1, _⟩ => show 1 + k.val = k.val + 1; omega))

/-- The first sum of squares is the squared norm of the row's tail: the initial value is zero. -/
theorem users_sq : val_main_v2 (F := Ideal) u (ix1 r) = rowSq (fun k => u (ix2 r k)) := by
  rw [val_main_v2_apply, val_main_cst_apply, Ideal.ofBits_def, Ideal.ofBits_zero_f32, zero_add]
  unfold rowSq
  refine Finset.sum_congr rfl fun k _ => ?_
  have e : idx_main_v2 (ix1 r) k = ix2 r k :=
    funext fun a => Fin.ext (by match a with | ⟨0, _⟩ => rfl | ⟨1, _⟩ => rfl)
  rw [val_main_v1_apply, Ideal.mulf_def, e, users_tail]

/-- The recomputed time coordinate x₀' = sqrt(max(ε, 1 + s)). -/
theorem users_time :
    val_main_v7 (F := Ideal) u (ix2 r (0 : Fin 1)) = Ideal.sqrt (max cEps (c1 + rowSq (fun k => u (ix2 r k)))) := by
  have e : idx_main_v3 (ix2 r (0 : Fin 1)) = ix1 r :=
    funext fun a => Fin.ext (by match a with | ⟨0, _⟩ => rfl)
  rw [val_main_v7_apply, val_main_v6_apply, val_main_call0_v1_apply, val_main_call0_v0_apply, val_main_cst_1_apply,
    val_main_v5_apply, val_main_v4_apply, val_main_cst_0_apply, val_main_v3_apply, e, users_sq]
  rfl

/-- Column 0 of the joined table [x₀' | tail] is x₀'. -/
theorem users_join_head :
    val_main_v8 (F := Ideal) u (ix2 r (0 : Fin 64)) = val_main_v7 (F := Ideal) u (ix2 r (0 : Fin 1)) :=
  join_head _ _ _ r

/-- Column k + 1 of the joined table [x₀' | tail] is the tail's column k. -/
theorem users_join_tail (k : Fin 63) :
    val_main_v8 (F := Ideal) u (ix2 r k.succ) = val_main_v0 (F := Ideal) u (ix2 r k) :=
  join_tail _ _ _ r k

/-- The tail sliced back out of the joined table is the row's tail again. -/
theorem users_tail' (k : Fin 63) : val_main_v10 (F := Ideal) u (ix2 r k) = u (ix2 r k.succ) := by
  have e : idx_main_v10 (ix2 r k) = ix2 r k.succ :=
    funext fun a => Fin.ext (by
      match a with
      | ⟨0, _⟩ => rfl
      | ⟨1, _⟩ => show 1 + k.val = k.val + 1; omega)
  rw [val_main_v10_apply, e, users_join_tail, users_tail]

/-- The norm's sum of squares is the same squared norm. -/
theorem users_sq' : val_main_call1_v1 (F := Ideal) u (ix1 r) = rowSq (fun k => u (ix2 r k)) := by
  rw [val_main_call1_v1_apply, val_main_call1_cst_apply, Ideal.ofBits_def, Ideal.ofBits_zero_f32, zero_add]
  unfold rowSq
  refine Finset.sum_congr rfl fun k _ => ?_
  have e : idx_main_call1_v1 (ix1 r) k = ix2 r k :=
    funext fun a => Fin.ext (by match a with | ⟨0, _⟩ => rfl | ⟨1, _⟩ => rfl)
  rw [val_main_call1_v0_apply, Ideal.mulf_def, e, users_tail']

/-- The clipped norm max(μ, sqrt s). -/
theorem users_norm :
    val_main_v12 (F := Ideal) u (ix2 r (0 : Fin 1)) = max cMin (Ideal.sqrt (rowSq (fun k => u (ix2 r k)))) := by
  have e : idx_main_call1_v2 (ix2 r (0 : Fin 1)) = ix1 r :=
    funext fun a => Fin.ext (by match a with | ⟨0, _⟩ => rfl)
  rw [val_main_v12_apply, val_main_call2_v1_apply, val_main_call2_v0_apply, val_main_cst_3_apply,
    val_main_v11_apply, val_main_call1_v2_apply, e, users_sq']
  rfl

/-- The reference's sqrt(1.0) is one. -/
theorem users_one (i : S_.Idx) : val_main_v9 (F := Ideal) i = c1 := by
  rw [val_main_v9_apply, val_main_cst_2_apply, Ideal.hostUnary_sqrt_def, Ideal.ofBits_def]
  exact sqrt_c1

/-- The clipped argument θ of the hyperbolic angle: x₀' sliced back out of the joined table, over sqrt(1), clipped twice. -/
theorem users_theta :
    val_main_v18 (F := Ideal) u (ix2 r (0 : Fin 1)) = theta (rowSq (fun k => u (ix2 r k))) := by
  have e : idx_main_v13 (ix2 r (0 : Fin 1)) = ix2 r (0 : Fin 64) :=
    funext fun a => Fin.ext (by match a with | ⟨0, _⟩ => rfl | ⟨1, _⟩ => rfl)
  rw [val_main_v18_apply, val_main_call4_v1_apply, val_main_call4_v0_apply, val_main_cst_5_apply,
    val_main_v17_apply, val_main_call3_v1_apply, val_main_call3_v0_apply, val_main_cst_4_apply,
    val_main_v16_apply, val_main_v15_apply, val_main_v14_apply, users_one,
    val_main_v13_apply, e, users_join_head, users_time]
  rfl

/-- The scale sqrt(1) · log(θ + sqrt(θ·θ − 1)). -/
theorem users_arc :
    val_main_v27 (F := Ideal) u (ix2 r (0 : Fin 1)) = arc (rowSq (fun k => u (ix2 r k))) := by
  rw [val_main_v27_apply, val_main_v26_apply, val_main_v25_apply, users_one,
    val_main_v24_apply, val_main_v23_apply, val_main_v22_apply, val_main_v21_apply, val_main_v19_apply,
    val_main_v20_apply, val_main_cst_6_apply, users_theta]
  rfl

/-- The tangent-space piece at column k: the scale times the row's entry k + 1, over the clipped norm. -/
theorem users_res (k : Fin 63) :
    val_main_v31 (F := Ideal) u (ix2 r k)
      = Ideal.div (arc (rowSq (fun k => u (ix2 r k))) * u (ix2 r k.succ))
          (max cMin (Ideal.sqrt (rowSq (fun k => u (ix2 r k))))) := by
  have e28 : idx_main_v28 (ix2 r k) = ix2 r (0 : Fin 1) :=
    funext fun a => Fin.ext (by match a with | ⟨0, _⟩ => rfl | ⟨1, _⟩ => rfl)
  have e30 : idx_main_v30 (ix2 r k) = ix2 r (0 : Fin 1) :=
    funext fun a => Fin.ext (by match a with | ⟨0, _⟩ => rfl | ⟨1, _⟩ => rfl)
  rw [val_main_v31_apply, val_main_v29_apply, val_main_v28_apply, e28, users_arc, users_tail',
    val_main_v30_apply, e30, users_norm]
  rfl

/-- The zeros column. -/
theorem users_zero : val_main_v33 (F := Ideal) (ix2 r (0 : Fin 1)) = c0 := by
  rw [val_main_v33_apply, val_main_cst_7_apply]
  rfl

/-- Column 0 of the result [0 | piece] is the zeros column. -/
theorem users_out_head :
    val_main_v34 (F := Ideal) u (ix2 r (0 : Fin 64)) = val_main_v33 (F := Ideal) (ix2 r (0 : Fin 1)) :=
  join_head _ _ _ r

/-- Column k + 1 of the result [0 | piece] is the piece's column k. -/
theorem users_out_tail (k : Fin 63) :
    val_main_v34 (F := Ideal) u (ix2 r k.succ) = val_main_v31 (F := Ideal) u (ix2 r k) :=
  join_tail _ _ _ r k

end Users

/-! ## The item table -/

section Items
open Cert.ReferenceIdeal Cert.ReferenceIdeal.ReadP
variable (v : (⟨S50000x64, .f32⟩ : BufTy).Contents (Elt Ideal)) (r : Fin 50000)

/-- The tail slice at column k is the row's entry k + 1. -/
theorem items_tail (k : Fin 63) : val_main_v35 (F := Ideal) v (ix2 r k) = v (ix2 r k.succ) := by
  rw [val_main_v35_apply]
  exact congrArg v (funext fun a => Fin.ext (by
    match a with
    | ⟨0, _⟩ => rfl
    | ⟨1, _⟩ => show 1 + k.val = k.val + 1; omega))

/-- The first sum of squares is the squared norm of the row's tail: the initial value is zero. -/
theorem items_sq : val_main_v37 (F := Ideal) v (ix1 r) = rowSq (fun k => v (ix2 r k)) := by
  rw [val_main_v37_apply, val_main_cst_8_apply, Ideal.ofBits_def, Ideal.ofBits_zero_f32, zero_add]
  unfold rowSq
  refine Finset.sum_congr rfl fun k _ => ?_
  have e : idx_main_v37 (ix1 r) k = ix2 r k :=
    funext fun a => Fin.ext (by match a with | ⟨0, _⟩ => rfl | ⟨1, _⟩ => rfl)
  rw [val_main_v36_apply, Ideal.mulf_def, e, items_tail]

/-- The recomputed time coordinate x₀' = sqrt(max(ε, 1 + s)). -/
theorem items_time :
    val_main_v42 (F := Ideal) v (ix2 r (0 : Fin 1)) = Ideal.sqrt (max cEps (c1 + rowSq (fun k => v (ix2 r k)))) := by
  have e : idx_main_v38 (ix2 r (0 : Fin 1)) = ix1 r :=
    funext fun a => Fin.ext (by match a with | ⟨0, _⟩ => rfl)
  rw [val_main_v42_apply, val_main_v41_apply, val_main_call5_v1_apply, val_main_call5_v0_apply, val_main_cst_10_apply,
    val_main_v40_apply, val_main_v39_apply, val_main_cst_9_apply, val_main_v38_apply, e, items_sq]
  rfl

/-- Column 0 of the joined table [x₀' | tail] is x₀'. -/
theorem items_join_head :
    val_main_v43 (F := Ideal) v (ix2 r (0 : Fin 64)) = val_main_v42 (F := Ideal) v (ix2 r (0 : Fin 1)) :=
  join_head _ _ _ r

/-- Column k + 1 of the joined table [x₀' | tail] is the tail's column k. -/
theorem items_join_tail (k : Fin 63) :
    val_main_v43 (F := Ideal) v (ix2 r k.succ) = val_main_v35 (F := Ideal) v (ix2 r k) :=
  join_tail _ _ _ r k

/-- The tail sliced back out of the joined table is the row's tail again. -/
theorem items_tail' (k : Fin 63) : val_main_v45 (F := Ideal) v (ix2 r k) = v (ix2 r k.succ) := by
  have e : idx_main_v45 (ix2 r k) = ix2 r k.succ :=
    funext fun a => Fin.ext (by
      match a with
      | ⟨0, _⟩ => rfl
      | ⟨1, _⟩ => show 1 + k.val = k.val + 1; omega)
  rw [val_main_v45_apply, e, items_join_tail, items_tail]

/-- The norm's sum of squares is the same squared norm. -/
theorem items_sq' : val_main_call6_v1 (F := Ideal) v (ix1 r) = rowSq (fun k => v (ix2 r k)) := by
  rw [val_main_call6_v1_apply, val_main_call6_cst_apply, Ideal.ofBits_def, Ideal.ofBits_zero_f32, zero_add]
  unfold rowSq
  refine Finset.sum_congr rfl fun k _ => ?_
  have e : idx_main_call6_v1 (ix1 r) k = ix2 r k :=
    funext fun a => Fin.ext (by match a with | ⟨0, _⟩ => rfl | ⟨1, _⟩ => rfl)
  rw [val_main_call6_v0_apply, Ideal.mulf_def, e, items_tail']

/-- The clipped norm max(μ, sqrt s). -/
theorem items_norm :
    val_main_v47 (F := Ideal) v (ix2 r (0 : Fin 1)) = max cMin (Ideal.sqrt (rowSq (fun k => v (ix2 r k)))) := by
  have e : idx_main_call6_v2 (ix2 r (0 : Fin 1)) = ix1 r :=
    funext fun a => Fin.ext (by match a with | ⟨0, _⟩ => rfl)
  rw [val_main_v47_apply, val_main_call7_v1_apply, val_main_call7_v0_apply, val_main_cst_12_apply,
    val_main_v46_apply, val_main_call6_v2_apply, e, items_sq']
  rfl

/-- The reference's sqrt(1.0) is one. -/
theorem items_one (i : S_.Idx) : val_main_v44 (F := Ideal) i = c1 := by
  rw [val_main_v44_apply, val_main_cst_11_apply, Ideal.hostUnary_sqrt_def, Ideal.ofBits_def]
  exact sqrt_c1

/-- The clipped argument θ of the hyperbolic angle: x₀' sliced back out of the joined table, over sqrt(1), clipped twice. -/
theorem items_theta :
    val_main_v53 (F := Ideal) v (ix2 r (0 : Fin 1)) = theta (rowSq (fun k => v (ix2 r k))) := by
  have e : idx_main_v48 (ix2 r (0 : Fin 1)) = ix2 r (0 : Fin 64) :=
    funext fun a => Fin.ext (by match a with | ⟨0, _⟩ => rfl | ⟨1, _⟩ => rfl)
  rw [val_main_v53_apply, val_main_call9_v1_apply, val_main_call9_v0_apply, val_main_cst_14_apply,
    val_main_v52_apply, val_main_call8_v1_apply, val_main_call8_v0_apply, val_main_cst_13_apply,
    val_main_v51_apply, val_main_v50_apply, val_main_v49_apply, items_one,
    val_main_v48_apply, e, items_join_head, items_time]
  rfl

/-- The scale sqrt(1) · log(θ + sqrt(θ·θ − 1)). -/
theorem items_arc :
    val_main_v62 (F := Ideal) v (ix2 r (0 : Fin 1)) = arc (rowSq (fun k => v (ix2 r k))) := by
  rw [val_main_v62_apply, val_main_v61_apply, val_main_v60_apply, items_one,
    val_main_v59_apply, val_main_v58_apply, val_main_v57_apply, val_main_v56_apply, val_main_v54_apply,
    val_main_v55_apply, val_main_cst_15_apply, items_theta]
  rfl

/-- The tangent-space piece at column k: the scale times the row's entry k + 1, over the clipped norm. -/
theorem items_res (k : Fin 63) :
    val_main_v66 (F := Ideal) v (ix2 r k)
      = Ideal.div (arc (rowSq (fun k => v (ix2 r k))) * v (ix2 r k.succ))
          (max cMin (Ideal.sqrt (rowSq (fun k => v (ix2 r k))))) := by
  have e28 : idx_main_v63 (ix2 r k) = ix2 r (0 : Fin 1) :=
    funext fun a => Fin.ext (by match a with | ⟨0, _⟩ => rfl | ⟨1, _⟩ => rfl)
  have e30 : idx_main_v65 (ix2 r k) = ix2 r (0 : Fin 1) :=
    funext fun a => Fin.ext (by match a with | ⟨0, _⟩ => rfl | ⟨1, _⟩ => rfl)
  rw [val_main_v66_apply, val_main_v64_apply, val_main_v63_apply, e28, items_arc, items_tail',
    val_main_v65_apply, e30, items_norm]
  rfl

/-- The zeros column. -/
theorem items_zero : val_main_v68 (F := Ideal) (ix2 r (0 : Fin 1)) = c0 := by
  rw [val_main_v68_apply, val_main_cst_16_apply]
  rfl

/-- Column 0 of the result [0 | piece] is the zeros column. -/
theorem items_out_head :
    val_main_v69 (F := Ideal) v (ix2 r (0 : Fin 64)) = val_main_v68 (F := Ideal) (ix2 r (0 : Fin 1)) :=
  join_head _ _ _ r

/-- Column k + 1 of the result [0 | piece] is the piece's column k. -/
theorem items_out_tail (k : Fin 63) :
    val_main_v69 (F := Ideal) v (ix2 r k.succ) = val_main_v66 (F := Ideal) v (ix2 r k) :=
  join_tail _ _ _ r k

end Items

/-- The reference's tangent-space user table at (r, j). -/
theorem ref_users_apply (u : (⟨Cert.ReferenceIdeal.S100000x64, .f32⟩ : BufTy).Contents (Elt Ideal)) (r : Fin 100000) (j : Fin 64) :
    Cert.ReferenceIdeal.ReadP.val_main_v34 (F := Ideal) u (ix2 r j) = hypRow (fun k => u (ix2 r k)) j := by
  rcases Fin.eq_zero_or_eq_succ j with rfl | ⟨k, rfl⟩
  · refine (users_out_head u r).trans ((users_zero r).trans ?_)
    exact (if_pos rfl).symm
  · have hk : ¬ (k.succ : Fin 64).val = 0 := by rw [Fin.val_succ]; omega
    refine (users_out_tail u r k).trans ((users_res u r k).trans ?_)
    unfold hypRow
    rw [if_neg hk]

/-- The reference's tangent-space item table at (r, j). -/
theorem ref_items_apply (v : (⟨Cert.ReferenceIdeal.S50000x64, .f32⟩ : BufTy).Contents (Elt Ideal)) (r : Fin 50000) (j : Fin 64) :
    Cert.ReferenceIdeal.ReadP.val_main_v69 (F := Ideal) v (ix2 r j) = hypRow (fun k => v (ix2 r k)) j := by
  rcases Fin.eq_zero_or_eq_succ j with rfl | ⟨k, rfl⟩
  · refine (items_out_head v r).trans ((items_zero r).trans ?_)
    exact (if_pos rfl).symm
  · have hk : ¬ (k.succ : Fin 64).val = 0 := by rw [Fin.val_succ]; omega
    refine (items_out_tail v r k).trans ((items_res v r k).trans ?_)
    unfold hypRow
    rw [if_neg hk]

end Cert.Val

end
-- ==== Proof.Val.Chain.lean ====
/-
  The summed embeddings, kernel program against reference. After the two row-tile regions the kernel program's
  buffers main_v0 and main_v1 hold the row map of the two argument tables, which is what the reference's stages
  main_v34 and main_v69 are (entry by entry: the tiles-to-arrays reading on one side, the stage-by-stage reading on
  the other). From there both programs apply the same 54 host operations (concatenate the two tables; three times:
  gather the rows the edge columns name, scale by the edge values, scatter-add to the rows the edge rows name; add the
  three layers up), so the kernel program's main_v45 is the reference's main_v113: the same term of the same inputs.
-/
import proofs.«423441_j19576460935173_1_alg».proof.Proof.KI.Run
import proofs.«423441_j19576460935173_1_alg».proof.Proof.Val.Blocks
import proofs.«423441_j19576460935173_1_alg».proof.Proof.Val.RefRow
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ)

/-- Region 0's output array is the reference's tangent-space user table. -/
theorem users_eq (c : Dev nD) :
    W2 (F := Ideal) m c (Proc.devRef .tc main_v0)
      = Cert.ReferenceIdeal.ReadP.val_main_v34 (F := Ideal) (m ((c : Thread nD τ).loc main_arg0)) := by
  rw [W2_of_ne m c main_v0 (by decide)]
  refine (W1_arr m c 1).trans (funext fun (i : S100000x64.Idx) => ?_)
  obtain ⟨r, j, rfl⟩ : ∃ (r : Fin 100000) (j : Fin 64), i = ix2 r j := ⟨i 0, i 1, eq_ix2 i⟩
  exact (arr0_apply (U0 m) c r j).trans (Cert.Val.ref_users_apply _ r j).symm

/-- Region 1's output array is the reference's tangent-space item table. -/
theorem items_eq (c : Dev nD) :
    W2 (F := Ideal) m c (Proc.devRef .tc main_v1)
      = Cert.ReferenceIdeal.ReadP.val_main_v69 (F := Ideal) (m ((c : Thread nD τ).loc main_arg1)) := by
  refine (W2_arr m c 1).trans (funext fun (i : S50000x64.Idx) => ?_)
  obtain ⟨r, j, rfl⟩ : ∃ (r : Fin 50000) (j : Fin 64), i = ix2 r j := ⟨i 0, i 1, eq_ix2 i⟩
  have hU : U1 m c main_arg1 = m ((c : Thread nD τ).loc main_arg1) := W1_of_ne m c main_arg1 (by decide)
  refine (arr1_apply (U1 m) c r j).trans ?_
  rw [hU]
  exact (Cert.Val.ref_items_apply _ r j).symm

theorem W2_arg2 (c : Dev nD) : W2 (F := Ideal) m c (Proc.devRef .tc main_arg2) = m ((c : Thread nD τ).loc main_arg2) :=
  (W2_of_ne m c main_arg2 (by decide)).trans (W1_of_ne m c main_arg2 (by decide))
theorem W2_arg3 (c : Dev nD) : W2 (F := Ideal) m c (Proc.devRef .tc main_arg3) = m ((c : Thread nD τ).loc main_arg3) :=
  (W2_of_ne m c main_arg3 (by decide)).trans (W1_of_ne m c main_arg3 (by decide))
theorem W2_arg4 (c : Dev nD) : W2 (F := Ideal) m c (Proc.devRef .tc main_arg4) = m ((c : Thread nD τ).loc main_arg4) :=
  (W2_of_ne m c main_arg4 (by decide)).trans (W1_of_ne m c main_arg4 (by decide))

set_option maxHeartbeats 4000000 in
/-- The kernel program's summed embeddings are the reference's. -/
theorem sum_eq (c : Dev nD) :
    W3 (F := Ideal) m c (Proc.devRef .tc main_v45)
      = Cert.ReferenceIdeal.ReadP.val_main_v113 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  show StableHlo.after hostOps2 (W2 m c) (Proc.devRef .tc main_v45) = _
  after_results_simp
  rw [users_eq m c, items_eq m c, W2_arg2 m c, W2_arg3 m c, W2_arg4 m c]
  rfl

end Cert.Val

end
-- ==== Proof.Val.RefTail.lean ====
/-
  The reference's last stages read at an index, in terms of the summed embeddings (its stage main_v113, a
  [150000, 64] array: users first, items after). The user gather reads row `user[i]`: the index is first normalised
  (a negative word has 100000 added, which does not happen for a word in [0, 100000)), and the gather then takes that
  row of the first 100000 rows. The item gather reads row 100000 + `pos[i]`, and the item slice row 100000 + r.
-/
import proofs.«423441_j19576460935173_1_alg».proof.Proof.Val.ReadP
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.Val

open Cert.ReferenceIdeal Cert.ReferenceIdeal.ReadP
open Idealize.ShloMosaic Idealize.ShloMosaic.ValueIdx

/-! ## A row gather read at an index, and the words that name its rows -/

/-- A row gather read at (i, j): operand [N, C], start indices the [R, 1] column of row numbers, result [R, C]; the one
    operand axis 0 is collapsed and start-indexed, axis 1 is the offset axis. Result (i, j) is the operand at row
    `idx[i, 0]` read signed and clamped into [0, N − 1], column j. -/
theorem gather_rows_apply {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (i : Fin R) (j : Fin C) (hN : 0 < N) :
    Host.gather d x idx (ix2 i j)
      = x (ix2 ⟨min (idx (ix2 i (0 : Fin 1))).toInt.toNat (N - 1), by omega⟩ j) := by
  obtain ⟨od, cd, ob, sb, sim, ivd, ss, wf⟩ := d
  dsimp only at hoff hcoll hob hsim hivd
  subst hoff hcoll hob hsim hivd
  unfold Host.gather
  congr 1
  funext a
  apply Fin.ext
  match a with
  | ⟨0, _⟩ =>
    -- axis 0: the clamped start index, no batching and no offset coordinate
    show (GatherDims.start _ (ix2 i j) idx 0 + GatherDims.batchCoord _ (ix2 i j) 0 + GatherDims.offCoord _ (ix2 i j) 0) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsl : ss 0 = 1 := GatherDims.slice_collapsed ⟨[1], [0], [], sb, [0], 1, ss, wf⟩ 0 (List.mem_singleton.mpr rfl)
    have hsi : GatherDims.siIdx ⟨[1], [0], [], sb, [0], 1, ss, wf⟩ (ix2 i j)
        ⟨List.idxOf (0 : Fin 2) [(0 : Fin 2)], List.idxOf_lt_length_iff.2 (List.mem_singleton.mpr rfl)⟩ = ix2 i (0 : Fin 1) := by
      funext b; refine Fin.ext ?_
      match b with
      | ⟨0, _⟩ => rfl
      | ⟨1, _⟩ => rfl
    show min (idx (GatherDims.siIdx _ (ix2 i j) _)).toInt.toNat (N - ss 0) = _
    rw [hsi, hsl]
  | ⟨1, _⟩ =>
    -- axis 1: no start index and no batching coordinate, the offset coordinate is the result's column
    show (GatherDims.start _ (ix2 i j) idx 1 + GatherDims.batchCoord _ (ix2 i j) 1 + GatherDims.offCoord _ (ix2 i j) 1) = _
    rw [GatherDims.batchCoord_eq_zero _ _ _ List.not_mem_nil]
    unfold GatherDims.start
    rw [dif_neg (show (1 : Fin 2) ∉ [(0 : Fin 2)] from by decide)]
    unfold GatherDims.offCoord
    rw [dif_pos ((GatherDims.mem_sKept _ _).mpr ⟨show (1 : Fin 2) ∉ [(0 : Fin 2)] from by decide, List.not_mem_nil⟩)]
    simp only [Nat.zero_add]
    rfl

/-- A word below 2³¹ is not negative, so the normalising select (a negative word has the extent added) keeps it. -/
theorem select_slt_zero_of_small {α : Type} (w : BitVec 32) (a b : α) (hlt : w.toNat < 2 ^ 31) :
    Scalar.select (IntOp.cmpi .slt w 0#32) a b = b := by
  have hne : ¬ IntOp.cmpi .slt w 0#32 = 1#1 := fun h => by
    have := (StableHlo.Predicate.slt_iff_toNat hlt (by decide)).mp h
    simp at this
  rw [eq_zero_of_ne_one hne, select_zero]

/-- Such a word read signed and clamped into [0, N − 1] is its value when that is below N. -/
theorem clamp_toInt_of_lt (w : BitVec 32) (N : Nat) (hN : w.toNat < N) (h31 : w.toNat < 2 ^ 31) :
    min w.toInt.toNat (N - 1) = w.toNat := by
  rw [StableHlo.Predicate.toInt_eq_toNat_of_lt h31, Int.toNat_natCast]
  omega

/-! ## The reference's stages -/

variable {F : FTy → Type} [FloatOps F]
variable (x0 : (⟨S100000x64, .f32⟩ : BufTy).Contents (Elt F)) (x1 : (⟨S50000x64, .f32⟩ : BufTy).Contents (Elt F))
  (x2 : (⟨S2000000, .f32⟩ : BufTy).Contents (Elt F)) (x3 x4 : (⟨S2000000, .i32⟩ : BufTy).Contents (Elt F))

/-- The item half of the summed embeddings at (r, j) is row 100000 + r of the sum. -/
theorem ref_v115_apply (r : Fin 50000) (j : Fin 64) :
    val_main_v115 (F := F) x0 x1 x2 x3 x4 (ix2 r j)
      = val_main_v113 (F := F) x0 x1 x2 x3 x4 (ix2 ⟨100000 + r.val, by have := r.isLt; omega⟩ j) := by
  rw [val_main_v115_apply]
  refine congrArg (val_main_v113 (F := F) x0 x1 x2 x3 x4) ?_
  funext a
  match a with
  | ⟨0, _⟩ => exact Fin.ext rfl
  | ⟨1, _⟩ => exact Fin.ext rfl

/-- The user index column at row i is the word `user[i]` itself when the word is not negative. -/
theorem ref_v121_row (x5 : (⟨S2048, .i32⟩ : BufTy).Contents (Elt F)) (i : Fin 2048)
    (h31 : BitVec.toNat (x5 (ix1 i)) < 2 ^ 31) :
    val_main_v121 (F := F) x5 (ix2 i (0 : Fin 1)) = x5 (ix1 i) := by
  rw [val_main_v121_apply]
  have hi : idx_main_v121 (ix2 i (0 : Fin 1)) = ix1 i := by
    funext a; match a with | ⟨0, _⟩ => rfl
  rw [hi, val_main_v120_apply, val_main_v117_apply, val_main_v116_apply, val_main_c_26_apply]
  exact select_slt_zero_of_small _ _ _ h31

/-- The item index column at row i is the word `pos[i]` itself when the word is not negative. -/
theorem ref_v128_row (x6 : (⟨S2048, .i32⟩ : BufTy).Contents (Elt F)) (i : Fin 2048)
    (h31 : BitVec.toNat (x6 (ix1 i)) < 2 ^ 31) :
    val_main_v128 (F := F) x6 (ix2 i (0 : Fin 1)) = x6 (ix1 i) := by
  rw [val_main_v128_apply]
  have hi : idx_main_v128 (ix2 i (0 : Fin 1)) = ix1 i := by
    funext a; match a with | ⟨0, _⟩ => rfl
  rw [hi, val_main_v127_apply, val_main_v124_apply, val_main_v123_apply, val_main_c_28_apply]
  exact select_slt_zero_of_small _ _ _ h31

/-- The user gather at (i, j), for a word `user[i]` in [0, 100000): row `user[i]` of the sum. -/
theorem ref_v122_apply (x5 : (⟨S2048, .i32⟩ : BufTy).Contents (Elt F)) (i : Fin 2048) (j : Fin 64)
    (h0 : IntOp.cmpi .sge (x5 (ix1 i)) (0#32) = 1#1) (h1 : IntOp.cmpi .slt (x5 (ix1 i)) (100000#32) = 1#1)
    (hlt : BitVec.toNat (x5 (ix1 i)) < 100000) :
    val_main_v122 (F := F) x0 x1 x2 x3 x4 x5 (ix2 i j)
      = val_main_v113 (F := F) x0 x1 x2 x3 x4 (ix2 ⟨BitVec.toNat (x5 (ix1 i)), by omega⟩ j) := by
  unfold val_main_v122
  refine (gather_rows_apply gather_S100000x64_S2048x1_S2048x64_1_0_n_n_0_1_164 rfl rfl rfl rfl rfl
    (val_main_v114 (F := F) x0 x1 x2 x3 x4) (val_main_v121 (F := F) x5) i j (by omega)).trans ?_
  rw [val_main_v114_apply]
  refine congrArg (val_main_v113 (F := F) x0 x1 x2 x3 x4) ?_
  funext a
  match a with
  | ⟨0, _⟩ =>
    refine Fin.ext ?_
    show min (val_main_v121 (F := F) x5 (ix2 i (0 : Fin 1))).toInt.toNat (100000 - 1) = BitVec.toNat (x5 (ix1 i))
    rw [ref_v121_row x5 i (by omega)]
    exact clamp_toInt_of_lt _ _ hlt (by omega)
  | ⟨1, _⟩ => exact Fin.ext rfl

/-- The item gather at (i, j), for a word `pos[i]` in [0, 50000): row 100000 + `pos[i]` of the sum. -/
theorem ref_v129_apply (x6 : (⟨S2048, .i32⟩ : BufTy).Contents (Elt F)) (i : Fin 2048) (j : Fin 64)
    (h0 : IntOp.cmpi .sge (x6 (ix1 i)) (0#32) = 1#1) (h1 : IntOp.cmpi .slt (x6 (ix1 i)) (50000#32) = 1#1)
    (hlt : BitVec.toNat (x6 (ix1 i)) < 50000) :
    val_main_v129 (F := F) x0 x1 x2 x3 x4 x6 (ix2 i j)
      = val_main_v113 (F := F) x0 x1 x2 x3 x4 (ix2 ⟨100000 + BitVec.toNat (x6 (ix1 i)), by omega⟩ j) := by
  unfold val_main_v129
  refine (gather_rows_apply gather_S50000x64_S2048x1_S2048x64_1_0_n_n_0_1_164 rfl rfl rfl rfl rfl
    (val_main_v115 (F := F) x0 x1 x2 x3 x4) (val_main_v128 (F := F) x6) i j (by omega)).trans ?_
  rw [val_main_v115_apply]
  refine congrArg (val_main_v113 (F := F) x0 x1 x2 x3 x4) ?_
  funext a
  match a with
  | ⟨0, _⟩ =>
    refine Fin.ext ?_
    show 100000 + min (val_main_v128 (F := F) x6 (ix2 i (0 : Fin 1))).toInt.toNat (50000 - 1)
      = 100000 + BitVec.toNat (x6 (ix1 i))
    rw [ref_v128_row x6 i (by omega)]
    rw [clamp_toInt_of_lt _ _ hlt (by omega)]
  | ⟨1, _⟩ => exact Fin.ext rfl

end Cert.Val

end
-- ==== Proof.Val.RefRunH.lean ====
/-
  The reference's run, read back by hand over its operation list cut into nine consecutive pieces, a cut before every
  concatenate. Every weakly fair execution of @main ends with each buffer at the fold of the 187 operations over its launch
  contents; the fold over the whole line is the folds over the pieces in turn; each piece, from any contents, writes the
  staged term of what it reads into the few buffers later pieces read, and keeps every buffer it does not write. Chained,
  the result buffer holds the staged term `val_main_v130` of the seven arguments, and the arguments are unchanged.
-/
import proofs.«423441_j19576460935173_1_alg».proof.Proof.Val.ReadP
import Idealize.ShloMosaic.Lib.StableHlo.Run
import Idealize.ShloMosaic.Lib.Pipeline.Frame

noncomputable section

namespace Cert.Val

open Cert.ReferenceIdeal Cert.ReferenceIdeal.Gen Idealize.ShloMosaic Idealize.ShloMosaic.TcCoe Idealize.SL.Sem Idealize.ShloMosaic.StableHlo

variable {F : FTy → Type} [FloatOps F]

/-! ## The operation list, in nine pieces -/

/-- Operations 1–13 of @main's 187, in order; later operations read main_v7, main_v0 of what they write. -/
abbrev opsA1 : List (HloOp τ sig (Elt F)) :=
  [ unary main_arg0 main_v0 ((extractStridedSlice S100000x63 ![0, 1] · slices_S100000x64_S100000x63_0_1) : (⟨S100000x64, .f32⟩ : BufTy).Contents (Elt F) → (⟨S100000x63, .f32⟩ : BufTy).Contents (Elt F)),
    binary main_v0 main_v0 main_v1 (mulf : (⟨S100000x63, .f32⟩ : BufTy).Contents (Elt F) → (⟨S100000x63, .f32⟩ : BufTy).Contents (Elt F) → (⟨S100000x63, .f32⟩ : BufTy).Contents (Elt F)),
    nullary main_cst (constant S_ .f32 0x00000000#32),
    binary main_v1 main_cst main_v2 ((fun x v => Host.reduceAdd x v reducesTo_S100000x63_S100000_d1 h_S_) : (⟨S100000x63, .f32⟩ : BufTy).Contents (Elt F) → (⟨S_, .f32⟩ : BufTy).Contents (Elt F) → (⟨S100000, .f32⟩ : BufTy).Contents (Elt F)),
    unary main_v2 main_v3 (broadcastInDim S100000x1 ![0] bcast_S100000_S100000x1_0 : (⟨S100000, .f32⟩ : BufTy).Contents (Elt F) → (⟨S100000x1, .f32⟩ : BufTy).Contents (Elt F)),
    nullary main_cst_0 (constant S_ .f32 0x3F800000#32),
    unary main_cst_0 main_v4 (broadcastInDim S100000x1 ![] bcast_S_S100000x1 : (⟨S_, .f32⟩ : BufTy).Contents (Elt F) → (⟨S100000x1, .f32⟩ : BufTy).Contents (Elt F)),
    binary main_v4 main_v3 main_v5 (addf : (⟨S100000x1, .f32⟩ : BufTy).Contents (Elt F) → (⟨S100000x1, .f32⟩ : BufTy).Contents (Elt F) → (⟨S100000x1, .f32⟩ : BufTy).Contents (Elt F)),
    nullary main_cst_1 (constant S_ .f32 0x33D6BF95#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000x1, .f32⟩) main_call0_v1) (broadcastInDim S100000x1 ![] bcast_S_S100000x1),
    TRef.binary (TRef.of (T := ⟨S100000x1, .f32⟩) main_call0_v1) (TRef.of (T := ⟨S100000x1, .f32⟩) main_v5) (TRef.of (T := ⟨S100000x1, .f32⟩) main_v6) maximumf,
    unary main_v6 main_v7 (Host.sqrt : (⟨S100000x1, .f32⟩ : BufTy).Contents (Elt F) → (⟨S100000x1, .f32⟩ : BufTy).Contents (Elt F)) ]

/-- Operations 14–55 of @main's 187, in order; later operations read main_v33, main_v31 of what they write. -/
abbrev opsA2 : List (HloOp τ sig (Elt F)) :=
  [ binary main_v7 main_v0 main_v8 ((fun a b => concatenate S100000x64 1 [⟨S100000x1, a⟩, ⟨S100000x63, b⟩] concatenates_S100000x1_S100000x63_S100000x64_d1) : (⟨S100000x1, .f32⟩ : BufTy).Contents (Elt F) → (⟨S100000x63, .f32⟩ : BufTy).Contents (Elt F) → (⟨S100000x64, .f32⟩ : BufTy).Contents (Elt F)),
    nullary main_cst_2 (constant S_ .f32 0x3F800000#32),
    unary main_cst_2 main_v9 (Host.sqrt : (⟨S_, .f32⟩ : BufTy).Contents (Elt F) → (⟨S_, .f32⟩ : BufTy).Contents (Elt F)),
    unary main_v8 main_v10 ((extractStridedSlice S100000x63 ![0, 1] · slices_S100000x64_S100000x63_0_1) : (⟨S100000x64, .f32⟩ : BufTy).Contents (Elt F) → (⟨S100000x63, .f32⟩ : BufTy).Contents (Elt F)),
    TRef.binary (TRef.of (T := ⟨S100000x63, .f32⟩) main_v10) (TRef.of (T := ⟨S100000x63, .f32⟩) main_v10) (TRef.of (T := ⟨S100000x63, .f32⟩) main_call1_v0) mulf,
    TRef.nullary (TRef.of (T := ⟨S_, .f32⟩) main_call1_cst) (constant S_ .f32 0x00000000#32),
    TRef.binary (TRef.of (T := ⟨S100000x63, .f32⟩) main_call1_v0) (TRef.of (T := ⟨S_, .f32⟩) main_call1_cst) (TRef.of (T := ⟨S100000, .f32⟩) main_call1_v1) (fun x v => Host.reduceAdd x v reducesTo_S100000x63_S100000_d1 h_S_),
    TRef.unary (TRef.of (T := ⟨S100000, .f32⟩) main_call1_v1) (TRef.of (T := ⟨S100000x1, .f32⟩) main_call1_v2) (broadcastInDim S100000x1 ![0] bcast_S100000_S100000x1_0),
    TRef.unary (TRef.of (T := ⟨S100000x1, .f32⟩) main_call1_v2) (TRef.of (T := ⟨S100000x1, .f32⟩) main_v11) Host.sqrt,
    nullary main_cst_3 (constant S_ .f32 0x26901D7D#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S100000x1, .f32⟩) main_call2_v1) (broadcastInDim S100000x1 ![] bcast_S_S100000x1),
    TRef.binary (TRef.of (T := ⟨S100000x1, .f32⟩) main_call2_v1) (TRef.of (T := ⟨S100000x1, .f32⟩) main_v11) (TRef.of (T := ⟨S100000x1, .f32⟩) main_v12) maximumf,
    unary main_v8 main_v13 ((extractStridedSlice S100000x1 ![0, 0] · slices_S100000x64_S100000x1_0_0) : (⟨S100000x64, .f32⟩ : BufTy).Contents (Elt F) → (⟨S100000x1, .f32⟩ : BufTy).Contents (Elt F)),
    unary main_v9 main_v14 (id : (⟨S_, .f32⟩ : BufTy).Contents (Elt F) → (⟨S_, .f32⟩ : BufTy).Contents (Elt F)),
    unary main_v14 main_v15 (broadcastInDim S100000x1 ![] bcast_S_S100000x1 : (⟨S_, .f32⟩ : BufTy).Contents (Elt F) → (⟨S100000x1, .f32⟩ : BufTy).Contents (Elt F)),
    binary main_v13 main_v15 main_v16 (Host.divf : (⟨S100000x1, .f32⟩ : BufTy).Contents (Elt F) → (⟨S100000x1, .f32⟩ : BufTy).Contents (Elt F) → (⟨S100000x1, .f32⟩ : BufTy).Contents (Elt F)),
    nullary main_cst_4 (constant S_ .f32 0x3F800001#32),
    TRef.unary (TRef.of (T := ⟨S_, .f32⟩) main_cst_4) (TRef.of (T := ⟨S_, .f32⟩) main_call3_v0) id,
    TRef.unary (TRef.of (T := ⟨S_, .f32⟩) main_call3_v0) (TRef.of (T := ⟨S100000x1, .f32⟩) main_call3_v1) (broadcastInDim S100000x1 ![] bcast_S_S100000x1),
    TRef.binary (TRef.of (T := ⟨S100000x1, .f32⟩) main_call3_v1) (TRef.of (T := ⟨S100000x1, .f32⟩) main_v16) (TRef.of (T := ⟨S100000x1, .f32⟩) main_v17) maximumf,
    nullary main_cst_5 (constant S_ .f32 0x3F800001#32),
    TRef.unary (TRef.of (T := ⟨S_, .f32⟩) main_cst_5) (TRef.of (T := ⟨S_, .f32⟩) main_call4_v0) id,
    TRef.unary (TRef.of (T := ⟨S_, .f32⟩) main_call4_v0) (TRef.of (T := ⟨S100000x1, .f32⟩) main_call4_v1) (broadcastInDim S100000x1 ![] bcast_S_S100000x1),
    TRef.binary (TRef.of (T := ⟨S100000x1, .f32⟩) main_call4_v1) (TRef.of (T := ⟨S100000x1, .f32⟩) main_v17) (TRef.of (T := ⟨S100000x1, .f32⟩) main_v18) maximumf,
    binary main_v18 main_v18 main_v19 (mulf : (⟨S100000x1, .f32⟩ : BufTy).Contents (Elt F) → (⟨S100000x1, .f32⟩ : BufTy).Contents (Elt F) → (⟨S100000x1, .f32⟩ : BufTy).Contents (Elt F)),
    nullary main_cst_6 (constant S_ .f32 0x3F800000#32),
    unary main_cst_6 main_v20 (broadcastInDim S100000x1 ![] bcast_S_S100000x1 : (⟨S_, .f32⟩ : BufTy).Contents (Elt F) → (⟨S100000x1, .f32⟩ : BufTy).Contents (Elt F)),
    binary main_v19 main_v20 main_v21 (subf : (⟨S100000x1, .f32⟩ : BufTy).Contents (Elt F) → (⟨S100000x1, .f32⟩ : BufTy).Contents (Elt F) → (⟨S100000x1, .f32⟩ : BufTy).Contents (Elt F)),
    unary main_v21 main_v22 (Host.sqrt : (⟨S100000x1, .f32⟩ : BufTy).Contents (Elt F) → (⟨S100000x1, .f32⟩ : BufTy).Contents (Elt F)),
    binary main_v18 main_v22 main_v23 (addf : (⟨S100000x1, .f32⟩ : BufTy).Contents (Elt F) → (⟨S100000x1, .f32⟩ : BufTy).Contents (Elt F) → (⟨S100000x1, .f32⟩ : BufTy).Contents (Elt F)),
    unary main_v23 main_v24 (Host.log : (⟨S100000x1, .f32⟩ : BufTy).Contents (Elt F) → (⟨S100000x1, .f32⟩ : BufTy).Contents (Elt F)),
    unary main_v9 main_v25 (id : (⟨S_, .f32⟩ : BufTy).Contents (Elt F) → (⟨S_, .f32⟩ : BufTy).Contents (Elt F)),
    unary main_v25 main_v26 (broadcastInDim S100000x1 ![] bcast_S_S100000x1 : (⟨S_, .f32⟩ : BufTy).Contents (Elt F) → (⟨S100000x1, .f32⟩ : BufTy).Contents (Elt F)),
    binary main_v26 main_v24 main_v27 (mulf : (⟨S100000x1, .f32⟩ : BufTy).Contents (Elt F) → (⟨S100000x1, .f32⟩ : BufTy).Contents (Elt F) → (⟨S100000x1, .f32⟩ : BufTy).Contents (Elt F)),
    unary main_v27 main_v28 (broadcastInDim S100000x63 ![0, 1] bcast_S100000x1_S100000x63_0_1 : (⟨S100000x1, .f32⟩ : BufTy).Contents (Elt F) → (⟨S100000x63, .f32⟩ : BufTy).Contents (Elt F)),
    binary main_v28 main_v10 main_v29 (mulf : (⟨S100000x63, .f32⟩ : BufTy).Contents (Elt F) → (⟨S100000x63, .f32⟩ : BufTy).Contents (Elt F) → (⟨S100000x63, .f32⟩ : BufTy).Contents (Elt F)),
    unary main_v12 main_v30 (broadcastInDim S100000x63 ![0, 1] bcast_S100000x1_S100000x63_0_1 : (⟨S100000x1, .f32⟩ : BufTy).Contents (Elt F) → (⟨S100000x63, .f32⟩ : BufTy).Contents (Elt F)),
    binary main_v29 main_v30 main_v31 (Host.divf : (⟨S100000x63, .f32⟩ : BufTy).Contents (Elt F) → (⟨S100000x63, .f32⟩ : BufTy).Contents (Elt F) → (⟨S100000x63, .f32⟩ : BufTy).Contents (Elt F)),
    unary main_v8 main_v32 ((extractStridedSlice S100000x1 ![0, 0] · slices_S100000x64_S100000x1_0_0) : (⟨S100000x64, .f32⟩ : BufTy).Contents (Elt F) → (⟨S100000x1, .f32⟩ : BufTy).Contents (Elt F)),
    nullary main_cst_7 (constant S_ .f32 0x00000000#32),
    unary main_cst_7 main_v33 (broadcastInDim S100000x1 ![] bcast_S_S100000x1 : (⟨S_, .f32⟩ : BufTy).Contents (Elt F) → (⟨S100000x1, .f32⟩ : BufTy).Contents (Elt F)) ]

/-- Operations 56–56 of @main's 187, in order; later operations read main_v34 of what they write. -/
abbrev opsA3 : List (HloOp τ sig (Elt F)) :=
  [ binary main_v33 main_v31 main_v34 ((fun a b => concatenate S100000x64 1 [⟨S100000x1, a⟩, ⟨S100000x63, b⟩] concatenates_S100000x1_S100000x63_S100000x64_d1) : (⟨S100000x1, .f32⟩ : BufTy).Contents (Elt F) → (⟨S100000x63, .f32⟩ : BufTy).Contents (Elt F) → (⟨S100000x64, .f32⟩ : BufTy).Contents (Elt F)) ]

/-- Operations 57–69 of @main's 187, in order; later operations read main_v42, main_v35 of what they write. -/
abbrev opsB1 : List (HloOp τ sig (Elt F)) :=
  [ unary main_arg1 main_v35 ((extractStridedSlice S50000x63 ![0, 1] · slices_S50000x64_S50000x63_0_1) : (⟨S50000x64, .f32⟩ : BufTy).Contents (Elt F) → (⟨S50000x63, .f32⟩ : BufTy).Contents (Elt F)),
    binary main_v35 main_v35 main_v36 (mulf : (⟨S50000x63, .f32⟩ : BufTy).Contents (Elt F) → (⟨S50000x63, .f32⟩ : BufTy).Contents (Elt F) → (⟨S50000x63, .f32⟩ : BufTy).Contents (Elt F)),
    nullary main_cst_8 (constant S_ .f32 0x00000000#32),
    binary main_v36 main_cst_8 main_v37 ((fun x v => Host.reduceAdd x v reducesTo_S50000x63_S50000_d1 h_S_) : (⟨S50000x63, .f32⟩ : BufTy).Contents (Elt F) → (⟨S_, .f32⟩ : BufTy).Contents (Elt F) → (⟨S50000, .f32⟩ : BufTy).Contents (Elt F)),
    unary main_v37 main_v38 (broadcastInDim S50000x1 ![0] bcast_S50000_S50000x1_0 : (⟨S50000, .f32⟩ : BufTy).Contents (Elt F) → (⟨S50000x1, .f32⟩ : BufTy).Contents (Elt F)),
    nullary main_cst_9 (constant S_ .f32 0x3F800000#32),
    unary main_cst_9 main_v39 (broadcastInDim S50000x1 ![] bcast_S_S50000x1 : (⟨S_, .f32⟩ : BufTy).Contents (Elt F) → (⟨S50000x1, .f32⟩ : BufTy).Contents (Elt F)),
    binary main_v39 main_v38 main_v40 (addf : (⟨S50000x1, .f32⟩ : BufTy).Contents (Elt F) → (⟨S50000x1, .f32⟩ : BufTy).Contents (Elt F) → (⟨S50000x1, .f32⟩ : BufTy).Contents (Elt F)),
    nullary main_cst_10 (constant S_ .f32 0x33D6BF95#32),
    TRef.unary (TRef.of (T := ⟨S_, .f32⟩) main_cst_10) (TRef.of (T := ⟨S_, .f32⟩) main_call5_v0) id,
    TRef.unary (TRef.of (T := ⟨S_, .f32⟩) main_call5_v0) (TRef.of (T := ⟨S50000x1, .f32⟩) main_call5_v1) (broadcastInDim S50000x1 ![] bcast_S_S50000x1),
    TRef.binary (TRef.of (T := ⟨S50000x1, .f32⟩) main_call5_v1) (TRef.of (T := ⟨S50000x1, .f32⟩) main_v40) (TRef.of (T := ⟨S50000x1, .f32⟩) main_v41) maximumf,
    unary main_v41 main_v42 (Host.sqrt : (⟨S50000x1, .f32⟩ : BufTy).Contents (Elt F) → (⟨S50000x1, .f32⟩ : BufTy).Contents (Elt F)) ]

/-- Operations 70–111 of @main's 187, in order; later operations read main_v68, main_v66 of what they write. -/
abbrev opsB2 : List (HloOp τ sig (Elt F)) :=
  [ binary main_v42 main_v35 main_v43 ((fun a b => concatenate S50000x64 1 [⟨S50000x1, a⟩, ⟨S50000x63, b⟩] concatenates_S50000x1_S50000x63_S50000x64_d1) : (⟨S50000x1, .f32⟩ : BufTy).Contents (Elt F) → (⟨S50000x63, .f32⟩ : BufTy).Contents (Elt F) → (⟨S50000x64, .f32⟩ : BufTy).Contents (Elt F)),
    nullary main_cst_11 (constant S_ .f32 0x3F800000#32),
    unary main_cst_11 main_v44 (Host.sqrt : (⟨S_, .f32⟩ : BufTy).Contents (Elt F) → (⟨S_, .f32⟩ : BufTy).Contents (Elt F)),
    unary main_v43 main_v45 ((extractStridedSlice S50000x63 ![0, 1] · slices_S50000x64_S50000x63_0_1) : (⟨S50000x64, .f32⟩ : BufTy).Contents (Elt F) → (⟨S50000x63, .f32⟩ : BufTy).Contents (Elt F)),
    TRef.binary (TRef.of (T := ⟨S50000x63, .f32⟩) main_v45) (TRef.of (T := ⟨S50000x63, .f32⟩) main_v45) (TRef.of (T := ⟨S50000x63, .f32⟩) main_call6_v0) mulf,
    TRef.nullary (TRef.of (T := ⟨S_, .f32⟩) main_call6_cst) (constant S_ .f32 0x00000000#32),
    TRef.binary (TRef.of (T := ⟨S50000x63, .f32⟩) main_call6_v0) (TRef.of (T := ⟨S_, .f32⟩) main_call6_cst) (TRef.of (T := ⟨S50000, .f32⟩) main_call6_v1) (fun x v => Host.reduceAdd x v reducesTo_S50000x63_S50000_d1 h_S_),
    TRef.unary (TRef.of (T := ⟨S50000, .f32⟩) main_call6_v1) (TRef.of (T := ⟨S50000x1, .f32⟩) main_call6_v2) (broadcastInDim S50000x1 ![0] bcast_S50000_S50000x1_0),
    TRef.unary (TRef.of (T := ⟨S50000x1, .f32⟩) main_call6_v2) (TRef.of (T := ⟨S50000x1, .f32⟩) main_v46) Host.sqrt,
    nullary main_cst_12 (constant S_ .f32 0x26901D7D#32),
    TRef.unary (TRef.of (T := ⟨S_, .f32⟩) main_cst_12) (TRef.of (T := ⟨S_, .f32⟩) main_call7_v0) id,
    TRef.unary (TRef.of (T := ⟨S_, .f32⟩) main_call7_v0) (TRef.of (T := ⟨S50000x1, .f32⟩) main_call7_v1) (broadcastInDim S50000x1 ![] bcast_S_S50000x1),
    TRef.binary (TRef.of (T := ⟨S50000x1, .f32⟩) main_call7_v1) (TRef.of (T := ⟨S50000x1, .f32⟩) main_v46) (TRef.of (T := ⟨S50000x1, .f32⟩) main_v47) maximumf,
    unary main_v43 main_v48 ((extractStridedSlice S50000x1 ![0, 0] · slices_S50000x64_S50000x1_0_0) : (⟨S50000x64, .f32⟩ : BufTy).Contents (Elt F) → (⟨S50000x1, .f32⟩ : BufTy).Contents (Elt F)),
    unary main_v44 main_v49 (id : (⟨S_, .f32⟩ : BufTy).Contents (Elt F) → (⟨S_, .f32⟩ : BufTy).Contents (Elt F)),
    unary main_v49 main_v50 (broadcastInDim S50000x1 ![] bcast_S_S50000x1 : (⟨S_, .f32⟩ : BufTy).Contents (Elt F) → (⟨S50000x1, .f32⟩ : BufTy).Contents (Elt F)),
    binary main_v48 main_v50 main_v51 (Host.divf : (⟨S50000x1, .f32⟩ : BufTy).Contents (Elt F) → (⟨S50000x1, .f32⟩ : BufTy).Contents (Elt F) → (⟨S50000x1, .f32⟩ : BufTy).Contents (Elt F)),
    nullary main_cst_13 (constant S_ .f32 0x3F800001#32),
    TRef.unary (TRef.of (T := ⟨S_, .f32⟩) main_cst_13) (TRef.of (T := ⟨S_, .f32⟩) main_call8_v0) id,
    TRef.unary (TRef.of (T := ⟨S_, .f32⟩) main_call8_v0) (TRef.of (T := ⟨S50000x1, .f32⟩) main_call8_v1) (broadcastInDim S50000x1 ![] bcast_S_S50000x1),
    TRef.binary (TRef.of (T := ⟨S50000x1, .f32⟩) main_call8_v1) (TRef.of (T := ⟨S50000x1, .f32⟩) main_v51) (TRef.of (T := ⟨S50000x1, .f32⟩) main_v52) maximumf,
    nullary main_cst_14 (constant S_ .f32 0x3F800001#32),
    TRef.unary (TRef.of (T := ⟨S_, .f32⟩) main_cst_14) (TRef.of (T := ⟨S_, .f32⟩) main_call9_v0) id,
    TRef.unary (TRef.of (T := ⟨S_, .f32⟩) main_call9_v0) (TRef.of (T := ⟨S50000x1, .f32⟩) main_call9_v1) (broadcastInDim S50000x1 ![] bcast_S_S50000x1),
    TRef.binary (TRef.of (T := ⟨S50000x1, .f32⟩) main_call9_v1) (TRef.of (T := ⟨S50000x1, .f32⟩) main_v52) (TRef.of (T := ⟨S50000x1, .f32⟩) main_v53) maximumf,
    binary main_v53 main_v53 main_v54 (mulf : (⟨S50000x1, .f32⟩ : BufTy).Contents (Elt F) → (⟨S50000x1, .f32⟩ : BufTy).Contents (Elt F) → (⟨S50000x1, .f32⟩ : BufTy).Contents (Elt F)),
    nullary main_cst_15 (constant S_ .f32 0x3F800000#32),
    unary main_cst_15 main_v55 (broadcastInDim S50000x1 ![] bcast_S_S50000x1 : (⟨S_, .f32⟩ : BufTy).Contents (Elt F) → (⟨S50000x1, .f32⟩ : BufTy).Contents (Elt F)),
    binary main_v54 main_v55 main_v56 (subf : (⟨S50000x1, .f32⟩ : BufTy).Contents (Elt F) → (⟨S50000x1, .f32⟩ : BufTy).Contents (Elt F) → (⟨S50000x1, .f32⟩ : BufTy).Contents (Elt F)),
    unary main_v56 main_v57 (Host.sqrt : (⟨S50000x1, .f32⟩ : BufTy).Contents (Elt F) → (⟨S50000x1, .f32⟩ : BufTy).Contents (Elt F)),
    binary main_v53 main_v57 main_v58 (addf : (⟨S50000x1, .f32⟩ : BufTy).Contents (Elt F) → (⟨S50000x1, .f32⟩ : BufTy).Contents (Elt F) → (⟨S50000x1, .f32⟩ : BufTy).Contents (Elt F)),
    unary main_v58 main_v59 (Host.log : (⟨S50000x1, .f32⟩ : BufTy).Contents (Elt F) → (⟨S50000x1, .f32⟩ : BufTy).Contents (Elt F)),
    unary main_v44 main_v60 (id : (⟨S_, .f32⟩ : BufTy).Contents (Elt F) → (⟨S_, .f32⟩ : BufTy).Contents (Elt F)),
    unary main_v60 main_v61 (broadcastInDim S50000x1 ![] bcast_S_S50000x1 : (⟨S_, .f32⟩ : BufTy).Contents (Elt F) → (⟨S50000x1, .f32⟩ : BufTy).Contents (Elt F)),
    binary main_v61 main_v59 main_v62 (mulf : (⟨S50000x1, .f32⟩ : BufTy).Contents (Elt F) → (⟨S50000x1, .f32⟩ : BufTy).Contents (Elt F) → (⟨S50000x1, .f32⟩ : BufTy).Contents (Elt F)),
    unary main_v62 main_v63 (broadcastInDim S50000x63 ![0, 1] bcast_S50000x1_S50000x63_0_1 : (⟨S50000x1, .f32⟩ : BufTy).Contents (Elt F) → (⟨S50000x63, .f32⟩ : BufTy).Contents (Elt F)),
    binary main_v63 main_v45 main_v64 (mulf : (⟨S50000x63, .f32⟩ : BufTy).Contents (Elt F) → (⟨S50000x63, .f32⟩ : BufTy).Contents (Elt F) → (⟨S50000x63, .f32⟩ : BufTy).Contents (Elt F)),
    unary main_v47 main_v65 (broadcastInDim S50000x63 ![0, 1] bcast_S50000x1_S50000x63_0_1 : (⟨S50000x1, .f32⟩ : BufTy).Contents (Elt F) → (⟨S50000x63, .f32⟩ : BufTy).Contents (Elt F)),
    binary main_v64 main_v65 main_v66 (Host.divf : (⟨S50000x63, .f32⟩ : BufTy).Contents (Elt F) → (⟨S50000x63, .f32⟩ : BufTy).Contents (Elt F) → (⟨S50000x63, .f32⟩ : BufTy).Contents (Elt F)),
    unary main_v43 main_v67 ((extractStridedSlice S50000x1 ![0, 0] · slices_S50000x64_S50000x1_0_0) : (⟨S50000x64, .f32⟩ : BufTy).Contents (Elt F) → (⟨S50000x1, .f32⟩ : BufTy).Contents (Elt F)),
    nullary main_cst_16 (constant S_ .f32 0x00000000#32),
    unary main_cst_16 main_v68 (broadcastInDim S50000x1 ![] bcast_S_S50000x1 : (⟨S_, .f32⟩ : BufTy).Contents (Elt F) → (⟨S50000x1, .f32⟩ : BufTy).Contents (Elt F)) ]

/-- Operations 112–112 of @main's 187, in order; later operations read main_v69 of what they write. -/
abbrev opsB3 : List (HloOp τ sig (Elt F)) :=
  [ binary main_v68 main_v66 main_v69 ((fun a b => concatenate S50000x64 1 [⟨S50000x1, a⟩, ⟨S50000x63, b⟩] concatenates_S50000x1_S50000x63_S50000x64_d1) : (⟨S50000x1, .f32⟩ : BufTy).Contents (Elt F) → (⟨S50000x63, .f32⟩ : BufTy).Contents (Elt F) → (⟨S50000x64, .f32⟩ : BufTy).Contents (Elt F)) ]

/-- Operations 113–168 of @main's 187, in order; later operations read main_v114, main_v115 of what they write. -/
abbrev opsC : List (HloOp τ sig (Elt F)) :=
  [ binary main_v34 main_v69 main_v70 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    nullary main_cst_17 (constant S_ .f32 0x00000000#32),
    unary main_cst_17 main_v71 (broadcastInDim S150000x64 ![] bcast_S_S150000x64 : (⟨S_, .f32⟩ : BufTy).Contents (Elt F) → (⟨S150000x64, .f32⟩ : BufTy).Contents (Elt F)),
    unary main_arg2 main_v72 (broadcastInDim S2000000x1 ![0] bcast_S2000000_S2000000x1_0 : (⟨S2000000, .f32⟩ : BufTy).Contents (Elt F) → (⟨S2000000x1, .f32⟩ : BufTy).Contents (Elt F)),
    nullary main_c (constantI S_ 32 0#32),
    unary main_c main_v73 (broadcastInDim S2000000 ![] bcast_S_S2000000 : (⟨S_, .i32⟩ : BufTy).Contents (Elt F) → (⟨S2000000, .i32⟩ : BufTy).Contents (Elt F)),
    binary main_arg4 main_v73 main_v74 (cmpi .slt : (⟨S2000000, .i32⟩ : BufTy).Contents (Elt F) → (⟨S2000000, .i32⟩ : BufTy).Contents (Elt F) → (⟨S2000000, .i1⟩ : BufTy).Contents (Elt F)),
    nullary main_c_18 (constantI S_ 32 150000#32),
    unary main_c_18 main_v75 (broadcastInDim S2000000 ![] bcast_S_S2000000 : (⟨S_, .i32⟩ : BufTy).Contents (Elt F) → (⟨S2000000, .i32⟩ : BufTy).Contents (Elt F)),
    binary main_arg4 main_v75 main_v76 (addi : (⟨S2000000, .i32⟩ : BufTy).Contents (Elt F) → (⟨S2000000, .i32⟩ : BufTy).Contents (Elt F) → (⟨S2000000, .i32⟩ : BufTy).Contents (Elt F)),
    ternary main_v74 main_v76 main_arg4 main_v77 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v77 main_v78 (broadcastInDim S2000000x1 ![0] bcast_S2000000_S2000000x1_0 : (⟨S2000000, .i32⟩ : BufTy).Contents (Elt F) → (⟨S2000000x1, .i32⟩ : BufTy).Contents (Elt F)),
    binary main_v70 main_v78 main_v79 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    unary main_v72 main_v80 (broadcastInDim S2000000x64 ![0, 1] bcast_S2000000x1_S2000000x64_0_1 : (⟨S2000000x1, .f32⟩ : BufTy).Contents (Elt F) → (⟨S2000000x64, .f32⟩ : BufTy).Contents (Elt F)),
    binary main_v80 main_v79 main_v81 (mulf : (⟨S2000000x64, .f32⟩ : BufTy).Contents (Elt F) → (⟨S2000000x64, .f32⟩ : BufTy).Contents (Elt F) → (⟨S2000000x64, .f32⟩ : BufTy).Contents (Elt F)),
    nullary main_cst_19 (constant S_ .f32 0x00000000#32),
    unary main_cst_19 main_v82 (broadcastInDim S150000x64 ![] bcast_S_S150000x64 : (⟨S_, .f32⟩ : BufTy).Contents (Elt F) → (⟨S150000x64, .f32⟩ : BufTy).Contents (Elt F)),
    unary main_arg3 main_v83 (broadcastInDim S2000000x1 ![0] bcast_S2000000_S2000000x1_0 : (⟨S2000000, .i32⟩ : BufTy).Contents (Elt F) → (⟨S2000000x1, .i32⟩ : BufTy).Contents (Elt F)),
    ternary main_v82 main_v83 main_v81 main_v84 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    binary main_v71 main_v84 main_v85 (addf : (⟨S150000x64, .f32⟩ : BufTy).Contents (Elt F) → (⟨S150000x64, .f32⟩ : BufTy).Contents (Elt F) → (⟨S150000x64, .f32⟩ : BufTy).Contents (Elt F)),
    unary main_arg2 main_v86 (broadcastInDim S2000000x1 ![0] bcast_S2000000_S2000000x1_0 : (⟨S2000000, .f32⟩ : BufTy).Contents (Elt F) → (⟨S2000000x1, .f32⟩ : BufTy).Contents (Elt F)),
    nullary main_c_20 (constantI S_ 32 0#32),
    unary main_c_20 main_v87 (broadcastInDim S2000000 ![] bcast_S_S2000000 : (⟨S_, .i32⟩ : BufTy).Contents (Elt F) → (⟨S2000000, .i32⟩ : BufTy).Contents (Elt F)),
    binary main_arg4 main_v87 main_v88 (cmpi .slt : (⟨S2000000, .i32⟩ : BufTy).Contents (Elt F) → (⟨S2000000, .i32⟩ : BufTy).Contents (Elt F) → (⟨S2000000, .i1⟩ : BufTy).Contents (Elt F)),
    nullary main_c_21 (constantI S_ 32 150000#32),
    unary main_c_21 main_v89 (broadcastInDim S2000000 ![] bcast_S_S2000000 : (⟨S_, .i32⟩ : BufTy).Contents (Elt F) → (⟨S2000000, .i32⟩ : BufTy).Contents (Elt F)),
    binary main_arg4 main_v89 main_v90 (addi : (⟨S2000000, .i32⟩ : BufTy).Contents (Elt F) → (⟨S2000000, .i32⟩ : BufTy).Contents (Elt F) → (⟨S2000000, .i32⟩ : BufTy).Contents (Elt F)),
    ternary main_v88 main_v90 main_arg4 main_v91 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v91 main_v92 (broadcastInDim S2000000x1 ![0] bcast_S2000000_S2000000x1_0 : (⟨S2000000, .i32⟩ : BufTy).Contents (Elt F) → (⟨S2000000x1, .i32⟩ : BufTy).Contents (Elt F)),
    binary main_v84 main_v92 main_v93 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    unary main_v86 main_v94 (broadcastInDim S2000000x64 ![0, 1] bcast_S2000000x1_S2000000x64_0_1 : (⟨S2000000x1, .f32⟩ : BufTy).Contents (Elt F) → (⟨S2000000x64, .f32⟩ : BufTy).Contents (Elt F)),
    binary main_v94 main_v93 main_v95 (mulf : (⟨S2000000x64, .f32⟩ : BufTy).Contents (Elt F) → (⟨S2000000x64, .f32⟩ : BufTy).Contents (Elt F) → (⟨S2000000x64, .f32⟩ : BufTy).Contents (Elt F)),
    nullary main_cst_22 (constant S_ .f32 0x00000000#32),
    unary main_cst_22 main_v96 (broadcastInDim S150000x64 ![] bcast_S_S150000x64 : (⟨S_, .f32⟩ : BufTy).Contents (Elt F) → (⟨S150000x64, .f32⟩ : BufTy).Contents (Elt F)),
    unary main_arg3 main_v97 (broadcastInDim S2000000x1 ![0] bcast_S2000000_S2000000x1_0 : (⟨S2000000, .i32⟩ : BufTy).Contents (Elt F) → (⟨S2000000x1, .i32⟩ : BufTy).Contents (Elt F)),
    ternary main_v96 main_v97 main_v95 main_v98 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    binary main_v85 main_v98 main_v99 (addf : (⟨S150000x64, .f32⟩ : BufTy).Contents (Elt F) → (⟨S150000x64, .f32⟩ : BufTy).Contents (Elt F) → (⟨S150000x64, .f32⟩ : BufTy).Contents (Elt F)),
    unary main_arg2 main_v100 (broadcastInDim S2000000x1 ![0] bcast_S2000000_S2000000x1_0 : (⟨S2000000, .f32⟩ : BufTy).Contents (Elt F) → (⟨S2000000x1, .f32⟩ : BufTy).Contents (Elt F)),
    nullary main_c_23 (constantI S_ 32 0#32),
    unary main_c_23 main_v101 (broadcastInDim S2000000 ![] bcast_S_S2000000 : (⟨S_, .i32⟩ : BufTy).Contents (Elt F) → (⟨S2000000, .i32⟩ : BufTy).Contents (Elt F)),
    binary main_arg4 main_v101 main_v102 (cmpi .slt : (⟨S2000000, .i32⟩ : BufTy).Contents (Elt F) → (⟨S2000000, .i32⟩ : BufTy).Contents (Elt F) → (⟨S2000000, .i1⟩ : BufTy).Contents (Elt F)),
    nullary main_c_24 (constantI S_ 32 150000#32),
    unary main_c_24 main_v103 (broadcastInDim S2000000 ![] bcast_S_S2000000 : (⟨S_, .i32⟩ : BufTy).Contents (Elt F) → (⟨S2000000, .i32⟩ : BufTy).Contents (Elt F)),
    binary main_arg4 main_v103 main_v104 (addi : (⟨S2000000, .i32⟩ : BufTy).Contents (Elt F) → (⟨S2000000, .i32⟩ : BufTy).Contents (Elt F) → (⟨S2000000, .i32⟩ : BufTy).Contents (Elt F)),
    ternary main_v102 main_v104 main_arg4 main_v105 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v105 main_v106 (broadcastInDim S2000000x1 ![0] bcast_S2000000_S2000000x1_0 : (⟨S2000000, .i32⟩ : BufTy).Contents (Elt F) → (⟨S2000000x1, .i32⟩ : BufTy).Contents (Elt F)),
    binary main_v98 main_v106 main_v107 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    unary main_v100 main_v108 (broadcastInDim S2000000x64 ![0, 1] bcast_S2000000x1_S2000000x64_0_1 : (⟨S2000000x1, .f32⟩ : BufTy).Contents (Elt F) → (⟨S2000000x64, .f32⟩ : BufTy).Contents (Elt F)),
    binary main_v108 main_v107 main_v109 (mulf : (⟨S2000000x64, .f32⟩ : BufTy).Contents (Elt F) → (⟨S2000000x64, .f32⟩ : BufTy).Contents (Elt F) → (⟨S2000000x64, .f32⟩ : BufTy).Contents (Elt F)),
    nullary main_cst_25 (constant S_ .f32 0x00000000#32),
    unary main_cst_25 main_v110 (broadcastInDim S150000x64 ![] bcast_S_S150000x64 : (⟨S_, .f32⟩ : BufTy).Contents (Elt F) → (⟨S150000x64, .f32⟩ : BufTy).Contents (Elt F)),
    unary main_arg3 main_v111 (broadcastInDim S2000000x1 ![0] bcast_S2000000_S2000000x1_0 : (⟨S2000000, .i32⟩ : BufTy).Contents (Elt F) → (⟨S2000000x1, .i32⟩ : BufTy).Contents (Elt F)),
    ternary main_v110 main_v111 main_v109 main_v112 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    binary main_v99 main_v112 main_v113 (addf : (⟨S150000x64, .f32⟩ : BufTy).Contents (Elt F) → (⟨S150000x64, .f32⟩ : BufTy).Contents (Elt F) → (⟨S150000x64, .f32⟩ : BufTy).Contents (Elt F)),
    unary main_v113 main_v114 ((extractStridedSlice S100000x64 ![0, 0] · slices_S150000x64_S100000x64_0_0) : (⟨S150000x64, .f32⟩ : BufTy).Contents (Elt F) → (⟨S100000x64, .f32⟩ : BufTy).Contents (Elt F)),
    unary main_v113 main_v115 ((extractStridedSlice S50000x64 ![100000, 0] · slices_S150000x64_S50000x64_100000_0) : (⟨S150000x64, .f32⟩ : BufTy).Contents (Elt F) → (⟨S50000x64, .f32⟩ : BufTy).Contents (Elt F)) ]

/-- Operations 169–186 of @main's 187, in order; later operations read main_v122, main_v129 of what they write. -/
abbrev opsD1 : List (HloOp τ sig (Elt F)) :=
  [ nullary main_c_26 (constantI S_ 32 0#32),
    unary main_c_26 main_v116 (broadcastInDim S2048 ![] bcast_S_S2048 : (⟨S_, .i32⟩ : BufTy).Contents (Elt F) → (⟨S2048, .i32⟩ : BufTy).Contents (Elt F)),
    binary main_arg5 main_v116 main_v117 (cmpi .slt : (⟨S2048, .i32⟩ : BufTy).Contents (Elt F) → (⟨S2048, .i32⟩ : BufTy).Contents (Elt F) → (⟨S2048, .i1⟩ : BufTy).Contents (Elt F)),
    nullary main_c_27 (constantI S_ 32 100000#32),
    unary main_c_27 main_v118 (broadcastInDim S2048 ![] bcast_S_S2048 : (⟨S_, .i32⟩ : BufTy).Contents (Elt F) → (⟨S2048, .i32⟩ : BufTy).Contents (Elt F)),
    binary main_arg5 main_v118 main_v119 (addi : (⟨S2048, .i32⟩ : BufTy).Contents (Elt F) → (⟨S2048, .i32⟩ : BufTy).Contents (Elt F) → (⟨S2048, .i32⟩ : BufTy).Contents (Elt F)),
    ternary main_v117 main_v119 main_arg5 main_v120 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v120 main_v121 (broadcastInDim S2048x1 ![0] bcast_S2048_S2048x1_0 : (⟨S2048, .i32⟩ : BufTy).Contents (Elt F) → (⟨S2048x1, .i32⟩ : BufTy).Contents (Elt F)),
    binary main_v114 main_v121 main_v122 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)),
    nullary main_c_28 (constantI S_ 32 0#32),
    unary main_c_28 main_v123 (broadcastInDim S2048 ![] bcast_S_S2048 : (⟨S_, .i32⟩ : BufTy).Contents (Elt F) → (⟨S2048, .i32⟩ : BufTy).Contents (Elt F)),
    binary main_arg6 main_v123 main_v124 (cmpi .slt : (⟨S2048, .i32⟩ : BufTy).Contents (Elt F) → (⟨S2048, .i32⟩ : BufTy).Contents (Elt F) → (⟨S2048, .i1⟩ : BufTy).Contents (Elt F)),
    nullary main_c_29 (constantI S_ 32 50000#32),
    unary main_c_29 main_v125 (broadcastInDim S2048 ![] bcast_S_S2048 : (⟨S_, .i32⟩ : BufTy).Contents (Elt F) → (⟨S2048, .i32⟩ : BufTy).Contents (Elt F)),
    binary main_arg6 main_v125 main_v126 (addi : (⟨S2048, .i32⟩ : BufTy).Contents (Elt F) → (⟨S2048, .i32⟩ : BufTy).Contents (Elt F) → (⟨S2048, .i32⟩ : BufTy).Contents (Elt F)),
    ternary main_v124 main_v126 main_arg6 main_v127 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v127 main_v128 (broadcastInDim S2048x1 ![0] bcast_S2048_S2048x1_0 : (⟨S2048, .i32⟩ : BufTy).Contents (Elt F) → (⟨S2048x1, .i32⟩ : BufTy).Contents (Elt F)),
    binary main_v115 main_v128 main_v129 ((fun x i => Host.gather gather_S50000x64_S2048x1_S2048x64_1_0_n_n_0_1_164 x i) : (⟨S50000x64, .f32⟩ : BufTy).Contents (Elt F) → (⟨S2048x1, .i32⟩ : BufTy).Contents (Elt F) → (⟨S2048x64, .f32⟩ : BufTy).Contents (Elt F)) ]

/-- Operations 187–187 of @main's 187, in order; the last writes the result main_v130. -/
abbrev opsD2 : List (HloOp τ sig (Elt F)) :=
  [ nary ![main_v122, main_v129, main_v115] main_v130 (fun u => concatenate S54096x64 0 [⟨S2048x64, u 0⟩, ⟨S2048x64, u 1⟩, ⟨S50000x64, u 2⟩] concatenates_S2048x64_S2048x64_S50000x64_S54096x64_d0) ]

/-! ## Per piece: its buffers, its writes, what it keeps -/

theorem opsA1_sub : (opsA1 : List (HloOp τ sig (Elt F))).Forall fun op => op.bufs ⊆ tcRefs τ sig :=
  ⟨unary_bufs_sub .., binary_bufs_sub .., nullary_bufs_sub .., binary_bufs_sub .., unary_bufs_sub .., nullary_bufs_sub .., unary_bufs_sub .., binary_bufs_sub .., nullary_bufs_sub .., unary_bufs_sub .., unary_bufs_sub .., binary_bufs_sub .., unary_bufs_sub ..⟩
theorem opsA1_fresh : ∀ op ∈ (opsA1 : List (HloOp τ sig (Elt F))), op.fresh = ∅ := by
  intro _ h; (repeat (cases h with | head => rfl | tail _ h => ?_)); exact nomatch h
/-- The references opsA1 writes. -/
abbrev opsA1_W : List (Ref sig .tc) := [main_v0, main_v1, main_cst, main_v2, main_v3, main_cst_0, main_v4, main_v5, main_cst_1, main_call0_v0, main_call0_v1, main_v6, main_v7]
theorem opsA1_writes : (opsA1 : List (HloOp τ sig (Elt F))).Forall fun op => op.writes ⊆ (opsA1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- opsA1 leaves a reference it does not write as it was. -/
theorem opsA1_keep (V : Valuation τ sig (Elt F)) (r : Ref sig .tc) (hr : r ∉ opsA1_W) :
    after opsA1 V (Proc.devRef .tc r) = V (Proc.devRef .tc r) := after_of_writes_sub opsA1 V opsA1_writes hr

theorem opsA2_sub : (opsA2 : List (HloOp τ sig (Elt F))).Forall fun op => op.bufs ⊆ tcRefs τ sig :=
  ⟨binary_bufs_sub .., nullary_bufs_sub .., unary_bufs_sub .., unary_bufs_sub .., binary_bufs_sub .., nullary_bufs_sub .., binary_bufs_sub .., unary_bufs_sub .., unary_bufs_sub .., nullary_bufs_sub .., unary_bufs_sub .., unary_bufs_sub .., binary_bufs_sub .., unary_bufs_sub .., unary_bufs_sub .., unary_bufs_sub .., binary_bufs_sub .., nullary_bufs_sub .., unary_bufs_sub .., unary_bufs_sub .., binary_bufs_sub .., nullary_bufs_sub .., unary_bufs_sub .., unary_bufs_sub .., binary_bufs_sub .., binary_bufs_sub .., nullary_bufs_sub .., unary_bufs_sub .., binary_bufs_sub .., unary_bufs_sub .., binary_bufs_sub .., unary_bufs_sub .., unary_bufs_sub .., unary_bufs_sub .., binary_bufs_sub .., unary_bufs_sub .., binary_bufs_sub .., unary_bufs_sub .., binary_bufs_sub .., unary_bufs_sub .., nullary_bufs_sub .., unary_bufs_sub ..⟩
theorem opsA2_fresh : ∀ op ∈ (opsA2 : List (HloOp τ sig (Elt F))), op.fresh = ∅ := by
  intro _ h; (repeat (cases h with | head => rfl | tail _ h => ?_)); exact nomatch h
/-- The references opsA2 writes. -/
abbrev opsA2_W : List (Ref sig .tc) := [main_v8, main_cst_2, main_v9, main_v10, main_call1_v0, main_call1_cst, main_call1_v1, main_call1_v2, main_v11, main_cst_3, main_call2_v0, main_call2_v1, main_v12, main_v13, main_v14, main_v15, main_v16, main_cst_4, main_call3_v0, main_call3_v1, main_v17, main_cst_5, main_call4_v0, main_call4_v1, main_v18, main_v19, main_cst_6, main_v20, main_v21, main_v22, main_v23, main_v24, main_v25, main_v26, main_v27, main_v28, main_v29, main_v30, main_v31, main_v32, main_cst_7, main_v33]
theorem opsA2_writes : (opsA2 : List (HloOp τ sig (Elt F))).Forall fun op => op.writes ⊆ (opsA2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- opsA2 leaves a reference it does not write as it was. -/
theorem opsA2_keep (V : Valuation τ sig (Elt F)) (r : Ref sig .tc) (hr : r ∉ opsA2_W) :
    after opsA2 V (Proc.devRef .tc r) = V (Proc.devRef .tc r) := after_of_writes_sub opsA2 V opsA2_writes hr

theorem opsA3_sub : (opsA3 : List (HloOp τ sig (Elt F))).Forall fun op => op.bufs ⊆ tcRefs τ sig :=
  binary_bufs_sub ..
theorem opsA3_fresh : ∀ op ∈ (opsA3 : List (HloOp τ sig (Elt F))), op.fresh = ∅ := by
  intro _ h; (repeat (cases h with | head => rfl | tail _ h => ?_)); exact nomatch h
/-- The references opsA3 writes. -/
abbrev opsA3_W : List (Ref sig .tc) := [main_v34]
theorem opsA3_writes : (opsA3 : List (HloOp τ sig (Elt F))).Forall fun op => op.writes ⊆ (opsA3_W.map (Proc.devRef (τ := τ) .tc)).toFinset :=
  Finset.singleton_subset_iff.mpr (List.mem_toFinset.mpr (List.mem_map_of_mem (by decide)))
/-- opsA3 leaves a reference it does not write as it was. -/
theorem opsA3_keep (V : Valuation τ sig (Elt F)) (r : Ref sig .tc) (hr : r ∉ opsA3_W) :
    after opsA3 V (Proc.devRef .tc r) = V (Proc.devRef .tc r) := after_of_writes_sub opsA3 V opsA3_writes hr

theorem opsB1_sub : (opsB1 : List (HloOp τ sig (Elt F))).Forall fun op => op.bufs ⊆ tcRefs τ sig :=
  ⟨unary_bufs_sub .., binary_bufs_sub .., nullary_bufs_sub .., binary_bufs_sub .., unary_bufs_sub .., nullary_bufs_sub .., unary_bufs_sub .., binary_bufs_sub .., nullary_bufs_sub .., unary_bufs_sub .., unary_bufs_sub .., binary_bufs_sub .., unary_bufs_sub ..⟩
theorem opsB1_fresh : ∀ op ∈ (opsB1 : List (HloOp τ sig (Elt F))), op.fresh = ∅ := by
  intro _ h; (repeat (cases h with | head => rfl | tail _ h => ?_)); exact nomatch h
/-- The references opsB1 writes. -/
abbrev opsB1_W : List (Ref sig .tc) := [main_v35, main_v36, main_cst_8, main_v37, main_v38, main_cst_9, main_v39, main_v40, main_cst_10, main_call5_v0, main_call5_v1, main_v41, main_v42]
theorem opsB1_writes : (opsB1 : List (HloOp τ sig (Elt F))).Forall fun op => op.writes ⊆ (opsB1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- opsB1 leaves a reference it does not write as it was. -/
theorem opsB1_keep (V : Valuation τ sig (Elt F)) (r : Ref sig .tc) (hr : r ∉ opsB1_W) :
    after opsB1 V (Proc.devRef .tc r) = V (Proc.devRef .tc r) := after_of_writes_sub opsB1 V opsB1_writes hr

theorem opsB2_sub : (opsB2 : List (HloOp τ sig (Elt F))).Forall fun op => op.bufs ⊆ tcRefs τ sig :=
  ⟨binary_bufs_sub .., nullary_bufs_sub .., unary_bufs_sub .., unary_bufs_sub .., binary_bufs_sub .., nullary_bufs_sub .., binary_bufs_sub .., unary_bufs_sub .., unary_bufs_sub .., nullary_bufs_sub .., unary_bufs_sub .., unary_bufs_sub .., binary_bufs_sub .., unary_bufs_sub .., unary_bufs_sub .., unary_bufs_sub .., binary_bufs_sub .., nullary_bufs_sub .., unary_bufs_sub .., unary_bufs_sub .., binary_bufs_sub .., nullary_bufs_sub .., unary_bufs_sub .., unary_bufs_sub .., binary_bufs_sub .., binary_bufs_sub .., nullary_bufs_sub .., unary_bufs_sub .., binary_bufs_sub .., unary_bufs_sub .., binary_bufs_sub .., unary_bufs_sub .., unary_bufs_sub .., unary_bufs_sub .., binary_bufs_sub .., unary_bufs_sub .., binary_bufs_sub .., unary_bufs_sub .., binary_bufs_sub .., unary_bufs_sub .., nullary_bufs_sub .., unary_bufs_sub ..⟩
theorem opsB2_fresh : ∀ op ∈ (opsB2 : List (HloOp τ sig (Elt F))), op.fresh = ∅ := by
  intro _ h; (repeat (cases h with | head => rfl | tail _ h => ?_)); exact nomatch h
/-- The references opsB2 writes. -/
abbrev opsB2_W : List (Ref sig .tc) := [main_v43, main_cst_11, main_v44, main_v45, main_call6_v0, main_call6_cst, main_call6_v1, main_call6_v2, main_v46, main_cst_12, main_call7_v0, main_call7_v1, main_v47, main_v48, main_v49, main_v50, main_v51, main_cst_13, main_call8_v0, main_call8_v1, main_v52, main_cst_14, main_call9_v0, main_call9_v1, main_v53, main_v54, main_cst_15, main_v55, main_v56, main_v57, main_v58, main_v59, main_v60, main_v61, main_v62, main_v63, main_v64, main_v65, main_v66, main_v67, main_cst_16, main_v68]
theorem opsB2_writes : (opsB2 : List (HloOp τ sig (Elt F))).Forall fun op => op.writes ⊆ (opsB2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- opsB2 leaves a reference it does not write as it was. -/
theorem opsB2_keep (V : Valuation τ sig (Elt F)) (r : Ref sig .tc) (hr : r ∉ opsB2_W) :
    after opsB2 V (Proc.devRef .tc r) = V (Proc.devRef .tc r) := after_of_writes_sub opsB2 V opsB2_writes hr

theorem opsB3_sub : (opsB3 : List (HloOp τ sig (Elt F))).Forall fun op => op.bufs ⊆ tcRefs τ sig :=
  binary_bufs_sub ..
theorem opsB3_fresh : ∀ op ∈ (opsB3 : List (HloOp τ sig (Elt F))), op.fresh = ∅ := by
  intro _ h; (repeat (cases h with | head => rfl | tail _ h => ?_)); exact nomatch h
/-- The references opsB3 writes. -/
abbrev opsB3_W : List (Ref sig .tc) := [main_v69]
theorem opsB3_writes : (opsB3 : List (HloOp τ sig (Elt F))).Forall fun op => op.writes ⊆ (opsB3_W.map (Proc.devRef (τ := τ) .tc)).toFinset :=
  Finset.singleton_subset_iff.mpr (List.mem_toFinset.mpr (List.mem_map_of_mem (by decide)))
/-- opsB3 leaves a reference it does not write as it was. -/
theorem opsB3_keep (V : Valuation τ sig (Elt F)) (r : Ref sig .tc) (hr : r ∉ opsB3_W) :
    after opsB3 V (Proc.devRef .tc r) = V (Proc.devRef .tc r) := after_of_writes_sub opsB3 V opsB3_writes hr

theorem opsC_sub : (opsC : List (HloOp τ sig (Elt F))).Forall fun op => op.bufs ⊆ tcRefs τ sig :=
  ⟨binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub ..⟩
theorem opsC_fresh : ∀ op ∈ (opsC : List (HloOp τ sig (Elt F))), op.fresh = ∅ := by
  intro _ h; (repeat (cases h with | head => rfl | tail _ h => ?_)); exact nomatch h
/-- The references opsC writes. -/
abbrev opsC_W : List (Ref sig .tc) := [main_v70, main_cst_17, main_v71, main_v72, main_c, main_v73, main_v74, main_c_18, main_v75, main_v76, main_v77, main_v78, main_v79, main_v80, main_v81, main_cst_19, main_v82, main_v83, main_v84, main_v85, main_v86, main_c_20, main_v87, main_v88, main_c_21, main_v89, main_v90, main_v91, main_v92, main_v93, main_v94, main_v95, main_cst_22, main_v96, main_v97, main_v98, main_v99, main_v100, main_c_23, main_v101, main_v102, main_c_24, main_v103, main_v104, main_v105, main_v106, main_v107, main_v108, main_v109, main_cst_25, main_v110, main_v111, main_v112, main_v113, main_v114, main_v115]
theorem opsC_writes : (opsC : List (HloOp τ sig (Elt F))).Forall fun op => op.writes ⊆ (opsC_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- opsC leaves a reference it does not write as it was. -/
theorem opsC_keep (V : Valuation τ sig (Elt F)) (r : Ref sig .tc) (hr : r ∉ opsC_W) :
    after opsC V (Proc.devRef .tc r) = V (Proc.devRef .tc r) := after_of_writes_sub opsC V opsC_writes hr

theorem opsD1_sub : (opsD1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsD1_fresh : ∀ op ∈ (opsD1 : List (HloOp τ sig (Elt F))), op.fresh = ∅ := by
  intro _ h; (repeat (cases h with | head => rfl | tail _ h => ?_)); exact nomatch h
/-- The references opsD1 writes. -/
abbrev opsD1_W : List (Ref sig .tc) := [main_c_26, main_v116, main_v117, main_c_27, main_v118, main_v119, main_v120, main_v121, main_v122, main_c_28, main_v123, main_v124, main_c_29, main_v125, main_v126, main_v127, main_v128, main_v129]
theorem opsD1_writes : (opsD1 : List (HloOp τ sig (Elt F))).Forall fun op => op.writes ⊆ (opsD1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- opsD1 leaves a reference it does not write as it was. -/
theorem opsD1_keep (V : Valuation τ sig (Elt F)) (r : Ref sig .tc) (hr : r ∉ opsD1_W) :
    after opsD1 V (Proc.devRef .tc r) = V (Proc.devRef .tc r) := after_of_writes_sub opsD1 V opsD1_writes hr

theorem opsD2_sub : (opsD2 : List (HloOp τ sig (Elt F))).Forall fun op => op.bufs ⊆ tcRefs τ sig :=
  nary_bufs_sub ..
theorem opsD2_fresh : ∀ op ∈ (opsD2 : List (HloOp τ sig (Elt F))), op.fresh = ∅ := by
  intro _ h; (repeat (cases h with | head => rfl | tail _ h => ?_)); exact nomatch h
/-- The references opsD2 writes. -/
abbrev opsD2_W : List (Ref sig .tc) := [main_v130]
theorem opsD2_writes : (opsD2 : List (HloOp τ sig (Elt F))).Forall fun op => op.writes ⊆ (opsD2_W.map (Proc.devRef (τ := τ) .tc)).toFinset :=
  Finset.singleton_subset_iff.mpr (List.mem_toFinset.mpr (List.mem_map_of_mem (by decide)))
/-- opsD2 leaves a reference it does not write as it was. -/
theorem opsD2_keep (V : Valuation τ sig (Elt F)) (r : Ref sig .tc) (hr : r ∉ opsD2_W) :
    after opsD2 V (Proc.devRef .tc r) = V (Proc.devRef .tc r) := after_of_writes_sub opsD2 V opsD2_writes hr

/-! ## The run as a fold, and the fold piece by piece -/

/-- The whole line: the nine pieces in order. -/
abbrev opsAll : List (HloOp τ sig (Elt F)) := opsA1 ++ opsA2 ++ opsA3 ++ opsB1 ++ opsB2 ++ opsB3 ++ opsC ++ opsD1 ++ opsD2

set_option maxRecDepth 8192 in
set_option maxHeartbeats 4000000 in
theorem main_eq (c : Dev nD) : main (F := F) c = seq opsAll := rfl
theorem scopedRefs_eq : (Finset.univ.filter fun b : Ref sig .tc => b.isScoped) = ∅ := by decide
theorem scopedSems_eq : (Finset.univ.filter fun sm : SemLoc sig => sm.isScoped .tc) = ∅ := by decide

theorem forall_app {α : Type} {p : α → Prop} {l₁ l₂ : List α} (h₁ : l₁.Forall p) (h₂ : l₂.Forall p) : (l₁ ++ l₂).Forall p :=
  List.forall_append.mpr ⟨h₁, h₂⟩
theorem mem_app {α : Type} {p : α → Prop} {l₁ l₂ : List α} (h₁ : ∀ a ∈ l₁, p a) (h₂ : ∀ a ∈ l₂, p a) : ∀ a ∈ l₁ ++ l₂, p a :=
  fun a h => (List.mem_append.mp h).elim (h₁ a) (h₂ a)

theorem opsAll_sub : (opsAll : List (HloOp τ sig (Elt F))).Forall fun op => op.bufs ⊆ tcRefs τ sig :=
  forall_app (forall_app (forall_app (forall_app (forall_app (forall_app (forall_app (forall_app (opsA1_sub) opsA2_sub) opsA3_sub) opsB1_sub) opsB2_sub) opsB3_sub) opsC_sub) opsD1_sub) opsD2_sub
theorem opsAll_fresh : ∀ op ∈ (opsAll : List (HloOp τ sig (Elt F))), op.fresh = ∅ :=
  mem_app (mem_app (mem_app (mem_app (mem_app (mem_app (mem_app (mem_app (opsA1_fresh) opsA2_fresh) opsA3_fresh) opsB1_fresh) opsB2_fresh) opsB3_fresh) opsC_fresh) opsD1_fresh) opsD2_fresh

/-- Every weakly fair execution of @main ends with each buffer at the fold of the operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

/-- The fold over the whole line is the folds over the pieces, one after the other. -/
theorem after_all (V : Valuation τ sig (Elt F)) :
    after opsAll V = after opsD2 (after opsD1 (after opsC (after opsB3 (after opsB2 (after opsB1 (after opsA3 (after opsA2 (after opsA1 V)))))))) := by
  simp only [opsAll, StableHlo.after_append]

/-! ## Per piece: what it writes that later pieces read -/

theorem opsA1_v7 (V : Valuation τ sig (Elt F)) (x0 : (⟨S100000x64, .f32⟩ : BufTy).Contents (Elt F))
    (h0 : V (Proc.devRef .tc main_arg0) = x0) :
    after opsA1 V (Proc.devRef .tc main_v7) = ReadP.val_main_v7 (F := F) x0 := by
  after_results_simp <;> (try rw [h0]) <;> rfl

theorem opsA1_v0 (V : Valuation τ sig (Elt F)) (x0 : (⟨S100000x64, .f32⟩ : BufTy).Contents (Elt F))
    (h0 : V (Proc.devRef .tc main_arg0) = x0) :
    after opsA1 V (Proc.devRef .tc main_v0) = ReadP.val_main_v0 (F := F) x0 := by
  after_results_simp <;> (try rw [h0]) <;> rfl

theorem opsA2_v33 (V : Valuation τ sig (Elt F)) (x0 : (⟨S100000x64, .f32⟩ : BufTy).Contents (Elt F))
    (h0 : V (Proc.devRef .tc main_v7) = ReadP.val_main_v7 (F := F) x0) (h1 : V (Proc.devRef .tc main_v0) = ReadP.val_main_v0 (F := F) x0) :
    after opsA2 V (Proc.devRef .tc main_v33) = ReadP.val_main_v33 (F := F) := by
  after_results_simp <;> (try rw [h0]) <;> (try rw [h1]) <;> rfl

theorem opsA2_v31 (V : Valuation τ sig (Elt F)) (x0 : (⟨S100000x64, .f32⟩ : BufTy).Contents (Elt F))
    (h0 : V (Proc.devRef .tc main_v7) = ReadP.val_main_v7 (F := F) x0) (h1 : V (Proc.devRef .tc main_v0) = ReadP.val_main_v0 (F := F) x0) :
    after opsA2 V (Proc.devRef .tc main_v31) = ReadP.val_main_v31 (F := F) x0 := by
  after_results_simp <;> (try rw [h0]) <;> (try rw [h1]) <;> rfl

theorem opsA3_v34 (V : Valuation τ sig (Elt F)) (x0 : (⟨S100000x64, .f32⟩ : BufTy).Contents (Elt F))
    (h0 : V (Proc.devRef .tc main_v33) = ReadP.val_main_v33 (F := F)) (h1 : V (Proc.devRef .tc main_v31) = ReadP.val_main_v31 (F := F) x0) :
    after opsA3 V (Proc.devRef .tc main_v34) = ReadP.val_main_v34 (F := F) x0 := by
  after_results_simp <;> (try rw [h0]) <;> (try rw [h1]) <;> rfl

theorem opsB1_v42 (V : Valuation τ sig (Elt F)) (x1 : (⟨S50000x64, .f32⟩ : BufTy).Contents (Elt F))
    (h0 : V (Proc.devRef .tc main_arg1) = x1) :
    after opsB1 V (Proc.devRef .tc main_v42) = ReadP.val_main_v42 (F := F) x1 := by
  after_results_simp <;> (try rw [h0]) <;> rfl

theorem opsB1_v35 (V : Valuation τ sig (Elt F)) (x1 : (⟨S50000x64, .f32⟩ : BufTy).Contents (Elt F))
    (h0 : V (Proc.devRef .tc main_arg1) = x1) :
    after opsB1 V (Proc.devRef .tc main_v35) = ReadP.val_main_v35 (F := F) x1 := by
  after_results_simp <;> (try rw [h0]) <;> rfl

theorem opsB2_v68 (V : Valuation τ sig (Elt F)) (x1 : (⟨S50000x64, .f32⟩ : BufTy).Contents (Elt F))
    (h0 : V (Proc.devRef .tc main_v42) = ReadP.val_main_v42 (F := F) x1) (h1 : V (Proc.devRef .tc main_v35) = ReadP.val_main_v35 (F := F) x1) :
    after opsB2 V (Proc.devRef .tc main_v68) = ReadP.val_main_v68 (F := F) := by
  after_results_simp <;> (try rw [h0]) <;> (try rw [h1]) <;> rfl

theorem opsB2_v66 (V : Valuation τ sig (Elt F)) (x1 : (⟨S50000x64, .f32⟩ : BufTy).Contents (Elt F))
    (h0 : V (Proc.devRef .tc main_v42) = ReadP.val_main_v42 (F := F) x1) (h1 : V (Proc.devRef .tc main_v35) = ReadP.val_main_v35 (F := F) x1) :
    after opsB2 V (Proc.devRef .tc main_v66) = ReadP.val_main_v66 (F := F) x1 := by
  after_results_simp <;> (try rw [h0]) <;> (try rw [h1]) <;> rfl

theorem opsB3_v69 (V : Valuation τ sig (Elt F)) (x1 : (⟨S50000x64, .f32⟩ : BufTy).Contents (Elt F))
    (h0 : V (Proc.devRef .tc main_v68) = ReadP.val_main_v68 (F := F)) (h1 : V (Proc.devRef .tc main_v66) = ReadP.val_main_v66 (F := F) x1) :
    after opsB3 V (Proc.devRef .tc main_v69) = ReadP.val_main_v69 (F := F) x1 := by
  after_results_simp <;> (try rw [h0]) <;> (try rw [h1]) <;> rfl

theorem opsC_v114 (V : Valuation τ sig (Elt F)) (x0 : (⟨S100000x64, .f32⟩ : BufTy).Contents (Elt F)) (x1 : (⟨S50000x64, .f32⟩ : BufTy).Contents (Elt F)) (x2 : (⟨S2000000, .f32⟩ : BufTy).Contents (Elt F)) (x3 : (⟨S2000000, .i32⟩ : BufTy).Contents (Elt F)) (x4 : (⟨S2000000, .i32⟩ : BufTy).Contents (Elt F))
    (h0 : V (Proc.devRef .tc main_v34) = ReadP.val_main_v34 (F := F) x0) (h1 : V (Proc.devRef .tc main_v69) = ReadP.val_main_v69 (F := F) x1) (h2 : V (Proc.devRef .tc main_arg2) = x2) (h3 : V (Proc.devRef .tc main_arg4) = x4) (h4 : V (Proc.devRef .tc main_arg3) = x3) :
    after opsC V (Proc.devRef .tc main_v114) = ReadP.val_main_v114 (F := F) x0 x1 x2 x3 x4 := by
  after_results_simp <;> (try rw [h0]) <;> (try rw [h1]) <;> (try rw [h2]) <;> (try rw [h3]) <;> (try rw [h4]) <;> rfl

theorem opsC_v115 (V : Valuation τ sig (Elt F)) (x0 : (⟨S100000x64, .f32⟩ : BufTy).Contents (Elt F)) (x1 : (⟨S50000x64, .f32⟩ : BufTy).Contents (Elt F)) (x2 : (⟨S2000000, .f32⟩ : BufTy).Contents (Elt F)) (x3 : (⟨S2000000, .i32⟩ : BufTy).Contents (Elt F)) (x4 : (⟨S2000000, .i32⟩ : BufTy).Contents (Elt F))
    (h0 : V (Proc.devRef .tc main_v34) = ReadP.val_main_v34 (F := F) x0) (h1 : V (Proc.devRef .tc main_v69) = ReadP.val_main_v69 (F := F) x1) (h2 : V (Proc.devRef .tc main_arg2) = x2) (h3 : V (Proc.devRef .tc main_arg4) = x4) (h4 : V (Proc.devRef .tc main_arg3) = x3) :
    after opsC V (Proc.devRef .tc main_v115) = ReadP.val_main_v115 (F := F) x0 x1 x2 x3 x4 := by
  after_results_simp <;> (try rw [h0]) <;> (try rw [h1]) <;> (try rw [h2]) <;> (try rw [h3]) <;> (try rw [h4]) <;> rfl

theorem opsD1_v122 (V : Valuation τ sig (Elt F)) (x0 : (⟨S100000x64, .f32⟩ : BufTy).Contents (Elt F)) (x1 : (⟨S50000x64, .f32⟩ : BufTy).Contents (Elt F)) (x2 : (⟨S2000000, .f32⟩ : BufTy).Contents (Elt F)) (x3 : (⟨S2000000, .i32⟩ : BufTy).Contents (Elt F)) (x4 : (⟨S2000000, .i32⟩ : BufTy).Contents (Elt F)) (x5 : (⟨S2048, .i32⟩ : BufTy).Contents (Elt F)) (x6 : (⟨S2048, .i32⟩ : BufTy).Contents (Elt F))
    (h0 : V (Proc.devRef .tc main_arg5) = x5) (h1 : V (Proc.devRef .tc main_v114) = ReadP.val_main_v114 (F := F) x0 x1 x2 x3 x4) (h2 : V (Proc.devRef .tc main_arg6) = x6) (h3 : V (Proc.devRef .tc main_v115) = ReadP.val_main_v115 (F := F) x0 x1 x2 x3 x4) :
    after opsD1 V (Proc.devRef .tc main_v122) = ReadP.val_main_v122 (F := F) x0 x1 x2 x3 x4 x5 := by
  after_results_simp <;> (try rw [h0]) <;> (try rw [h1]) <;> (try rw [h2]) <;> (try rw [h3]) <;> rfl

theorem opsD1_v129 (V : Valuation τ sig (Elt F)) (x0 : (⟨S100000x64, .f32⟩ : BufTy).Contents (Elt F)) (x1 : (⟨S50000x64, .f32⟩ : BufTy).Contents (Elt F)) (x2 : (⟨S2000000, .f32⟩ : BufTy).Contents (Elt F)) (x3 : (⟨S2000000, .i32⟩ : BufTy).Contents (Elt F)) (x4 : (⟨S2000000, .i32⟩ : BufTy).Contents (Elt F)) (x5 : (⟨S2048, .i32⟩ : BufTy).Contents (Elt F)) (x6 : (⟨S2048, .i32⟩ : BufTy).Contents (Elt F))
    (h0 : V (Proc.devRef .tc main_arg5) = x5) (h1 : V (Proc.devRef .tc main_v114) = ReadP.val_main_v114 (F := F) x0 x1 x2 x3 x4) (h2 : V (Proc.devRef .tc main_arg6) = x6) (h3 : V (Proc.devRef .tc main_v115) = ReadP.val_main_v115 (F := F) x0 x1 x2 x3 x4) :
    after opsD1 V (Proc.devRef .tc main_v129) = ReadP.val_main_v129 (F := F) x0 x1 x2 x3 x4 x6 := by
  after_results_simp <;> (try rw [h0]) <;> (try rw [h1]) <;> (try rw [h2]) <;> (try rw [h3]) <;> rfl

theorem opsD2_v130 (V : Valuation τ sig (Elt F)) (x0 : (⟨S100000x64, .f32⟩ : BufTy).Contents (Elt F)) (x1 : (⟨S50000x64, .f32⟩ : BufTy).Contents (Elt F)) (x2 : (⟨S2000000, .f32⟩ : BufTy).Contents (Elt F)) (x3 : (⟨S2000000, .i32⟩ : BufTy).Contents (Elt F)) (x4 : (⟨S2000000, .i32⟩ : BufTy).Contents (Elt F)) (x5 : (⟨S2048, .i32⟩ : BufTy).Contents (Elt F)) (x6 : (⟨S2048, .i32⟩ : BufTy).Contents (Elt F))
    (h0 : V (Proc.devRef .tc main_v122) = ReadP.val_main_v122 (F := F) x0 x1 x2 x3 x4 x5) (h1 : V (Proc.devRef .tc main_v129) = ReadP.val_main_v129 (F := F) x0 x1 x2 x3 x4 x6) (h2 : V (Proc.devRef .tc main_v115) = ReadP.val_main_v115 (F := F) x0 x1 x2 x3 x4) :
    after opsD2 V (Proc.devRef .tc main_v130) = ReadP.val_main_v130 (F := F) x0 x1 x2 x3 x4 x5 x6 := by
  after_results_simp
  show concatenate S54096x64 0 [⟨S2048x64, V (Proc.devRef .tc main_v122)⟩, ⟨S2048x64, V (Proc.devRef .tc main_v129)⟩,
    ⟨S50000x64, V (Proc.devRef .tc main_v115)⟩] concatenates_S2048x64_S2048x64_S50000x64_S54096x64_d0 = _
  rw [h0, h1, h2]
  rfl

/-! ## The pieces chained -/

/-- The result buffer after the whole line, from any contents `V` whose arguments are `x0 … x6`: the staged term of the
    arguments. Piece by piece: what a piece writes that later pieces read is the staged term, given that of what it reads;
    what it does not write it keeps. -/
theorem all_v130 (V : Valuation τ sig (Elt F)) (x0 : (⟨S100000x64, .f32⟩ : BufTy).Contents (Elt F)) (x1 : (⟨S50000x64, .f32⟩ : BufTy).Contents (Elt F)) (x2 : (⟨S2000000, .f32⟩ : BufTy).Contents (Elt F)) (x3 : (⟨S2000000, .i32⟩ : BufTy).Contents (Elt F)) (x4 : (⟨S2000000, .i32⟩ : BufTy).Contents (Elt F)) (x5 : (⟨S2048, .i32⟩ : BufTy).Contents (Elt F)) (x6 : (⟨S2048, .i32⟩ : BufTy).Contents (Elt F))
    (a0 : V (Proc.devRef .tc main_arg0) = x0) (a1 : V (Proc.devRef .tc main_arg1) = x1) (a2 : V (Proc.devRef .tc main_arg2) = x2) (a3 : V (Proc.devRef .tc main_arg3) = x3) (a4 : V (Proc.devRef .tc main_arg4) = x4) (a5 : V (Proc.devRef .tc main_arg5) = x5) (a6 : V (Proc.devRef .tc main_arg6) = x6) :
    after opsAll V (Proc.devRef .tc main_v130) = ReadP.val_main_v130 (F := F) x0 x1 x2 x3 x4 x5 x6 := by
  rw [after_all]
  have s1_v7 := opsA1_v7 V x0 a0
  have s1_v0 := opsA1_v0 V x0 a0
  have s1_arg1 := (opsA1_keep V main_arg1 (by decide)).trans a1
  have s1_arg2 := (opsA1_keep V main_arg2 (by decide)).trans a2
  have s1_arg4 := (opsA1_keep V main_arg4 (by decide)).trans a4
  have s1_arg3 := (opsA1_keep V main_arg3 (by decide)).trans a3
  have s1_arg5 := (opsA1_keep V main_arg5 (by decide)).trans a5
  have s1_arg6 := (opsA1_keep V main_arg6 (by decide)).trans a6
  have s2_v33 := opsA2_v33 (after opsA1 V) x0 s1_v7 s1_v0
  have s2_v31 := opsA2_v31 (after opsA1 V) x0 s1_v7 s1_v0
  have s2_arg1 := (opsA2_keep (after opsA1 V) main_arg1 (by decide)).trans s1_arg1
  have s2_arg2 := (opsA2_keep (after opsA1 V) main_arg2 (by decide)).trans s1_arg2
  have s2_arg4 := (opsA2_keep (after opsA1 V) main_arg4 (by decide)).trans s1_arg4
  have s2_arg3 := (opsA2_keep (after opsA1 V) main_arg3 (by decide)).trans s1_arg3
  have s2_arg5 := (opsA2_keep (after opsA1 V) main_arg5 (by decide)).trans s1_arg5
  have s2_arg6 := (opsA2_keep (after opsA1 V) main_arg6 (by decide)).trans s1_arg6
  have s3_v34 := opsA3_v34 (after opsA2 (after opsA1 V)) x0 s2_v33 s2_v31
  have s3_arg1 := (opsA3_keep (after opsA2 (after opsA1 V)) main_arg1 (by decide)).trans s2_arg1
  have s3_arg2 := (opsA3_keep (after opsA2 (after opsA1 V)) main_arg2 (by decide)).trans s2_arg2
  have s3_arg4 := (opsA3_keep (after opsA2 (after opsA1 V)) main_arg4 (by decide)).trans s2_arg4
  have s3_arg3 := (opsA3_keep (after opsA2 (after opsA1 V)) main_arg3 (by decide)).trans s2_arg3
  have s3_arg5 := (opsA3_keep (after opsA2 (after opsA1 V)) main_arg5 (by decide)).trans s2_arg5
  have s3_arg6 := (opsA3_keep (after opsA2 (after opsA1 V)) main_arg6 (by decide)).trans s2_arg6
  have s4_v42 := opsB1_v42 (after opsA3 (after opsA2 (after opsA1 V))) x1 s3_arg1
  have s4_v35 := opsB1_v35 (after opsA3 (after opsA2 (after opsA1 V))) x1 s3_arg1
  have s4_v34 := (opsB1_keep (after opsA3 (after opsA2 (after opsA1 V))) main_v34 (by decide)).trans s3_v34
  have s4_arg2 := (opsB1_keep (after opsA3 (after opsA2 (after opsA1 V))) main_arg2 (by decide)).trans s3_arg2
  have s4_arg4 := (opsB1_keep (after opsA3 (after opsA2 (after opsA1 V))) main_arg4 (by decide)).trans s3_arg4
  have s4_arg3 := (opsB1_keep (after opsA3 (after opsA2 (after opsA1 V))) main_arg3 (by decide)).trans s3_arg3
  have s4_arg5 := (opsB1_keep (after opsA3 (after opsA2 (after opsA1 V))) main_arg5 (by decide)).trans s3_arg5
  have s4_arg6 := (opsB1_keep (after opsA3 (after opsA2 (after opsA1 V))) main_arg6 (by decide)).trans s3_arg6
  have s5_v68 := opsB2_v68 (after opsB1 (after opsA3 (after opsA2 (after opsA1 V)))) x1 s4_v42 s4_v35
  have s5_v66 := opsB2_v66 (after opsB1 (after opsA3 (after opsA2 (after opsA1 V)))) x1 s4_v42 s4_v35
  have s5_v34 := (opsB2_keep (after opsB1 (after opsA3 (after opsA2 (after opsA1 V)))) main_v34 (by decide)).trans s4_v34
  have s5_arg2 := (opsB2_keep (after opsB1 (after opsA3 (after opsA2 (after opsA1 V)))) main_arg2 (by decide)).trans s4_arg2
  have s5_arg4 := (opsB2_keep (after opsB1 (after opsA3 (after opsA2 (after opsA1 V)))) main_arg4 (by decide)).trans s4_arg4
  have s5_arg3 := (opsB2_keep (after opsB1 (after opsA3 (after opsA2 (after opsA1 V)))) main_arg3 (by decide)).trans s4_arg3
  have s5_arg5 := (opsB2_keep (after opsB1 (after opsA3 (after opsA2 (after opsA1 V)))) main_arg5 (by decide)).trans s4_arg5
  have s5_arg6 := (opsB2_keep (after opsB1 (after opsA3 (after opsA2 (after opsA1 V)))) main_arg6 (by decide)).trans s4_arg6
  have s6_v69 := opsB3_v69 (after opsB2 (after opsB1 (after opsA3 (after opsA2 (after opsA1 V))))) x1 s5_v68 s5_v66
  have s6_v34 := (opsB3_keep (after opsB2 (after opsB1 (after opsA3 (after opsA2 (after opsA1 V))))) main_v34 (by decide)).trans s5_v34
  have s6_arg2 := (opsB3_keep (after opsB2 (after opsB1 (after opsA3 (after opsA2 (after opsA1 V))))) main_arg2 (by decide)).trans s5_arg2
  have s6_arg4 := (opsB3_keep (after opsB2 (after opsB1 (after opsA3 (after opsA2 (after opsA1 V))))) main_arg4 (by decide)).trans s5_arg4
  have s6_arg3 := (opsB3_keep (after opsB2 (after opsB1 (after opsA3 (after opsA2 (after opsA1 V))))) main_arg3 (by decide)).trans s5_arg3
  have s6_arg5 := (opsB3_keep (after opsB2 (after opsB1 (after opsA3 (after opsA2 (after opsA1 V))))) main_arg5 (by decide)).trans s5_arg5
  have s6_arg6 := (opsB3_keep (after opsB2 (after opsB1 (after opsA3 (after opsA2 (after opsA1 V))))) main_arg6 (by decide)).trans s5_arg6
  have s7_v114 := opsC_v114 (after opsB3 (after opsB2 (after opsB1 (after opsA3 (after opsA2 (after opsA1 V)))))) x0 x1 x2 x3 x4 s6_v34 s6_v69 s6_arg2 s6_arg4 s6_arg3
  have s7_v115 := opsC_v115 (after opsB3 (after opsB2 (after opsB1 (after opsA3 (after opsA2 (after opsA1 V)))))) x0 x1 x2 x3 x4 s6_v34 s6_v69 s6_arg2 s6_arg4 s6_arg3
  have s7_arg5 := (opsC_keep (after opsB3 (after opsB2 (after opsB1 (after opsA3 (after opsA2 (after opsA1 V)))))) main_arg5 (by decide)).trans s6_arg5
  have s7_arg6 := (opsC_keep (after opsB3 (after opsB2 (after opsB1 (after opsA3 (after opsA2 (after opsA1 V)))))) main_arg6 (by decide)).trans s6_arg6
  have s8_v122 := opsD1_v122 (after opsC (after opsB3 (after opsB2 (after opsB1 (after opsA3 (after opsA2 (after opsA1 V))))))) x0 x1 x2 x3 x4 x5 x6 s7_arg5 s7_v114 s7_arg6 s7_v115
  have s8_v129 := opsD1_v129 (after opsC (after opsB3 (after opsB2 (after opsB1 (after opsA3 (after opsA2 (after opsA1 V))))))) x0 x1 x2 x3 x4 x5 x6 s7_arg5 s7_v114 s7_arg6 s7_v115
  have s8_v115 := (opsD1_keep (after opsC (after opsB3 (after opsB2 (after opsB1 (after opsA3 (after opsA2 (after opsA1 V))))))) main_v115 (by decide)).trans s7_v115
  exact opsD2_v130 (after opsD1 (after opsC (after opsB3 (after opsB2 (after opsB1 (after opsA3 (after opsA2 (after opsA1 V)))))))) x0 x1 x2 x3 x4 x5 x6 s8_v122 s8_v129 s8_v115

/-- A reference no piece writes is, after the whole line, as it was. -/
theorem all_keep (V : Valuation τ sig (Elt F)) (r : Ref sig .tc)
    (h1 : r ∉ opsA1_W) (h2 : r ∉ opsA2_W) (h3 : r ∉ opsA3_W) (h4 : r ∉ opsB1_W) (h5 : r ∉ opsB2_W) (h6 : r ∉ opsB3_W) (h7 : r ∉ opsC_W) (h8 : r ∉ opsD1_W) (h9 : r ∉ opsD2_W) :
    after opsAll V (Proc.devRef .tc r) = V (Proc.devRef .tc r) := by
  rw [after_all]
  exact (opsD2_keep (after opsD1 (after opsC (after opsB3 (after opsB2 (after opsB1 (after opsA3 (after opsA2 (after opsA1 V)))))))) r h9).trans <| (opsD1_keep (after opsC (after opsB3 (after opsB2 (after opsB1 (after opsA3 (after opsA2 (after opsA1 V))))))) r h8).trans <| (opsC_keep (after opsB3 (after opsB2 (after opsB1 (after opsA3 (after opsA2 (after opsA1 V)))))) r h7).trans <| (opsB3_keep (after opsB2 (after opsB1 (after opsA3 (after opsA2 (after opsA1 V))))) r h6).trans <| (opsB2_keep (after opsB1 (after opsA3 (after opsA2 (after opsA1 V)))) r h5).trans <| (opsB1_keep (after opsA3 (after opsA2 (after opsA1 V))) r h4).trans <| (opsA3_keep (after opsA2 (after opsA1 V)) r h3).trans <| (opsA2_keep (after opsA1 V) r h2).trans <| (opsA1_keep V r h1)

/-- On every device, for any float values, from any memory with zero counters: every weakly fair execution of @main
    terminates with the result buffer at the staged term of the arguments' launch contents, and the arguments unchanged. -/
theorem ref_run (m : (ℓ : Loc Cert.ReferenceIdeal.nD Cert.ReferenceIdeal.τ Cert.ReferenceIdeal.sig) → Buf (Elt F) ℓ) (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r => ∀ c : Dev Cert.ReferenceIdeal.nD,
      r.2.mem ((c.tc : Thread _ _).loc Cert.ReferenceIdeal.main_v130) = Cert.ReferenceIdeal.ReadP.val_main_v130 (F := F) (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)
      ∧ r.2.mem ((c.tc : Thread _ _).loc main_arg5) = m ((c.tc : Thread _ _).loc main_arg5)
      ∧ r.2.mem ((c.tc : Thread _ _).loc main_arg6) = m ((c.tc : Thread _ _).loc main_arg6) :=
  (θ_run defs _ _).mono (fun _ h c => ⟨(h c main_v130).trans (all_v130 (launchContents m c) _ _ _ _ _ _ _ rfl rfl rfl rfl rfl rfl rfl),
      (h c main_arg0).trans (all_keep (launchContents m c) main_arg0 (by decide) (by decide) (by decide) (by decide) (by decide) (by decide) (by decide) (by decide) (by decide)),
      (h c main_arg1).trans (all_keep (launchContents m c) main_arg1 (by decide) (by decide) (by decide) (by decide) (by decide) (by decide) (by decide) (by decide) (by decide)),
      (h c main_arg2).trans (all_keep (launchContents m c) main_arg2 (by decide) (by decide) (by decide) (by decide) (by decide) (by decide) (by decide) (by decide) (by decide)),
      (h c main_arg3).trans (all_keep (launchContents m c) main_arg3 (by decide) (by decide) (by decide) (by decide) (by decide) (by decide) (by decide) (by decide) (by decide)),
      (h c main_arg4).trans (all_keep (launchContents m c) main_arg4 (by decide) (by decide) (by decide) (by decide) (by decide) (by decide) (by decide) (by decide) (by decide)),
      (h c main_arg5).trans (all_keep (launchContents m c) main_arg5 (by decide) (by decide) (by decide) (by decide) (by decide) (by decide) (by decide) (by decide) (by decide)),
      (h c main_arg6).trans (all_keep (launchContents m c) main_arg6 (by decide) (by decide) (by decide) (by decide) (by decide) (by decide) (by decide) (by decide) (by decide))⟩)
    (run_after m ρ)

end Cert.Val

end
-- ==== Proof.Claims.lean ====
/-
  The five claims. Frames: the kernel program's run at either float instance, read at the arguments (the
  precondition's index ranges make the two gather tables admissible); the reference's run with its result dropped.
  Value: the kernel program's result is the concatenation of the user gather's rows, the item gather's rows and the
  item half of the summed embeddings; each gathered row is the row of the sum that the index word names (the tiles of
  the gather regions, then the reshapes and slices read at an index), the reference's gathers read the same rows
  (the index normalisation does nothing to a word in range), and the sum itself is one term of the argument arrays
  on both sides. So the two results are one function of the arguments, entry by entry.
-/
import proofs.«423441_j19576460935173_1_alg».proof.Defs
import proofs.«423441_j19576460935173_1_alg».proof.Proof.Gen.Kernel
import proofs.«423441_j19576460935173_1_alg».proof.Proof.Gen.KernelIdeal
import proofs.«423441_j19576460935173_1_alg».proof.Proof.Gen.ReferenceIdeal
import proofs.«423441_j19576460935173_1_alg».proof.Proof.Gen.Pre_finite_inputs
import proofs.«423441_j19576460935173_1_alg».proof.Proof.K.Frame
import proofs.«423441_j19576460935173_1_alg».proof.Proof.KI.Frame
import proofs.«423441_j19576460935173_1_alg».proof.Proof.Val.KerTail
import proofs.«423441_j19576460935173_1_alg».proof.Proof.Val.Chain
import proofs.«423441_j19576460935173_1_alg».proof.Proof.Val.RefTail
import proofs.«423441_j19576460935173_1_alg».proof.Proof.Val.Blocks
import proofs.«423441_j19576460935173_1_alg».proof.Proof.Val.ReadP
import proofs.«423441_j19576460935173_1_alg».proof.Proof.Val.RefRunH

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- Under the precondition the kernel program's last valuation holds, at the result buffer, the reference's result
    term of the same argument arrays. -/
theorem result_eq (hP : PreAt (F := Ideal) m) (c : Dev nD) :
    W7 m ⟨tbl2 m, ok2_of_pre m hP⟩ ⟨tbl3 m, ok3_of_pre m hP⟩ c (Proc.devRef .tc main_v54)
      = Cert.ReferenceIdeal.ReadP.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain rfl : c = 0 := Subsingleton.elim _ _
  refine (v54_eq m ⟨tbl2 m, ok2_of_pre m hP⟩ ⟨tbl3 m, ok3_of_pre m hP⟩ 0
    (Cert.ReferenceIdeal.ReadP.val_main_v122 (F := Ideal) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)))
    (Cert.ReferenceIdeal.ReadP.val_main_v129 (F := Ideal) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg6)))
    (Cert.ReferenceIdeal.ReadP.val_main_v115 (F := Ideal) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))) ?_ ?_ ?_).trans rfl
  · intro i j
    have hr := user_range m hP 0 (ix1 i)
    have hlt := user_toNat_lt m hP 0 (ix1 i)
    have hlt2 : BitVec.toNat ((⟨tbl2 m, ok2_of_pre m hP⟩ : (pcfg2 (F := Ideal)).Adm).1 0 (ix1 i)) < 100000 := user_toNat_lt m hP 0 (ix1 i)
    rw [ref_v122_apply _ _ _ _ _ _ i j hr.1 hr.2 hlt]
    have e1 := congrFun (W4_arr m (⟨tbl2 m, ok2_of_pre m hP⟩ : (pcfg2 (F := Ideal)).Adm) 0 1) (ix3 i (0 : Fin 1) j)
    have e2 := arr2_apply (U3 m) (⟨tbl2 m, ok2_of_pre m hP⟩ : (pcfg2 (F := Ideal)).Adm) 0 i j hlt2
    have e3 := v48_apply m 0 ⟨_, hlt2⟩ j
    exact (e1.trans (e2.trans (e3.trans (congrFun (sum_eq m 0) _)))).symm
  · intro i j
    have hr := pos_range m hP 0 (ix1 i)
    have hlt := pos_toNat_lt m hP 0 (ix1 i)
    have hlt2 : BitVec.toNat ((⟨tbl3 m, ok3_of_pre m hP⟩ : (pcfg3 (F := Ideal)).Adm).1 0 (ix1 i)) < 50000 := pos_toNat_lt m hP 0 (ix1 i)
    rw [ref_v129_apply _ _ _ _ _ _ i j hr.1 hr.2 hlt]
    have e1 := congrFun (W6_arr m (⟨tbl2 m, ok2_of_pre m hP⟩ : (pcfg2 (F := Ideal)).Adm) (⟨tbl3 m, ok3_of_pre m hP⟩ : (pcfg3 (F := Ideal)).Adm) 0 1) (ix3 i (0 : Fin 1) j)
    have e2 := arr3_apply (U5 m (⟨tbl2 m, ok2_of_pre m hP⟩ : (pcfg2 (F := Ideal)).Adm)) (⟨tbl3 m, ok3_of_pre m hP⟩ : (pcfg3 (F := Ideal)).Adm) 0 i j hlt2
    have e3 := v51_apply m (⟨tbl2 m, ok2_of_pre m hP⟩ : (pcfg2 (F := Ideal)).Adm) 0 ⟨_, hlt2⟩ j
    have e4 := v47_apply m 0 ⟨_, hlt2⟩ j
    exact (e1.trans (e2.trans (e3.trans (e4.trans (congrFun (sum_eq m 0) _))))).symm
  · intro r j
    rw [ref_v115_apply]
    exact ((v47_apply m 0 r j).trans (congrFun (sum_eq m 0) _)).symm

end Cert.Val

namespace Cert.Proof.Claims

open Idealize.ShloMosaic Idealize.ShloMosaic.TcCoe Idealize.SL.Sem

/-- The word-level kernel program runs and leaves its arguments as launched. -/
theorem frame_k : Cert.frame_Kernel := fun m ρ hpre => Cert.Kernel.Hand.frame m hpre ρ

/-- The idealized kernel program runs and leaves its arguments as launched. -/
theorem frame_ki : Cert.frame_KernelIdeal := fun m ρ hpre => Cert.KernelIdeal.Hand.frame m hpre ρ

/-- The reference runs and leaves its arguments as launched: its run, the result dropped. -/
theorem frame_ri : Cert.frame_ReferenceIdeal := fun m ρ _ =>
  (θ_run Cert.ReferenceIdeal.defs _ _).mono (fun _ h c => (h c).2) (Cert.Val.ref_run (F := Ideal) m ρ)

/-- Both idealized programs run from agreeing arguments to the same result. -/
theorem algebraic : Cert.algebraic_KernelIdeal_ReferenceIdeal := by
  intro m ρ m' ρ' hpre hagree
  refine ⟨fun c => Cert.ReferenceIdeal.ReadP.val_main_v130 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)), ?_, ?_⟩
  · refine (θ_run Cert.KernelIdeal.defs _ _).mono (fun r h c => ⟨?_, Cert.KernelIdeal.Hand.args_kept m _ _ r.2 h c⟩)
      (Cert.KernelIdeal.Hand.run_all m ⟨Cert.KernelIdeal.Hand.tbl2 m, Cert.KernelIdeal.Hand.ok2_of_pre m hpre⟩
        ⟨Cert.KernelIdeal.Hand.tbl3 m, Cert.KernelIdeal.Hand.ok3_of_pre m hpre⟩ rfl rfl ρ)
    exact (h c _ (Cert.KernelIdeal.Hand.mem_uc Cert.KernelIdeal.main_v54 (by decide))).trans (Cert.Val.result_eq m hpre c)
  · refine (θ_run Cert.ReferenceIdeal.defs _ _).mono (fun r h c => ⟨(h c).1.trans ?_, (h c).2⟩)
      (Cert.Val.ref_run (F := Ideal) m' ρ')
    rw [(hagree c).1, (hagree c).2.1, (hagree c).2.2.1, (hagree c).2.2.2.1,
      (hagree c).2.2.2.2.1, (hagree c).2.2.2.2.2.1, (hagree c).2.2.2.2.2.2]

end Cert.Proof.Claims

end
-- ==== Proof.lean ====
/-
  The certificate of the hyperbolic-embedding kernel program against its jnp reference, over the extended reals:
  the row map (time coordinate recomputed, logarithmic map to the tangent space at the origin) applied tile by tile by
  two kernel regions, three layers of sparse products on the host exactly as the reference's, and the final row
  gathers by two table-indexed kernel regions where the reference indexes directly. Stated under the precondition
  "the float inputs are finite and every word of `user` and `pos` names a row of the table it indexes".
  The conjuncts are proved in Proof/Claims.lean; the idealization rewrote nothing, so the preservation claim is `True`.
-/
import proofs.«423441_j19576460935173_1_alg».proof.Defs
import proofs.«423441_j19576460935173_1_alg».proof.Proof.Gen.Kernel
import proofs.«423441_j19576460935173_1_alg».proof.Proof.Gen.KernelIdeal
import proofs.«423441_j19576460935173_1_alg».proof.Proof.Gen.ReferenceIdeal
import proofs.«423441_j19576460935173_1_alg».proof.Proof.Gen.Pre_finite_inputs
import proofs.«423441_j19576460935173_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial, Cert.Proof.Claims.algebraic⟩

end Cert.Proof

end
